-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S40x1024 : Shape := ⟨2, ![40, 1024]⟩
abbrev S50257x1024 : Shape := ⟨2, ![50257, 1024]⟩
abbrev S40x2048 : Shape := ⟨2, ![40, 2048]⟩
abbrev S40 : Shape := ⟨1, ![40]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S40x1024 : S_.BroadcastsInDim S40x1024 (![] : Fin 0 → Fin S40x1024.rank)
  reducesTo_S40x1024_S_d0_1 : S40x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S40x2048 : S_.BroadcastsInDim S40x2048 (![] : Fin 0 → Fin S40x2048.rank)
  reducesTo_S40x2048_S_d0_1 : S40x2048.ReducesTo [0, 1] S_
  bcast_S_S40 : S_.BroadcastsInDim S40 (![] : Fin 0 → Fin S40.rank)
  reducesTo_S40_S_d0 : S40.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S40 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S40x2048 1) : IVec S_ 1 :=
  let main_c_5 : IVec S_ 1 := constantI S_ 1 1#1
  let main_v17 : IVec S_ 1 := (fun x v => Host.reduce IntOp.andi x v reducesTo_S40x2048_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S40x1024 .f32) (main_arg3 : FVec F S50257x1024 .f32) (main_arg4 : FVec F S40x2048 .f32) (main_arg5 : FVec F S40 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S40x1024 .f32 := Host.absf main_arg2
  let main_cst_0 : FVec F S_ .f32 := constant S_ .f32 0x7F800000#32
  let main_v5 : FVec F S40x1024 .f32 := broadcastInDim S40x1024 ![] bcast_S_S40x1024 main_cst_0
  let main_v6 : IVec S40x1024 1 := cmpf .olt main_v4 main_v5
  let main_c_1 : IVec S_ 1 := constantI S_ 1 1#1
  let main_v7 : IVec S_ 1 := (fun x v => Host.reduce IntOp.andi x v reducesTo_S40x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S40x2048 .f32 := Host.absf main_arg4
  let main_cst_4 : FVec F S_ .f32 := constant S_ .f32 0x7F800000#32
  let main_v15 : FVec F S40x2048 .f32 := broadcastInDim S40x2048 ![] bcast_S_S40x2048 main_cst_4
  let main_v16 : IVec S40x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S40x1024 : Shape := ⟨2, ![40, 1024]⟩
abbrev S50257x1024 : Shape := ⟨2, ![50257, 1024]⟩
abbrev S40x2048 : Shape := ⟨2, ![40, 2048]⟩
abbrev S40 : Shape := ⟨1, ![40]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x40 : Shape := ⟨2, ![1, 40]⟩
abbrev S1x3072 : Shape := ⟨2, ![1, 3072]⟩
abbrev S1x50257 : Shape := ⟨2, ![1, 50257]⟩
abbrev S1x2048 : Shape := ⟨2, ![1, 2048]⟩
abbrev S2048x40 : Shape := ⟨2, ![2048, 40]⟩
abbrev S512x2048 : Shape := ⟨2, ![512, 2048]⟩
abbrev S1x512 : Shape := ⟨2, ![1, 512]⟩
abbrev S2048x512 : Shape := ⟨2, ![2048, 512]⟩
abbrev S768x1024 : Shape := ⟨2, ![768, 1024]⟩
abbrev S1x768 : Shape := ⟨2, ![1, 768]⟩
abbrev S1024x768 : Shape := ⟨2, ![1024, 768]⟩
abbrev S2048x1024 : Shape := ⟨2, ![2048, 1024]⟩

abbrev nBuf : Space → Nat
  | .hbm => 85
  | .vmem => 35
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S40x1024, .f32⟩
  | .hbm, ⟨3, _⟩ => ⟨S50257x1024, .f32⟩
  | .hbm, ⟨4, _⟩ => ⟨S40x2048, .f32⟩
  | .hbm, ⟨5, _⟩ => ⟨S40, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x40, .f32⟩
  | .hbm, ⟨25, _⟩ => ⟨S1x1024, .f32⟩
  | .hbm, ⟨26, _⟩ => ⟨S1x3072, .f32⟩
  | .hbm, ⟨27, _⟩ => ⟨S1x3072, .f32⟩
  | .hbm, ⟨28, _⟩ => ⟨S1x50257, .f32⟩
  | .hbm, ⟨29, _⟩ => ⟨S1x1024, .f32⟩
  | .hbm, ⟨30, _⟩ => ⟨S1x40, .f32⟩
  | .hbm, ⟨31, _⟩ => ⟨S1x2048, .f32⟩
  | .hbm, ⟨32, _⟩ => ⟨S1x1024, .f32⟩
  | .hbm, ⟨33, _⟩ => ⟨S1x3072, .f32⟩
  | .hbm, ⟨34, _⟩ => ⟨S1x3072, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x50257, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S1, .f32⟩
  | .hbm, ⟨74, _⟩ => ⟨S1x1, .f32⟩
  | .hbm, ⟨75, _⟩ => ⟨S1x50257, .f32⟩
  | .hbm, ⟨76, _⟩ => ⟨S1x50257, .f32⟩
  | .hbm, ⟨77, _⟩ => ⟨S1x50257, .f32⟩
  | .hbm, ⟨78, _⟩ => ⟨S_, .f32⟩
  | .hbm, ⟨79, _⟩ => ⟨S1, .f32⟩
  | .hbm, ⟨80, _⟩ => ⟨S1x1, .f32⟩
  | .hbm, ⟨81, _⟩ => ⟨S1x1, .f32⟩
  | .hbm, ⟨82, _⟩ => ⟨S1x50257, .f32⟩
  | .hbm, ⟨83, _⟩ => ⟨S1x50257, .f32⟩
  | .hbm, ⟨84, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S40x2048, .f32⟩
  | .local _ .vmem, ⟨3, _⟩ => ⟨S1x40, .f32⟩
  | .local _ .vmem, ⟨4, _⟩ => ⟨S40x1024, .f32⟩
  | .local _ .vmem, ⟨5, _⟩ => ⟨S1x1024, .f32⟩
  | .local _ .vmem, ⟨6, _⟩ => ⟨S1x40, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S768x1024, .f32⟩
  | .local _ .vmem, ⟨17, _⟩ => ⟨S768x1024, .f32⟩
  | .local _ .vmem, ⟨18, _⟩ => ⟨S768x1024, .f32⟩
  | .local _ .vmem, ⟨19, _⟩ => ⟨S768x1024, .f32⟩
  | .local _ .vmem, ⟨20, _⟩ => ⟨S1x768, .f32⟩
  | .local _ .vmem, ⟨21, _⟩ => ⟨S1x768, .f32⟩
  | .local _ .vmem, ⟨22, _⟩ => ⟨S1x768, .f32⟩
  | .local _ .vmem, ⟨23, _⟩ => ⟨S1x768, .f32⟩
  | .local _ .vmem, ⟨24, _⟩ => ⟨S1x768, .f32⟩
  | .local _ .vmem, ⟨25, _⟩ => ⟨S1x768, .f32⟩
  | .local _ .vmem, ⟨26, _⟩ => ⟨S1x768, .f32⟩
  | .local _ .vmem, ⟨27, _⟩ => ⟨S1x768, .f32⟩
  | .local _ .vmem, ⟨28, _⟩ => ⟨S1x1024, .f32⟩
  | .local _ .vmem, ⟨29, _⟩ => ⟨S2048x1024, .f32⟩
  | .local _ .vmem, ⟨30, _⟩ => ⟨S2048x1024, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_call0_cst_0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_cst_1 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_v46 : Ref sig .tc := ⟨.hbm, 83, rfl⟩
abbrev main_v47 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S768x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S768x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S40_S1x40 : S40.ShapeCasts S1x40
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  bitsLt_bf16_f32 : FTy.bits .bf16 < FTy.bits .f32
  inb_S40x2048_S40x2048_0_0 : ∀ a, (![0, 0] : Fin 2 → Nat) a + S40x2048.size a ≤ S40x2048.size a
  h_S40x2048 : 0 < S40x2048.numel
  transposes_S40x2048_p1_0_S2048x40 : S40x2048.Transposes [1, 0] S2048x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  reduces_S1x40_S1 : S1x40.Reduces [1] S1
  shapeCasts_S1_S1x1 : S1.ShapeCasts S1x1
  broadcasts_S1x1_S1x40 : S1x1.Broadcasts S1x40
  inb_S40x1024_S40x1024_0_0 : ∀ a, (![0, 0] : Fin 2 → Nat) a + S40x1024.size a ≤ S40x1024.size a
  h_S40x1024 : 0 < S40x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S768x1024_S768x1024_0_0 : ∀ a, (![0, 0] : Fin 2 → Nat) a + S768x1024.size a ≤ S768x1024.size a
  h_S768x1024 : 0 < S768x1024.numel
  transposes_S768x1024_p1_0_S1024x768 : S768x1024.Transposes [1, 0] S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  iota_S1x2048_d1_w32 : S1x2048.Iotas .tc 32 [1]
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x40_S1x40_1_0_0_1_n_n_wf : DotDims.WF S1x2048 S2048x40 S1x40 [1] [0] [0] [1] [] []
  dot_S1x40_S40x1024_S1x1024_1_0_0_1_n_n_wf : DotDims.WF S1x40 S40x1024 S1x1024 [1] [0] [0] [1] [] []
  dot_S1x2048_S2048x512_S1x512_1_0_0_1_n_n_wf : DotDims.WF S1x2048 S2048x512 S1x512 [1] [0] [0] [1] [] []
  dot_S1x1024_S1024x768_S1x768_1_0_0_1_n_n_wf : DotDims.WF S1x1024 S1024x768 S1x768 [1] [0] [0] [1] [] []
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x2048.size a ≤ S40x2048.size a
  hwx0_2 : ∀ i : grid0.Coords, EltTy.bits .f32 = 32 ∨ (Rect.block (s := S40x2048) S40x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x1024.size a ≤ S40x1024.size a
  hwx0_4 : ∀ i : grid0.Coords, EltTy.bits .f32 = 32 ∨ (Rect.block (s := S40x1024) S40x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S1024x2048.size a
  hwx1_1 : ∀ i : grid1.Coords, EltTy.bits .f32 = 32 ∨ (Rect.block (s := S1024x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x1024.size a
  hwx1_3 : ∀ i : grid1.Coords, EltTy.bits .f32 = 32 ∨ (Rect.block (s := S1x1024) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S768x1024.size a ≤ S3072x1024.size a
  hwx2_2 : ∀ i : grid2.Coords, EltTy.bits .f32 = 32 ∨ (Rect.block (s := S3072x1024) S768x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S768x1024.size a ≤ S3072x1024.size a
  hwx2_3 : ∀ i : grid2.Coords, EltTy.bits .f32 = 32 ∨ (Rect.block (s := S3072x1024) S768x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x3072.size a
  hwx2_4 : ∀ i : grid2.Coords, EltTy.bits .f32 = 32 ∨ (Rect.block (s := S1x3072) S1x768.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x3072.size a
  hwx2_5 : ∀ i : grid2.Coords, EltTy.bits .f32 = 32 ∨ (Rect.block (s := S1x3072) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x768.size a ≤ S1x3072.size a
  hwx2_6 : ∀ i : grid2.Coords, EltTy.bits .f32 = 32 ∨ (Rect.block (s := S1x3072) S1x768.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x768.size a ≤ S1x3072.size a
  hwx2_7 : ∀ i : grid2.Coords, EltTy.bits .f32 = 32 ∨ (Rect.block (s := S1x3072) S1x768.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x1024.size a < S50257x1024.size a
  hwx3_1 : ∀ i : grid3.Coords, EltTy.bits .f32 = 32 ∨ (Rect.unit (s := S50257x1024) (fun a => cc3_transform_1 i a * S2048x1024.size a) (fun a => (Pipeline.Clip.of (cc3_transform_1 i a) (S2048x1024.size a) (S50257x1024.size a)).extent (S2048x1024.size a)) fun a => Pipeline.Clip.inb (Pipeline.Clip.ok_of (hstart3_1 i a))).WholeWords (EltTy.packing .f32)
  hwxs3_1 : ∀ i : grid3.Coords, EltTy.bits .f32 = 32 ∨ (Rect.unit (s := S2048x1024) (fun _ => 0) (fun a => (Pipeline.Clip.of (cc3_transform_1 i a) (S2048x1024.size a) (S50257x1024.size a)).extent (S2048x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x2048.size a < S1x50257.size a
  hwx3_2 : ∀ i : grid3.Coords, EltTy.bits .f32 = 32 ∨ (Rect.unit (s := S1x50257) (fun a => cc3_transform_2 i a * S1x2048.size a) (fun a => (Pipeline.Clip.of (cc3_transform_2 i a) (S1x2048.size a) (S1x50257.size a)).extent (S1x2048.size a)) fun a => Pipeline.Clip.inb (Pipeline.Clip.ok_of (hstart3_2 i a))).WholeWords (EltTy.packing .f32)
  hwxs3_2 : ∀ i : grid3.Coords, EltTy.bits .f32 = 32 ∨ (Rect.unit (s := S1x2048) (fun _ => 0) (fun a => (Pipeline.Clip.of (cc3_transform_2 i a) (S1x2048.size a) (S1x50257.size a)).extent (S1x2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x40_S1x40_1_0_0_1_n_n : DotDims S1x2048 S2048x40 S1x40 where
  lhsContracting := [1]
  rhsContracting := [0]
  lhsNonContracting := [0]
  rhsNonContracting := [1]
  lhsBatch := []
  rhsBatch := []
  wf := dot_S1x2048_S2048x40_S1x40_1_0_0_1_n_n_wf
def dot_S1x40_S40x1024_S1x1024_1_0_0_1_n_n : DotDims S1x40 S40x1024 S1x1024 where
  lhsContracting := [1]
  rhsContracting := [0]
  lhsNonContracting := [0]
  rhsNonContracting := [1]
  lhsBatch := []
  rhsBatch := []
  wf := dot_S1x40_S40x1024_S1x1024_1_0_0_1_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x1024_S1024x768_S1x768_1_0_0_1_n_n : DotDims S1x1024 S1024x768 S1x768 where
  lhsContracting := [1]
  rhsContracting := [0]
  lhsNonContracting := [0]
  rhsNonContracting := [1]
  lhsBatch := []
  rhsBatch := []
  wf := dot_S1x1024_S1024x768_S1x768_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S40x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S40x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x40.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S768x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S768x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x768.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x768.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S1x768.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S1x768.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v44) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S2048x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v12) S1x2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v45) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S40x1024 : Shape := ⟨2, ![40, 1024]⟩
abbrev S50257x1024 : Shape := ⟨2, ![50257, 1024]⟩
abbrev S40x2048 : Shape := ⟨2, ![40, 2048]⟩
abbrev S40 : Shape := ⟨1, ![40]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x40 : Shape := ⟨2, ![2048, 40]⟩
abbrev S1x40 : Shape := ⟨2, ![1, 40]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S40x1024, .f32⟩
  | .hbm, ⟨3, _⟩ => ⟨S50257x1024, .f32⟩
  | .hbm, ⟨4, _⟩ => ⟨S40x2048, .f32⟩
  | .hbm, ⟨5, _⟩ => ⟨S40, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x40, .f32⟩
  | .hbm, ⟨26, _⟩ => ⟨S1x40, .f32⟩
  | .hbm, ⟨27, _⟩ => ⟨S1x40, .f32⟩
  | .hbm, ⟨28, _⟩ => ⟨S1x40, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x40, .f32⟩
  | .hbm, ⟨36, _⟩ => ⟨S1x40, .f32⟩
  | .hbm, ⟨37, _⟩ => ⟨S1x40, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x40, .f32⟩
  | .hbm, ⟨42, _⟩ => ⟨S1x40, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S40x2048_S2048x40_1_0 : S40x2048.Transposes [1, 0] S2048x40
  bcast_S40_S1x40_1 : S40.BroadcastsInDim S1x40 (![1] : Fin 1 → Fin S1x40.rank)
  reducesTo_S1x40_S1_d1 : S1x40.ReducesTo [1] S1
  h_S_ : 0 < S_.numel
  bcast_S1x1_S1x40_0_1 : S1x1.BroadcastsInDim S1x40 (![0, 1] : Fin 2 → Fin S1x40.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x40_S1x40_1_0_0_1_n_n_wf : DotDims.WF S1x2048 S2048x40 S1x40 [1] [0] [0] [1] [] []
  dot_S1x40_S40x1024_S1x1024_1_0_0_1_n_n_wf : DotDims.WF S1x40 S40x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x40_S1x40_1_0_0_1_n_n : DotDims S1x2048 S2048x40 S1x40 where
  lhsContracting := [1]
  rhsContracting := [0]
  lhsNonContracting := [0]
  rhsNonContracting := [1]
  lhsBatch := []
  rhsBatch := []
  wf := dot_S1x2048_S2048x40_S1x40_1_0_0_1_n_n_wf
def dot_S1x40_S40x1024_S1x1024_1_0_0_1_n_n : DotDims S1x40 S40x1024 S1x1024 where
  lhsContracting := [1]
  rhsContracting := [0]
  lhsNonContracting := [0]
  rhsNonContracting := [1]
  lhsBatch := []
  rhsBatch := []
  wf := dot_S1x40_S40x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefRunH.lean ====
/-
  The reference program's run, stretch by stretch. @main is a line of 99 operations; it is cut into eight stretches
  (the index wrap, the embedding gather and the hidden row; the attention logits; the softmax; the weighted sum, the
  concatenation, the combine projection and relu; the two GRU projections; the gate arithmetic; the output projection;
  log_softmax and the hidden state's reshape). The buffers after the whole line are the eighth fold of the stretches
  from the launch contents. After each stretch the few buffers that later stretches or the results read hold the
  reference's stage functions of the arguments' launch contents: a stage is by definition its operation applied to
  earlier stages, so each stretch's results are read off its own operations, the buffers it reads being stages
  already identified; a buffer a stretch does not write holds what it held. Conclusion: every weakly fair execution
  terminates, the three results are the stages log_softmax, new hidden state and attention weights of the launch
  arguments, and the fourteen arguments are unchanged. At any float instance.
-/
import proofs.«413161_j58153857188588_3_alg».proof.Proof.RefRead
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## Folding a line of operations piece by piece -/

/-- The buffers after two lines run one after the other: the second line's fold from the first's. -/
theorem after_append (A B : List (HloOp τ sig (Elt F))) (V : Valuation τ sig (Elt F)) :
    after (A ++ B) V = after B (after A V) := by
  induction A generalizing V with
  | nil => rfl
  | cons op A ih => exact ih _

/-- What holds of every operation of two lines holds of every operation of their concatenation. -/
theorem forall_append {p : HloOp τ sig (Elt F) → Prop} {A B : List (HloOp τ sig (Elt F))} (hA : A.Forall p) (hB : B.Forall p) :
    (A ++ B).Forall p :=
  List.forall_iff_forall_mem.mpr fun x hx =>
    (List.mem_append.mp hx).elim (List.forall_iff_forall_mem.mp hA x) (List.forall_iff_forall_mem.mp hB x)

/-- Moving a tensor value into its buffer's own type and back is the identity. -/
theorem ofBuf_toBuf {Val : EltTy → Type} {T : BufTy} (x : TRef sig T) (v : T.Contents Val) : x.ofBuf (x.toBuf v) = v := by
  obtain ⟨r, h, _, _⟩ := x; subst h; rfl

/-! ## @main's 99 operations in eight stretches -/

/-- Stretch 1: the index wrap, the embedding gather and the hidden row. -/
abbrev seg1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub ..⟩
theorem seg1_fresh : (seg1 : List (HloOp τ sig (Elt F))).Forall fun op => op.fresh = ∅ := by
  simp only [List.Forall]; repeat' constructor
/-- The buffers stretch 1 writes. -/
abbrev seg1_W : List (Ref sig .tc) := [main_c, main_v0, main_v1, main_c_0, main_v2, main_v3, main_v4, main_v5, main_v6, main_v7]
theorem seg1_writes : (seg1 : List (HloOp τ sig (Elt F))).Forall fun op => op.writes ⊆ (seg1_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_⟩ <;> exact List.mem_map_of_mem (by decide)
/-- A buffer stretch 1 does not write holds after it what it held before. -/
theorem keep1 (U : Valuation τ sig (Elt F)) {r : Ref sig .tc} (h : r ∉ seg1_W) :
    after seg1 U (Proc.devRef .tc r) = U (Proc.devRef .tc r) :=
  after_of_writes_sub seg1 U seg1_writes h

/-- Stretch 2: the attention logits. -/
abbrev seg2 : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x40 [1, 0] · transposes_S40x2048_S2048x40_1_0) : (⟨S40x2048, .f32⟩ : BufTy).Contents (Elt F) → (⟨S2048x40, .f32⟩ : BufTy).Contents (Elt F)),
    binary main_v8 main_v9 main_v10 ((fun l r => Host.dotGeneral dot_S1x2048_S2048x40_S1x40_1_0_0_1_n_n none l r) : (⟨S1x2048, .f32⟩ : BufTy).Contents (Elt F) → (⟨S2048x40, .f32⟩ : BufTy).Contents (Elt F) → (⟨S1x40, .f32⟩ : BufTy).Contents (Elt F)),
    unary main_arg5 main_v11 (broadcastInDim S1x40 ![1] bcast_S40_S1x40_1 : (⟨S40, .f32⟩ : BufTy).Contents (Elt F) → (⟨S1x40, .f32⟩ : BufTy).Contents (Elt F)),
    binary main_v10 main_v11 main_v12 (addf : (⟨S1x40, .f32⟩ : BufTy).Contents (Elt F) → (⟨S1x40, .f32⟩ : BufTy).Contents (Elt F) → (⟨S1x40, .f32⟩ : BufTy).Contents (Elt F)) ]
theorem seg2_sub : (seg2 : List (HloOp τ sig (Elt F))).Forall fun op => op.bufs ⊆ tcRefs τ sig :=
  ⟨binary_bufs_sub .., unary_bufs_sub .., binary_bufs_sub .., unary_bufs_sub .., binary_bufs_sub ..⟩
theorem seg2_fresh : (seg2 : List (HloOp τ sig (Elt F))).Forall fun op => op.fresh = ∅ := by
  simp only [List.Forall]; repeat' constructor
/-- The buffers stretch 2 writes. -/
abbrev seg2_W : List (Ref sig .tc) := [main_v8, main_v9, main_v10, main_v11, main_v12]
theorem seg2_writes : (seg2 : List (HloOp τ sig (Elt F))).Forall fun op => op.writes ⊆ (seg2_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)
/-- A buffer stretch 2 does not write holds after it what it held before. -/
theorem keep2 (U : Valuation τ sig (Elt F)) {r : Ref sig .tc} (h : r ∉ seg2_W) :
    after seg2 U (Proc.devRef .tc r) = U (Proc.devRef .tc r) :=
  after_of_writes_sub seg2 U seg2_writes h

/-- Stretch 3: the softmax over the 40 logits. -/
abbrev seg3 : List (HloOp τ sig (Elt F)) :=
  [ nullary main_cst (constant S_ .f32 0xFF800000#32),
    binary main_v12 main_cst main_v13 ((fun x v => Host.reduce FloatOps.maximumf x v reducesTo_S1x40_S1_d1 h_S_) : (⟨S1x40, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x40 ![0, 1] bcast_S1x1_S1x40_0_1 : (⟨S1x1, .f32⟩ : BufTy).Contents (Elt F) → (⟨S1x40, .f32⟩ : BufTy).Contents (Elt F)),
    binary main_v12 main_v17 main_v18 (subf : (⟨S1x40, .f32⟩ : BufTy).Contents (Elt F) → (⟨S1x40, .f32⟩ : BufTy).Contents (Elt F) → (⟨S1x40, .f32⟩ : BufTy).Contents (Elt F)),
    unary main_v18 main_v19 (Host.exp : (⟨S1x40, .f32⟩ : BufTy).Contents (Elt F) → (⟨S1x40, .f32⟩ : BufTy).Contents (Elt F)),
    nullary main_cst_2 (constant S_ .f32 0x00000000#32),
    binary main_v19 main_cst_2 main_v20 ((fun x v => Host.reduceAdd x v reducesTo_S1x40_S1_d1 h_S_) : (⟨S1x40, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x40 ![0, 1] bcast_S1x1_S1x40_0_1 : (⟨S1x1, .f32⟩ : BufTy).Contents (Elt F) → (⟨S1x40, .f32⟩ : BufTy).Contents (Elt F)),
    binary main_v19 main_v22 main_v23 (Host.divf : (⟨S1x40, .f32⟩ : BufTy).Contents (Elt F) → (⟨S1x40, .f32⟩ : BufTy).Contents (Elt F) → (⟨S1x40, .f32⟩ : BufTy).Contents (Elt F)) ]
theorem seg3_sub : (seg3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem seg3_fresh : (seg3 : List (HloOp τ sig (Elt F))).Forall fun op => op.fresh = ∅ := by
  simp only [List.Forall]; repeat' constructor
/-- The buffers stretch 3 writes. -/
abbrev seg3_W : List (Ref sig .tc) := [main_cst, main_v13, main_cst_1, main_v14, main_v15, main_v16, main_v17, main_v18, main_v19, main_cst_2, main_v20, main_v21, main_v22, main_v23]
theorem seg3_writes : (seg3 : List (HloOp τ sig (Elt F))).Forall fun op => op.writes ⊆ (seg3_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_⟩ <;> exact List.mem_map_of_mem (by decide)
/-- A buffer stretch 3 does not write holds after it what it held before. -/
theorem keep3 (U : Valuation τ sig (Elt F)) {r : Ref sig .tc} (h : r ∉ seg3_W) :
    after seg3 U (Proc.devRef .tc r) = U (Proc.devRef .tc r) :=
  after_of_writes_sub seg3 U seg3_writes h

/-- Stretch 4: the weighted sum, the concatenation, the combine projection and relu. -/
abbrev seg4 : List (HloOp τ sig (Elt F)) :=
  [ binary main_v23 main_arg2 main_v24 ((fun l r => Host.dotGeneral dot_S1x40_S40x1024_S1x1024_1_0_0_1_n_n none l r) : (⟨S1x40, .f32⟩ : BufTy).Contents (Elt F) → (⟨S40x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]
theorem seg4_sub : (seg4 : List (HloOp τ sig (Elt F))).Forall fun op => op.bufs ⊆ tcRefs τ sig :=
  ⟨binary_bufs_sub .., binary_bufs_sub .., unary_bufs_sub .., binary_bufs_sub .., unary_bufs_sub .., binary_bufs_sub .., nullary_bufs_sub .., unary_bufs_sub .., binary_bufs_sub ..⟩
theorem seg4_fresh : (seg4 : List (HloOp τ sig (Elt F))).Forall fun op => op.fresh = ∅ := by
  simp only [List.Forall]; repeat' constructor
/-- The buffers stretch 4 writes. -/
abbrev seg4_W : List (Ref sig .tc) := [main_v24, main_v25, main_v26, main_v27, main_v28, main_v29, main_call0_cst, main_call0_v0, main_v30]
theorem seg4_writes : (seg4 : List (HloOp τ sig (Elt F))).Forall fun op => op.writes ⊆ (seg4_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_⟩ <;> exact List.mem_map_of_mem (by decide)
/-- A buffer stretch 4 does not write holds after it what it held before. -/
theorem keep4 (U : Valuation τ sig (Elt F)) {r : Ref sig .tc} (h : r ∉ seg4_W) :
    after seg4 U (Proc.devRef .tc r) = U (Proc.devRef .tc r) :=
  after_of_writes_sub seg4 U seg4_writes h

/-- Stretch 5: the two GRU projections. -/
abbrev seg5 : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]
theorem seg5_sub : (seg5 : List (HloOp τ sig (Elt F))).Forall fun op => op.bufs ⊆ tcRefs τ sig :=
  ⟨unary_bufs_sub .., binary_bufs_sub .., unary_bufs_sub .., binary_bufs_sub .., unary_bufs_sub .., binary_bufs_sub .., unary_bufs_sub .., binary_bufs_sub ..⟩
theorem seg5_fresh : (seg5 : List (HloOp τ sig (Elt F))).Forall fun op => op.fresh = ∅ := by
  simp only [List.Forall]; repeat' constructor
/-- The buffers stretch 5 writes. -/
abbrev seg5_W : List (Ref sig .tc) := [main_v31, main_v32, main_v33, main_v34, main_v35, main_v36, main_v37, main_v38]
theorem seg5_writes : (seg5 : List (HloOp τ sig (Elt F))).Forall fun op => op.writes ⊆ (seg5_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_⟩ <;> exact List.mem_map_of_mem (by decide)
/-- A buffer stretch 5 does not write holds after it what it held before. -/
theorem keep5 (U : Valuation τ sig (Elt F)) {r : Ref sig .tc} (h : r ∉ seg5_W) :
    after seg5 U (Proc.devRef .tc r) = U (Proc.devRef .tc r) :=
  after_of_writes_sub seg5 U seg5_writes h

/-- Stretch 6: the gate arithmetic. -/
abbrev seg6 : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]
theorem seg6_sub : (seg6 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
theorem seg6_fresh : (seg6 : List (HloOp τ sig (Elt F))).Forall fun op => op.fresh = ∅ := by
  simp only [List.Forall]; repeat' constructor
/-- The buffers stretch 6 writes. -/
abbrev seg6_W : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]
theorem seg6_writes : (seg6 : List (HloOp τ sig (Elt F))).Forall fun op => op.writes ⊆ (seg6_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch 6 does not write holds after it what it held before. -/
theorem keep6 (U : Valuation τ sig (Elt F)) {r : Ref sig .tc} (h : r ∉ seg6_W) :
    after seg6 U (Proc.devRef .tc r) = U (Proc.devRef .tc r) :=
  after_of_writes_sub seg6 U seg6_writes h

/-- Stretch 7: the output projection. -/
abbrev seg7 : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]
theorem seg7_sub : (seg7 : List (HloOp τ sig (Elt F))).Forall fun op => op.bufs ⊆ tcRefs τ sig :=
  ⟨unary_bufs_sub .., binary_bufs_sub .., unary_bufs_sub .., binary_bufs_sub ..⟩
theorem seg7_fresh : (seg7 : List (HloOp τ sig (Elt F))).Forall fun op => op.fresh = ∅ := by
  simp only [List.Forall]; repeat' constructor
/-- The buffers stretch 7 writes. -/
abbrev seg7_W : List (Ref sig .tc) := [main_v67, main_v68, main_v69, main_v70]
theorem seg7_writes : (seg7 : List (HloOp τ sig (Elt F))).Forall fun op => op.writes ⊆ (seg7_W.map (Proc.devRef (τ := τ) .tc)).toFinset := by
  simp only [List.Forall, nullary_writes, unary_writes, binary_writes, ternary_writes, reshape_writes, Finset.singleton_subset_iff, List.mem_toFinset]
  refine ⟨?_, ?_, ?_, ?_⟩ <;> exact List.mem_map_of_mem (by decide)
/-- A buffer stretch 7 does not write holds after it what it held before. -/
theorem keep7 (U : Valuation τ sig (Elt F)) {r : Ref sig .tc} (h : r ∉ seg7_W) :
    after seg7 U (Proc.devRef .tc r) = U (Proc.devRef .tc r) :=
  after_of_writes_sub seg7 U seg7_writes h

/-- Stretch 8: log_softmax, and the hidden state's reshape. -/
abbrev seg8 : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]
theorem seg8_sub : (seg8 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩
theorem seg8_fresh : (seg8 : List (HloOp τ sig (Elt F))).Forall fun op => op.fresh = ∅ := by
  simp only [List.Forall]; repeat' constructor
/-- The buffers stretch 8 writes. -/
abbrev seg8_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]
theorem seg8_writes : (seg8 : List (HloOp τ sig (Elt F))).Forall fun op => op.writes ⊆ (seg8_W.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_⟩ <;> exact List.mem_map_of_mem (by decide)
/-- A buffer stretch 8 does not write holds after it what it held before. -/
theorem keep8 (U : Valuation τ sig (Elt F)) {r : Ref sig .tc} (h : r ∉ seg8_W) :
    after seg8 U (Proc.devRef .tc r) = U (Proc.devRef .tc r) :=
  after_of_writes_sub seg8 U seg8_writes h

/-- @main's operations: the eight stretches in order. -/
abbrev opsH : List (HloOp τ sig (Elt F)) := seg1 ++ (seg2 ++ (seg3 ++ (seg4 ++ (seg5 ++ (seg6 ++ (seg7 ++ seg8))))))
theorem opsH_sub : (opsH : List (HloOp τ sig (Elt F))).Forall fun op => op.bufs ⊆ tcRefs τ sig :=
  forall_append seg1_sub <| forall_append seg2_sub <| forall_append seg3_sub <| forall_append seg4_sub <| forall_append seg5_sub <|
    forall_append seg6_sub <| forall_append seg7_sub seg8_sub
theorem opsH_fresh : (opsH : List (HloOp τ sig (Elt F))).Forall fun op => op.fresh = ∅ :=
  forall_append seg1_fresh <| forall_append seg2_fresh <| forall_append seg3_fresh <| forall_append seg4_fresh <| forall_append seg5_fresh <|
    forall_append seg6_fresh <| forall_append seg7_fresh seg8_fresh

/-! ## The buffers after each stretch, from any contents U0 -/

section Fold

variable (U0 : Valuation τ sig (Elt F))

def U1 : Valuation τ sig (Elt F) := after seg1 U0
def U2 : Valuation τ sig (Elt F) := after seg2 (U1 U0)
def U3 : Valuation τ sig (Elt F) := after seg3 (U2 U0)
def U4 : Valuation τ sig (Elt F) := after seg4 (U3 U0)
def U5 : Valuation τ sig (Elt F) := after seg5 (U4 U0)
def U6 : Valuation τ sig (Elt F) := after seg6 (U5 U0)
def U7 : Valuation τ sig (Elt F) := after seg7 (U6 U0)
def U8 : Valuation τ sig (Elt F) := after seg8 (U7 U0)

/-- The whole line's fold is the last of them. -/
theorem after_opsH : after opsH U0 = U8 U0 :=
  (after_append seg1 _ U0).trans <| (after_append seg2 _ _).trans <| (after_append seg3 _ _).trans <| (after_append seg4 _ _).trans <|
    (after_append seg5 _ _).trans <| (after_append seg6 _ _).trans <| (after_append seg7 _ _).trans rfl

-- the fourteen arguments' contents at the start
set_option quotPrecheck false
local notation "A0" => U0 (Proc.devRef .tc main_arg0)
local notation "A1" => U0 (Proc.devRef .tc main_arg1)
local notation "A2" => U0 (Proc.devRef .tc main_arg2)
local notation "A3" => U0 (Proc.devRef .tc main_arg3)
local notation "A4" => U0 (Proc.devRef .tc main_arg4)
local notation "A5" => U0 (Proc.devRef .tc main_arg5)
local notation "A6" => U0 (Proc.devRef .tc main_arg6)
local notation "A7" => U0 (Proc.devRef .tc main_arg7)
local notation "A8" => U0 (Proc.devRef .tc main_arg8)
local notation "A9" => U0 (Proc.devRef .tc main_arg9)
local notation "A10" => U0 (Proc.devRef .tc main_arg10)
local notation "A11" => U0 (Proc.devRef .tc main_arg11)
local notation "A12" => U0 (Proc.devRef .tc main_arg12)
local notation "A13" => U0 (Proc.devRef .tc main_arg13)

/-! ### Stretch 1 -/

theorem u1_v6 : U1 U0 (Proc.devRef .tc main_v6) = val_main_v6 A0 A3 := by
  show after seg1 U0 (Proc.devRef .tc main_v6) = _
  after_results
  rfl
theorem u1_v7 : U1 U0 (Proc.devRef .tc main_v7) = val_main_v7 A1 := by
  show after seg1 U0 (Proc.devRef .tc main_v7) = _
  after_results
  rfl
theorem u1_keep {r : Ref sig .tc} (h : r ∉ seg1_W) : U1 U0 (Proc.devRef .tc r) = U0 (Proc.devRef .tc r) := keep1 U0 h

/-! ### Stretch 2 -/

theorem u2_v12 : U2 U0 (Proc.devRef .tc main_v12) = val_main_v12 A0 A1 A3 A4 A5 := by
  show after seg2 (U1 U0) (Proc.devRef .tc main_v12) = _
  after_results
  rw [u1_v6 U0, u1_v7 U0, u1_keep U0 (r := main_arg4) (by decide), u1_keep U0 (r := main_arg5) (by decide)]
  rfl
theorem u2_keep {r : Ref sig .tc} (h1 : r ∉ seg1_W) (h2 : r ∉ seg2_W) : U2 U0 (Proc.devRef .tc r) = U0 (Proc.devRef .tc r) :=
  (keep2 _ h2).trans (u1_keep U0 h1)
theorem u2_v6 : U2 U0 (Proc.devRef .tc main_v6) = val_main_v6 A0 A3 := (keep2 _ (by decide)).trans (u1_v6 U0)
theorem u2_v7 : U2 U0 (Proc.devRef .tc main_v7) = val_main_v7 A1 := (keep2 _ (by decide)).trans (u1_v7 U0)

/-! ### Stretch 3 -/

theorem u3_v23 : U3 U0 (Proc.devRef .tc main_v23) = val_main_v23 A0 A1 A3 A4 A5 := by
  show after seg3 (U2 U0) (Proc.devRef .tc main_v23) = _
  after_results_simp
  rw [u2_v12 U0]
  rfl
theorem u3_keep {r : Ref sig .tc} (h1 : r ∉ seg1_W) (h2 : r ∉ seg2_W) (h3 : r ∉ seg3_W) : U3 U0 (Proc.devRef .tc r) = U0 (Proc.devRef .tc r) :=
  (keep3 _ h3).trans (u2_keep U0 h1 h2)
theorem u3_v6 : U3 U0 (Proc.devRef .tc main_v6) = val_main_v6 A0 A3 := (keep3 _ (by decide)).trans (u2_v6 U0)
theorem u3_v7 : U3 U0 (Proc.devRef .tc main_v7) = val_main_v7 A1 := (keep3 _ (by decide)).trans (u2_v7 U0)

/-! ### Stretch 4 -/

theorem u4_v30 : U4 U0 (Proc.devRef .tc main_v30) = val_main_v30 A0 A1 A2 A3 A4 A5 A6 A7 := by
  show after seg4 (U3 U0) (Proc.devRef .tc main_v30) = _
  after_results
  rw [u3_v23 U0, u3_v6 U0, u3_keep U0 (r := main_arg2) (by decide) (by decide) (by decide),
    u3_keep U0 (r := main_arg6) (by decide) (by decide) (by decide), u3_keep U0 (r := main_arg7) (by decide) (by decide) (by decide)]
  simp only [ofBuf_toBuf]
  rfl
theorem u4_keep {r : Ref sig .tc} (h1 : r ∉ seg1_W) (h2 : r ∉ seg2_W) (h3 : r ∉ seg3_W) (h4 : r ∉ seg4_W) :
    U4 U0 (Proc.devRef .tc r) = U0 (Proc.devRef .tc r) := (keep4 _ h4).trans (u3_keep U0 h1 h2 h3)
theorem u4_v7 : U4 U0 (Proc.devRef .tc main_v7) = val_main_v7 A1 := (keep4 _ (by decide)).trans (u3_v7 U0)
theorem u4_v23 : U4 U0 (Proc.devRef .tc main_v23) = val_main_v23 A0 A1 A3 A4 A5 := (keep4 _ (by decide)).trans (u3_v23 U0)

/-! ### Stretch 5 -/

theorem u5_v34 : U5 U0 (Proc.devRef .tc main_v34) = val_main_v34 A0 A1 A2 A3 A4 A5 A6 A7 A8 A10 := by
  show after seg5 (U4 U0) (Proc.devRef .tc main_v34) = _
  after_results
  rw [u4_v30 U0, u4_keep U0 (r := main_arg8) (by decide) (by decide) (by decide) (by decide),
    u4_keep U0 (r := main_arg10) (by decide) (by decide) (by decide) (by decide)]
  rfl
theorem u5_v38 : U5 U0 (Proc.devRef .tc main_v38) = val_main_v38 A1 A9 A11 := by
  show after seg5 (U4 U0) (Proc.devRef .tc main_v38) = _
  after_results
  rw [u4_v7 U0, u4_keep U0 (r := main_arg9) (by decide) (by decide) (by decide) (by decide),
    u4_keep U0 (r := main_arg11) (by decide) (by decide) (by decide) (by decide)]
  rfl
theorem u5_keep {r : Ref sig .tc} (h1 : r ∉ seg1_W) (h2 : r ∉ seg2_W) (h3 : r ∉ seg3_W) (h4 : r ∉ seg4_W) (h5 : r ∉ seg5_W) :
    U5 U0 (Proc.devRef .tc r) = U0 (Proc.devRef .tc r) := (keep5 _ h5).trans (u4_keep U0 h1 h2 h3 h4)
theorem u5_v7 : U5 U0 (Proc.devRef .tc main_v7) = val_main_v7 A1 := (keep5 _ (by decide)).trans (u4_v7 U0)
theorem u5_v23 : U5 U0 (Proc.devRef .tc main_v23) = val_main_v23 A0 A1 A3 A4 A5 := (keep5 _ (by decide)).trans (u4_v23 U0)

/-! ### Stretch 6 -/

theorem u6_v66 : U6 U0 (Proc.devRef .tc main_v66) = val_main_v66 A0 A1 A2 A3 A4 A5 A6 A7 A8 A9 A10 A11 := by
  show after seg6 (U5 U0) (Proc.devRef .tc main_v66) = _
  after_results_simp
  rw [u5_v34 U0, u5_v38 U0, u5_v7 U0]
  rfl
theorem u6_keep {r : Ref sig .tc} (h1 : r ∉ seg1_W) (h2 : r ∉ seg2_W) (h3 : r ∉ seg3_W) (h4 : r ∉ seg4_W) (h5 : r ∉ seg5_W) (h6 : r ∉ seg6_W) :
    U6 U0 (Proc.devRef .tc r) = U0 (Proc.devRef .tc r) := (keep6 _ h6).trans (u5_keep U0 h1 h2 h3 h4 h5)
theorem u6_v23 : U6 U0 (Proc.devRef .tc main_v23) = val_main_v23 A0 A1 A3 A4 A5 := (keep6 _ (by decide)).trans (u5_v23 U0)

/-! ### Stretch 7 -/

theorem u7_v70 : U7 U0 (Proc.devRef .tc main_v70) = val_main_v70 A0 A1 A2 A3 A4 A5 A6 A7 A8 A9 A10 A11 A12 A13 := by
  show after seg7 (U6 U0) (Proc.devRef .tc main_v70) = _
  after_results
  rw [u6_v66 U0, u6_keep U0 (r := main_arg12) (by decide) (by decide) (by decide) (by decide) (by decide) (by decide),
    u6_keep U0 (r := main_arg13) (by decide) (by decide) (by decide) (by decide) (by decide) (by decide)]
  rfl
theorem u7_keep {r : Ref sig .tc} (h1 : r ∉ seg1_W) (h2 : r ∉ seg2_W) (h3 : r ∉ seg3_W) (h4 : r ∉ seg4_W) (h5 : r ∉ seg5_W) (h6 : r ∉ seg6_W)
    (h7 : r ∉ seg7_W) : U7 U0 (Proc.devRef .tc r) = U0 (Proc.devRef .tc r) := (keep7 _ h7).trans (u6_keep U0 h1 h2 h3 h4 h5 h6)
theorem u7_v66 : U7 U0 (Proc.devRef .tc main_v66) = val_main_v66 A0 A1 A2 A3 A4 A5 A6 A7 A8 A9 A10 A11 := (keep7 _ (by decide)).trans (u6_v66 U0)
theorem u7_v23 : U7 U0 (Proc.devRef .tc main_v23) = val_main_v23 A0 A1 A3 A4 A5 := (keep7 _ (by decide)).trans (u6_v23 U0)

/-! ### Stretch 8: the three results and the arguments at the return -/

theorem u8_v71 : U8 U0 (Proc.devRef .tc main_v71) = val_main_v71 A0 A1 A2 A3 A4 A5 A6 A7 A8 A9 A10 A11 A12 A13 := by
  show after seg8 (U7 U0) (Proc.devRef .tc main_v71) = _
  after_results_simp
  rw [u7_v70 U0]
  simp only [ofBuf_toBuf]
  rfl
theorem u8_v72 : U8 U0 (Proc.devRef .tc main_v72) = val_main_v72 A0 A1 A2 A3 A4 A5 A6 A7 A8 A9 A10 A11 := by
  show after seg8 (U7 U0) (Proc.devRef .tc main_v72) = _
  after_results_simp
  rw [u7_v66 U0]
  rfl
theorem u8_v23 : U8 U0 (Proc.devRef .tc main_v23) = val_main_v23 A0 A1 A3 A4 A5 := (keep8 _ (by decide)).trans (u7_v23 U0)
theorem u8_keep {r : Ref sig .tc} (h1 : r ∉ seg1_W) (h2 : r ∉ seg2_W) (h3 : r ∉ seg3_W) (h4 : r ∉ seg4_W) (h5 : r ∉ seg5_W) (h6 : r ∉ seg6_W)
    (h7 : r ∉ seg7_W) (h8 : r ∉ seg8_W) : U8 U0 (Proc.devRef .tc r) = U0 (Proc.devRef .tc r) := (keep8 _ h8).trans (u7_keep U0 h1 h2 h3 h4 h5 h6 h7)

end Fold

/-- The eight stretches in order are @main's line of operations. -/
theorem ops_eq : (Value.ops : List (HloOp τ sig (Elt F))) = opsH := rfl
theorem main_eqH (c : Dev nD) : main (F := F) c = seq opsH := (Value.main_eq c).trans (congrArg seq ops_eq)

/-! ## The run -/

/-- Every weakly fair execution of the reference's @main from memory m with all counters at zero terminates; at the end
    the three result buffers hold the stages log_softmax, the new hidden state and the attention weights of the launch
    arguments, and the fourteen argument arrays are as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = Cert.ReferenceIdeal.Read.val_main_v71 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = Cert.ReferenceIdeal.Read.val_main_v72 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = Cert.ReferenceIdeal.Read.val_main_v23 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      have e := after_opsH (launchContents m c)
      refine ⟨(h c main_v71).trans ((congrFun e _).trans (u8_v71 _)), (h c main_v72).trans ((congrFun e _).trans (u8_v72 _)),
        (h c main_v23).trans ((congrFun e _).trans (u8_v23 _)), ?_, ?_, ?_, ?_, ?_, ?_, ?_, ?_, ?_, ?_, ?_, ?_, ?_, ?_⟩
      all_goals exact (h c _).trans ((congrFun e _).trans
        (u8_keep _ (by decide) (by decide) (by decide) (by decide) (by decide) (by decide) (by decide) (by decide))))
    (run_seq Value.scopedRefs_eq Value.scopedSems_eq defs main (fun _ => opsH) main_eqH (fun _ => opsH_sub) m ρ
      (fun _ op hop => List.forall_iff_forall_mem.mp opsH_fresh op hop))

end Cert.ReferenceIdeal.Hand

end
-- ==== Proof.K.Reg0.lean ====
/-
  The attention step (first pallas_call): one grid point, every window the whole array. The body reads the
  embedded row, the hidden row, the (40, 2048) attention weight, the (1, 40) bias and the (40, 1024) encoder
  outputs; it stores the softmax over the 40 logits [embedded, hidden] · W_attnᵀ + bias into the (1, 40)
  result, and that row times the encoder outputs into the (1, 1024) result.
  Here: what each staging buffer holds, what the body leaves in the two outputs' buffers as one store each
  over the loaded blocks, the body's triple, and the pipeline's proof data with its body obligation, at any
  float instance.
-/
import proofs.«413161_j58153857188588_3_alg».proof.Proof.Gen.Kernel.Launch
import proofs.«413161_j58153857188588_3_alg».proof.Proof.Gen.Kernel.Skeleton
import proofs.«413161_j58153857188588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an input fetched
    once keeps its block index). One statement per window, at the window's numeral, where the block's shape is
    the literal one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store takes its whole staging buffer -/

abbrev rw0_S1x1024 : Rect S1x1024 := Rect.unit (s := S1x1024) ![0, 0] S1x1024.size inb_S1x1024_S1x1024_0_0
abbrev rw0_S40x2048 : Rect S40x2048 := Rect.unit (s := S40x2048) ![0, 0] S40x2048.size inb_S40x2048_S40x2048_0_0
abbrev rw0_S1x40 : Rect S1x40 := Rect.unit (s := S1x40) ![0, 0] S1x40.size inb_S1x40_S1x40_0_0
abbrev rw0_S40x1024 : Rect S40x1024 := Rect.unit (s := S40x1024) ![0, 0] S40x1024.size inb_S40x1024_S40x1024_0_0

/-! ## What the body leaves in each output's buffer: one store of the payload over the loaded blocks -/

def out0_6 (x0 : Vec F S1x1024 .f32) (x1 : Vec F S1x1024 .f32) (x2 : Vec F S40x2048 .f32) (x3 : Vec F S1x40 .f32) : Vec F S1x40 .f32 :=
  View.canon [⟨rw0_S1x40, k0_pay1 (View.ld x0 rw0_S1x1024) (View.ld x1 rw0_S1x1024) (View.ld x2 rw0_S40x2048) (View.ld x3 rw0_S1x40)⟩]

theorem cover0_6 (p0 : Vec F S1x40 .f32) (y : S1x40.Idx) :
    ∃ pc ∈ ([⟨rw0_S1x40, p0⟩] : List (View.Piece (Elt F) S1x40 .f32)), y ∈ pc.1.set :=
  View.cover_of_tiled [⟨rw0_S1x40, p0⟩] S1x40.size (by rfl) y

def out0_5 (x0 : Vec F S1x1024 .f32) (x1 : Vec F S1x1024 .f32) (x2 : Vec F S40x2048 .f32) (x3 : Vec F S1x40 .f32) (x4 : Vec F S40x1024 .f32) : Vec F S1x1024 .f32 :=
  View.canon [⟨rw0_S1x1024, k0_pay2 (View.ld x0 rw0_S1x1024) (View.ld x1 rw0_S1x1024) (View.ld x2 rw0_S40x2048) (View.ld x3 rw0_S1x40) (View.ld x4 rw0_S40x1024)⟩]

theorem cover0_5 (p0 : Vec F S1x1024 .f32) (y : S1x1024.Idx) :
    ∃ pc ∈ ([⟨rw0_S1x1024, p0⟩] : List (View.Piece (Elt F) S1x1024 .f32)), y ∈ pc.1.set :=
  View.cover_of_tiled [⟨rw0_S1x1024, p0⟩] S1x1024.size (by rfl) y

/-! ## The body's triple -/

set_option maxHeartbeats 2000000 in
/-- On whole staging memrefs, the inputs' at their contents and the outputs' at anything, the body runs to the
    continuation with the inputs' as they were and each output's at its `out0_w` of the inputs'. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S40x2048 .f32) (harg3 : arg3.IsWhole) (arg4 : Memref sig .tc .vmem S1x40 .f32) (harg4 : arg4.IsWhole) (arg5 : Memref sig .tc .vmem S40x1024 .f32) (harg5 : arg5.IsWhole) (arg6 : Memref sig .tc .vmem S1x1024 .f32) (harg6 : arg6.IsWhole) (arg7 : Memref sig .tc .vmem S1x40 .f32) (harg7 : arg7.IsWhole)
    (x0 : Vec F S1x1024 .f32) (x1 : Vec F S1x1024 .f32) (x2 : Vec F S40x2048 .f32) (x3 : Vec F S1x40 .f32) (x4 : Vec F S40x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3)) -∗ K ⟨⟩))
      ⊢ wp frame (wpE (defs₀ (F := F)) Variants.none c none) E (cc0__kernel_attn i arg1 harg1 arg2 harg2 arg3 harg3 arg4 harg4 arg5 harg5 arg6 harg6 arg7 harg7) K := by
  simp only [cc0__kernel_attn_eq_skeleton]; unfold cc0__kernel_attn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- Proof data of this pipeline on core `c`: the arrays as the region finds them; after the body at point `t`
    each input's buffer still at its block and each output's at its `out0_w` of the blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The combine projection (second pallas_call): two grid points. At point t the body reads the whole
  (1, 2048) input row, rows 512·t … 512·t+511 of the (1024, 2048) weight and the matching 512 entries of the
  bias, and stores max(row · tileᵀ + bias, 0) into entries 512·t … 512·t+511 of the (1, 1024) output.
  Here: what each staging buffer holds at a point (the array's block there), what the body leaves in the
  output's buffer as one store over the three loaded blocks, the body's triple, and the pipeline's proof
  data with its body obligation, at any float instance.
-/
import proofs.«413161_j58153857188588_3_alg».proof.Proof.Gen.Kernel.Launch
import proofs.«413161_j58153857188588_3_alg».proof.Proof.Gen.Kernel.Skeleton
import proofs.«413161_j58153857188588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the input row is
    fetched once and its block index never moves; the weight and bias tiles are fetched at every point. One
    statement per window, at the window's numeral, where the block's shape is the literal one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev rIn1 : Rect S1x2048 := Rect.unit (s := S1x2048) ![0, 0] S1x2048.size inb_S1x2048_S1x2048_0_0
abbrev rW1 : Rect S512x2048 := Rect.unit (s := S512x2048) ![0, 0] S512x2048.size inb_S512x2048_S512x2048_0_0
abbrev rT1 : Rect S1x512 := Rect.unit (s := S1x512) ![0, 0] S1x512.size inb_S1x512_S1x512_0_0

/-- The output tile after the body: one store of the payload over the three loaded blocks. -/
def out1_3 (x0 : Vec F S1x2048 .f32) (x1 : Vec F S512x2048 .f32) (x2 : Vec F S1x512 .f32) : Vec F S1x512 .f32 :=
  View.canon [⟨rT1, k1_pay1 (View.ld x0 rIn1) (View.ld x1 rW1) (View.ld x2 rT1)⟩]

/-- The one store covers the tile. -/
theorem cover1_3 (p0 : Vec F S1x512 .f32) (y : S1x512.Idx) :
    ∃ pc ∈ ([⟨rT1, p0⟩] : List (View.Piece (Elt F) S1x512 .f32)), y ∈ pc.1.set :=
  View.cover_of_tiled [⟨rT1, p0⟩] S1x512.size (by rfl) y

/-! ## The body's triple -/

set_option maxHeartbeats 1000000 in
/-- On whole staging memrefs, the inputs' at contents `x0 x1 x2` and the output's at anything, the body runs to
    the continuation with the inputs' as they were and the output's at `out1_3 x0 x1 x2`. -/
theorem sound_kernel1 (c : Dev nD) (E : Set ℕ) (i : grid1.Coords)
    (arg1 : Memref sig .tc .vmem S1x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S1x512 .f32) (harg4 : arg4.IsWhole)
    (x0 : Vec F S1x2048 .f32) (x1 : Vec F S512x2048 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__kernel_comb i arg1 harg1 arg2 harg2 arg3 harg3 arg4 harg4) K := by
  simp only [cc1__kernel_comb_eq_skeleton]; unfold cc1__kernel_comb_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Proof data of this pipeline on core `c`: the arrays as the region finds them; after the body at point `t`
    each input's buffer still at its block and the output's at `out1_3` of the three blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The two GRU projections (third pallas_call): four grid points. At point t the body reads the whole input
  row x and the whole hidden row h, rows 768·t … 768·t+767 of the two (3072, 1024) weights and the matching
  768 entries of the two biases, and stores x · tile_ihᵀ + bias_ih and h · tile_hhᵀ + bias_hh into entries
  768·t … 768·t+767 of the two (1, 3072) results.
  Here: what each staging buffer holds at a point, what the body leaves in the two outputs' buffers as one
  store each over the loaded blocks, the body's triple, and the pipeline's proof data with its body
  obligation, at any float instance.
-/
import proofs.«413161_j58153857188588_3_alg».proof.Proof.Gen.Kernel.Launch
import proofs.«413161_j58153857188588_3_alg».proof.Proof.Gen.Kernel.Skeleton
import proofs.«413161_j58153857188588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an input fetched
    once keeps its block index). One statement per window, at the window's numeral, where the block's shape is
    the literal one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store takes its whole staging buffer -/

abbrev rw2_S1x1024 : Rect S1x1024 := Rect.unit (s := S1x1024) ![0, 0] S1x1024.size inb_S1x1024_S1x1024_0_0
abbrev rw2_S768x1024 : Rect S768x1024 := Rect.unit (s := S768x1024) ![0, 0] S768x1024.size inb_S768x1024_S768x1024_0_0
abbrev rw2_S1x768 : Rect S1x768 := Rect.unit (s := S1x768) ![0, 0] S1x768.size inb_S1x768_S1x768_0_0

/-! ## What the body leaves in each output's buffer: one store of the payload over the loaded blocks -/

def out2_6 (x0 : Vec F S1x1024 .f32) (x2 : Vec F S768x1024 .f32) (x4 : Vec F S1x768 .f32) : Vec F S1x768 .f32 :=
  View.canon [⟨rw2_S1x768, k2_pay1 (View.ld x0 rw2_S1x1024) (View.ld x2 rw2_S768x1024) (View.ld x4 rw2_S1x768)⟩]

theorem cover2_6 (p0 : Vec F S1x768 .f32) (y : S1x768.Idx) :
    ∃ pc ∈ ([⟨rw2_S1x768, p0⟩] : List (View.Piece (Elt F) S1x768 .f32)), y ∈ pc.1.set :=
  View.cover_of_tiled [⟨rw2_S1x768, p0⟩] S1x768.size (by rfl) y

def out2_7 (x1 : Vec F S1x1024 .f32) (x3 : Vec F S768x1024 .f32) (x5 : Vec F S1x768 .f32) : Vec F S1x768 .f32 :=
  View.canon [⟨rw2_S1x768, k2_pay2 (View.ld x1 rw2_S1x1024) (View.ld x3 rw2_S768x1024) (View.ld x5 rw2_S1x768)⟩]

theorem cover2_7 (p0 : Vec F S1x768 .f32) (y : S1x768.Idx) :
    ∃ pc ∈ ([⟨rw2_S1x768, p0⟩] : List (View.Piece (Elt F) S1x768 .f32)), y ∈ pc.1.set :=
  View.cover_of_tiled [⟨rw2_S1x768, p0⟩] S1x768.size (by rfl) y

/-! ## The body's triple -/

set_option maxHeartbeats 2000000 in
/-- On whole staging memrefs, the inputs' at their contents and the outputs' at anything, the body runs to the
    continuation with the inputs' as they were and each output's at its `out2_w` of the inputs'. -/
theorem sound_kernel2 (c : Dev nD) (E : Set ℕ) (i : grid2.Coords) (arg1 : Memref sig .tc .vmem S1x1024 .f32) (harg1 : arg1.IsWhole) (arg2 : Memref sig .tc .vmem S1x1024 .f32) (harg2 : arg2.IsWhole) (arg3 : Memref sig .tc .vmem S768x1024 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole)
    (x0 : Vec F S1x1024 .f32) (x1 : Vec F S1x1024 .f32) (x2 : Vec F S768x1024 .f32) (x3 : Vec F S768x1024 .f32) (x4 : Vec F S1x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E (cc2__kernel_gru_mm i arg1 harg1 arg2 harg2 arg3 harg3 arg4 harg4 arg5 harg5 arg6 harg6 arg7 harg7 arg8 harg8) K := by
  simp only [cc2__kernel_gru_mm_eq_skeleton]; unfold cc2__kernel_gru_mm_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- Proof data of this pipeline on core `c`: the arrays as the region finds them; after the body at point `t`
    each input's buffer still at its block and each output's at its `out2_w` of the blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 4 t) := by dsimp only [dat2]
theorem after2_7 (c : Dev nD) (t : Fin cfg2.N) :
    (dat2 V c).after 7 t = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Def.lean ====
/-
  The output projection (fourth pallas_call): 25 grid points over the 50257 vocabulary entries in tiles of
  2048. At point t the body reads the whole new hidden row, rows 2048·t … of the (50257, 1024) weight and the
  matching entries of the (1, 50257) bias, and stores row · tileᵀ + bias — with a fixed finite filler at the
  tile columns whose vocabulary index is 50257 or more — into the matching tile of the (1, 50257) result.
  The last tile overhangs the arrays: its fetches bring in only the 1105 rows (entries) inside the arrays and
  leave the rest of the staging buffers at words nothing names; its write-back writes only the 1105 entries
  inside the result.
  Here, the definitions only: each window's block at a point (the part inside its array), the blocks filled out to
  the staging buffers' full shape with the zero word where the array has ended, what the body leaves in the
  output's buffer as one store over those, and the pipeline's proof data over them.
-/
import proofs.«413161_j58153857188588_3_alg».proof.Proof.Gen.Kernel.Launch
import proofs.«413161_j58153857188588_3_alg».proof.Proof.Gen.Kernel.Skeleton
import proofs.«413161_j58153857188588_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-- Window `w`'s block at point `t`, read off its array as the region finds it: the part inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The weight tile at point `t` at the staging buffer's full shape: the rows inside the array, the zero word
    below them. -/
def wblk3 (c : Dev nD) (t : Fin cfg3.N) : S2048x1024.Idx → Elt F .f32 :=
  win3_1.fill (grid3.coords t) (fun _ => Scalar.ofBits .f32 0#32) (iblk3 V c 1 t)

/-- The bias tile at point `t` at the staging buffer's full shape, likewise. -/
def bblk3 (c : Dev nD) (t : Fin cfg3.N) : S1x2048.Idx → Elt F .f32 :=
  win3_2.fill (grid3.coords t) (fun _ => Scalar.ofBits .f32 0#32) (iblk3 V c 2 t)

abbrev rw3_S1x1024 : Rect S1x1024 := Rect.unit (s := S1x1024) ![0, 0] S1x1024.size inb_S1x1024_S1x1024_0_0
abbrev rw3_S2048x1024 : Rect S2048x1024 := Rect.unit (s := S2048x1024) ![0, 0] S2048x1024.size inb_S2048x1024_S2048x1024_0_0
abbrev rw3_S1x2048 : Rect S1x2048 := Rect.unit (s := S1x2048) ![0, 0] S1x2048.size inb_S1x2048_S1x2048_0_0

/-- The output tile after the body at grid coordinates `i`: one store of the payload over the three loaded buffers. -/
def out3_3 (i : grid3.Coords) (x0 : Vec F S1x1024 .f32) (x1 : Vec F S2048x1024 .f32) (x2 : Vec F S1x2048 .f32) : Vec F S1x2048 .f32 :=
  View.canon [⟨rw3_S1x2048, k3_pay1 i (View.ld x0 rw3_S1x1024) (View.ld x1 rw3_S2048x1024) (View.ld x2 rw3_S1x2048)⟩]

theorem cover3_3 (p0 : Vec F S1x2048 .f32) (y : S1x2048.Idx) :
    ∃ pc ∈ ([⟨rw3_S1x2048, p0⟩] : List (View.Piece (Elt F) S1x2048 .f32)), y ∈ pc.1.set :=
  View.cover_of_tiled [⟨rw3_S1x2048, p0⟩] S1x2048.size (by rfl) y

/-- Proof data of this pipeline on core `c`: the arrays as the region finds them; after the body at point `t` the
    hidden row's buffer at the row, the weight's and the bias's at their zero-filled tiles, the output's at
    `out3_3` of those three; the invariant is the scoped rest and the generator register, untouched; nothing owed;
    full shares. Where a tile overhangs its array only the part inside is ever stated of a buffer. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => wblk3 V c t
    | ⟨2, _⟩ => bblk3 V c t
    | ⟨3, _⟩ => out3_3 (grid3.coords t) (iblk3 V c 0 t) (wblk3 V c t) (bblk3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = wblk3 V c t := by dsimp only [dat3]
theorem after3_2 (c : Dev nD) (t : Fin cfg3.N) : (dat3 V c).after 2 t = bblk3 V c t := by dsimp only [dat3]
theorem after3_3 (c : Dev nD) (t : Fin cfg3.N) :
    (dat3 V c).after 3 t = out3_3 (grid3.coords t) (iblk3 V c 0 t) (wblk3 V c t) (bblk3 V c t) := by dsimp only [dat3]

end Cert.Kernel.Hand

end
-- ==== Proof.K.Chain.lean ====
/-
  The contents of every unscoped buffer of a core between two items of @main, as a fold from the launch memory:
  a stretch of host operations applies them (`StableHlo.after`); a kernel region leaves each of its windows' arrays
  at what its pipeline's write-backs leave (the proof data's `arrAt` after the last point) and every other buffer
  as it found it. Item by item: host operations (the index wrap, the embedding gather, the reshapes), the attention
  step, one host operation (the concatenation), the combine projection, the two GRU projections, host operations
  (the gates), the output projection, host operations (log_softmax), one host operation (the hidden state's
  reshape). At any float instance.
-/
import proofs.«413161_j58153857188588_3_alg».proof.Proof.K.Reg0
import proofs.«413161_j58153857188588_3_alg».proof.Proof.K.Reg1
import proofs.«413161_j58153857188588_3_alg».proof.Proof.K.Reg2
import proofs.«413161_j58153857188588_3_alg».proof.Proof.K.Reg3Def

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (the attention step's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention step's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the concatenation (the combine projection's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combine projection's exit (the GRU projections' entry: no host operation stands between the two). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At the GRU projections' exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the gate arithmetic (the output projection's entry). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- At the output projection's exit. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After log_softmax, and after the hidden state's reshape: the contents at the return. -/
abbrev W8 : Dev nD → Valuation τ sig (Elt F) := fun c => StableHlo.after hostOps4 (W7 m c)
abbrev W9 : Dev nD → Valuation τ sig (Elt F) := fun c => StableHlo.after hostOps4_1 (W8 m c)

end Cert.Kernel.Hand

end
-- ==== Proof.K.Run.lean ====
/-
  The launch of the idealized program. @main is nine items in order: host operations (the index wrap, the
  embedding gather, the reshapes), the attention step, the concatenation, the combine projection, the two GRU
  projections, the gate arithmetic, the output projection, log_softmax, the hidden state's reshape. Between two
  items a core holds every unscoped buffer whole at the fold's contents for that boundary, its generator register
  at some state, and owes nothing. A stretch of host operations carries the contents from one boundary to the
  next; a kernel region takes its windows' arrays out of the unscoped buffers at the entry contents, runs its
  pipeline, and puts them back at what the pipeline's write-backs leave, every other buffer as it was.
  Conclusion: from any memory with all counters at zero every weakly fair execution terminates without a fault,
  and at the end every unscoped buffer holds the fold's last contents. At any float instance; the output
  projection's body obligation is a hypothesis.
-/
import proofs.«413161_j58153857188588_3_alg».proof.Proof.K.Chain
import proofs.«413161_j58153857188588_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the four pipelines and what rides beside the buffers -/

/-- No pipeline has a prefetched table. -/
abbrev admH : (p : Fin 4) → (pcfgs (F := F) p).Adm := fun p => (cfgs p).toPCfg_adm

/-- Each pipeline's proof data at the contents its region is entered from. -/
def pdats : (p : Fin 4) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V3 m) c
  | ⟨2, _⟩ => fun c => dat2 (V4 m) c
  | ⟨3, _⟩ => fun c => dat3 (V6 m) c

abbrev 𝒱H : Variants := Variants.none
/-- No core waits on another: no level is assigned. -/
abbrev LH : GSem nD τ sig → Finset Unit := fun _ => ∅
abbrev lvH : GSem nD τ sig → Unit → ℕ := fun _ _ => 0

/-- Beside the buffers, through every item: the generator register at some state, and nothing owed. -/
abbrev RH (c : Dev nD) : sProp 𝕄 := iprop((∃ r, prngReg c r) ∗ ∃ W, owes (c : Thread nD τ) (0 : CellTallies nD τ sig Unit) W)

/-- A stretch of host operations from the contents W: it carries every unscoped buffer to StableHlo.after ops (W c). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- The last boundary without the debt: every unscoped buffer at the last contents, the generator register. -/
abbrev TH (c : Dev nD) : sProp 𝕄 := iprop(StableHlo.held (c : Thread nD τ) (Pipeline.ucRefs τ sig) (W9 m c) ∗ ∃ r, prngReg c r)

/-! ## The four kernel regions -/

set_option backward.isDefEq.respectTransparency.types false in
/-- The attention step as a region: entered from every unscoped buffer at W1, left at W2. Its windows' arrays come out
    of the unscoped buffers at the entry contents and go back at what the write-backs leave; the generator register
    goes through the pipeline's invariant; nothing is owed; the kernel has no semaphore of its own. -/
def reg0 :
    Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V1 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The combine projection as a region: entered from every unscoped buffer at W3, left at W4. Its windows' arrays come out
    of the unscoped buffers at the entry contents and go back at what the write-backs leave; the generator register
    goes through the pipeline's invariant; nothing is owed; the kernel has no semaphore of its own. -/
def reg1 :
    Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The two GRU projections as a region: entered from every unscoped buffer at W4, left at W5. Its windows' arrays come out
    of the unscoped buffers at the entry contents and go back at what the write-backs leave; the generator register
    goes through the pipeline's invariant; nothing is owed; the kernel has no semaphore of its own. -/
def reg2 :
    Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ LH lvH 2 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V4 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The output projection as a region: entered from every unscoped buffer at W6, left at W7. Its windows' arrays come out
    of the unscoped buffers at the entry contents and go back at what the write-backs leave; the generator register
    goes through the pipeline's invariant; nothing is owed; the kernel has no semaphore of its own. -/
def reg3 (hb : ∀ c, Pipeline.BodyObligationLoose (dat3 (V6 m) c) (defs₀ (F := F)) Variants.none () Set.univ) :
    Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := hb c
  hwaits := Pipeline.hwaits_of_owed_zero _ _ _ _ LH lvH 3 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (V6 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

/-! ## @main as its nine items, and the launch -/

/-- @main's items in order: a stretch of host operations from its boundary's contents, a region per pallas_call. -/
abbrev segsH (hb3 : ∀ c, Pipeline.BodyObligationLoose (dat3 (V6 m) c) (defs₀ (F := F)) Variants.none () Set.univ) :
    List (Pipeline.Seg (pcfgs (F := F)) admH (pdats m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m hb3),
    .host (hseg hostOps4 hostOps4_sub hostOps4_fresh (W7 m)),
    .host (hseg hostOps4_1 hostOps4_1_sub hostOps4_1_fresh (W8 m)) ]

/-- The last boundary regrouped: the buffers and the generator register on one side, the debt (none) on the other. -/
theorem last_boundary (c : Dev nD) :
    (iprop(StableHlo.held (c : Thread nD τ) (Pipeline.ucRefs τ sig) (W9 m c) ∗ RH c) : sProp 𝕄)
      ⊢ iprop(TH m c ∗ ∃ W, owes (c : Thread nD τ) (0 : CellTallies nD τ sig Unit) W) := by
  iintro ⟨Hh, Hprng, Howes⟩
  isplitl [Hh Hprng]
  · isplitl [Hh]; · iexact Hh
    iexact Hprng
  iexact Howes

set_option backward.isDefEq.respectTransparency.types false in
/-- Every weakly fair execution of @main from memory m with all counters at zero terminates without a fault, and in
    every final memory each unscoped buffer of each core holds the fold's last contents W9. -/
theorem run_all (ρ : Dev nD → PrngReg)
    (hb3 : ∀ c, Pipeline.BodyObligationLoose (dat3 (V6 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) admH (pdats m) () cellOf_inj emb₁ defs₀ 𝒱H LH lvH m ρ main (segsH m hb3)
    (fun c Q => by
      rewrite [main_chain c, Pipeline.Seg.run_eq_chain,
        show (segsH m hb3).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl,
      fun _ => .rfl, fun _ => .rfl, fun c => last_boundary m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howes, -, Hprng, -⟩, -⟩
      imodintro
      isplitl [Hh]; · iexact Hh
      isplitl [Hprng]; · iexists _; iexact Hprng
      iexists ∅; iexact Howes)
    (QY := fun c s => ∀ b ∈ Pipeline.ucRefs τ sig, s.mem ((c : Thread nD τ).1, b) = W9 m c b)
    (hfin := fun c s' => by
      iintro ⟨⟨Hh, -⟩, HSI⟩
      unfold StableHlo.held
      imodintro
      iapply (pointsTo_read_all (Pipeline.ucRefs τ sig) (fun b => ((c : Thread nD τ).1, b)) (W9 m c) s')
      isplitl [Hh] <;> iassumption)
    (hQ := fun _ h => h)

end Cert.Kernel.Hand

end
-- ==== Proof.K.Reg3Body.lean ====
/-
  The output projection's body on its staging buffers, at any float instance: what the three input buffers hold when
  the body runs at a point — the hidden row's its block (fetched once, the block index never moves); the weight's and
  the bias's, fetched at every point, their tile on the part inside the array and, where the last tile overhangs,
  whatever the buffer held elsewhere —, and the body's triple: on whole staging memrefs at any contents of the three
  inputs it runs to the output's buffer holding one store of the payload over them.
-/
import proofs.«413161_j58153857188588_3_alg».proof.Proof.K.Reg3Def

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input buffers hold at a point -/

/-- The hidden row's buffer holds the row at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The weight's buffer, fetched at every point: the tile inside the array, `d` elsewhere. -/
theorem before3_1 (c : Dev nD) (t : Fin cfg3.N) (d) :
    (dat3 V c).before 1 t d = win3_1.fill (grid3.coords t) d (iblk3 V c 1 t) := by
  unfold Dat.before; rw [if_pos (fetch3_1 t)]; rfl

/-- The bias's buffer, likewise. -/
theorem before3_2 (c : Dev nD) (t : Fin cfg3.N) (d) :
    (dat3 V c).before 2 t d = win3_2.fill (grid3.coords t) d (iblk3 V c 2 t) := by
  unfold Dat.before; rw [if_pos (fetch3_2 t)]; rfl

/-! ## The body's triple -/

set_option maxHeartbeats 2000000 in
/-- On whole staging memrefs, the inputs' at contents `x0 x1 x2` and the output's at anything, the body at grid
    coordinates `i` runs to the continuation with the inputs' as they were and the output's at `out3_3 i x0 x1 x2`. -/
theorem sound_kernel3 (c : Dev nD) (E : Set ℕ) (i : grid3.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 i x0 x1 x2)) -∗ K ⟨⟩))
      ⊢ wp frame (wpE (defs₀ (F := F)) Variants.none c none) E (cc3__kernel_b i arg1 harg1 arg2 harg2 arg3 harg3 arg4 harg4) K := by
  simp only [cc3__kernel_b_eq_skeleton]; unfold cc3__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

end Cert.Kernel.Hand

end
-- ==== Proof.K.Reg3F.lean ====
/-
  The output projection's body obligation when nothing is to be said of what it leaves in the output tile: at the
  last grid point the weight's and the bias's staging buffers hold words nothing names outside the arrays, and at the
  word level a matrix product's entry is not known to read only its own row of the right operand, so what the body
  writes into the output tile there is not named. The obligation forgets that window: the output's buffer is
  handed to the body at any contents and taken back at any contents; the three inputs' buffers come back as they
  were handed, which on the part inside the arrays is their tiles. At any float instance.
-/
import proofs.«413161_j58153857188588_3_alg».proof.Proof.K.Reg3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one window forgotten: the output's. -/
def forgets3 : Fin 4 → Bool := fun w => w.val == 3

/-- What the body is called with at point `t`: the inputs' buffers at what they then hold, the output's at anything, -/
def bodyPre3F (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ X, owns (c : Thread nD τ) (st3_3 t) fullShare X))

/-- and what it returns: the hidden row's buffer at the row, the weight's and the bias's stated on the part inside
    their arrays, the output's at anything. -/
def bodyPost3F (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t))))
    ∗ (∃ X, owns (c : Thread nD τ) (st3_3 t) fullShare X))

theorem sound_body3F (c : Dev nD) (t : Fin cfg3.N) :
    bodyPre3F V c t ⊢ wp frame (wpE (defs₀ (F := F)) Variants.none c none) Set.univ (bodyAt3 t) (fun _ => bodyPost3F V c t) := by
  unfold bodyPre3F bodyPost3F bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩, ⟨%X3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold wblk3; rw [win3_1.cut_fill]; iexact H1
  isplitl [H2]
  · iexists d2; unfold bblk3; rw [win3_2.cut_fill]; iexact H2
  iexists _; iexact H3

/-- The library's body obligation in its loose form, the output window forgotten, at every point. -/
theorem body_obligation3F (c : Dev nD) :
    BodyObligationLoose (dat3 (F := F) V c) (defs₀ (F := F)) Variants.none () Set.univ forgets3 := fun t => by
  rw [bigSep_W3, bigSep_W3]
  exact sound_body3F V c t

end Cert.Kernel.Hand

end
-- ==== Proof.K.Keep.lean ====
/-
  What a kernel region leaves untouched: every buffer other than its result arrays holds after the region what it
  held before it.
-/
import proofs.«413161_j58153857188588_3_alg».proof.Proof.K.Chain

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- A buffer that is none of this region's outputs leaves it as it entered: an input window's array is never
    written, and a buffer no window stages bypasses the region. -/
theorem W2_keep (c : Dev nD) (b : Ref sig .tc) (h1 : b ≠ main_v13_0) (h2 : b ≠ main_v13_1) :
    W2 m c (Proc.devRef .tc b) = W1 m c (Proc.devRef .tc b) := by
  by_cases h : ∀ w, Pipeline.arrRef spec0 w ≠ b
  · exact W2_of_ne m c b h
  · simp only [not_forall, not_not] at h
    obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact ((dat0 (V1 m) c).arrAt_in 4 rfl _).trans (A_eq0 (V1 m) c 4)
    | ⟨5, _⟩ => exact absurd rfl h1
    | ⟨6, _⟩ => exact absurd rfl h2

/-- A buffer that is none of this region's outputs leaves it as it entered: an input window's array is never
    written, and a buffer no window stages bypasses the region. -/
theorem W4_keep (c : Dev nD) (b : Ref sig .tc) (h1 : b ≠ main_v15) :
    W4 m c (Proc.devRef .tc b) = W3 m c (Proc.devRef .tc b) := by
  by_cases h : ∀ w, Pipeline.arrRef spec1 w ≠ b
  · exact W4_of_ne m c b h
  · simp only [not_forall, not_not] at h
    obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact absurd rfl h1

/-- A buffer that is none of this region's outputs leaves it as it entered: an input window's array is never
    written, and a buffer no window stages bypasses the region. -/
theorem W5_keep (c : Dev nD) (b : Ref sig .tc) (h1 : b ≠ main_v16_0) (h2 : b ≠ main_v16_1) :
    W5 m c (Proc.devRef .tc b) = W4 m c (Proc.devRef .tc b) := by
  by_cases h : ∀ w, Pipeline.arrRef spec2 w ≠ b
  · exact W5_of_ne m c b h
  · simp only [not_forall, not_not] at h
    obtain ⟨w, rfl⟩ := h
    rw [W5_arr]
    match w with
    | ⟨0, _⟩ => exact ((dat2 (V4 m) c).arrAt_in 0 rfl _).trans (A_eq2 (V4 m) c 0)
    | ⟨1, _⟩ => exact ((dat2 (V4 m) c).arrAt_in 1 rfl _).trans (A_eq2 (V4 m) c 1)
    | ⟨2, _⟩ => exact ((dat2 (V4 m) c).arrAt_in 2 rfl _).trans (A_eq2 (V4 m) c 2)
    | ⟨3, _⟩ => exact ((dat2 (V4 m) c).arrAt_in 3 rfl _).trans (A_eq2 (V4 m) c 3)
    | ⟨4, _⟩ => exact ((dat2 (V4 m) c).arrAt_in 4 rfl _).trans (A_eq2 (V4 m) c 4)
    | ⟨5, _⟩ => exact ((dat2 (V4 m) c).arrAt_in 5 rfl _).trans (A_eq2 (V4 m) c 5)
    | ⟨6, _⟩ => exact absurd rfl h1
    | ⟨7, _⟩ => exact absurd rfl h2

/-- A buffer that is none of this region's outputs leaves it as it entered: an input window's array is never
    written, and a buffer no window stages bypasses the region. -/
theorem W7_keep (c : Dev nD) (b : Ref sig .tc) (h1 : b ≠ main_v45) :
    W7 m c (Proc.devRef .tc b) = W6 m c (Proc.devRef .tc b) := by
  by_cases h : ∀ w, Pipeline.arrRef spec3 w ≠ b
  · exact W7_of_ne m c b h
  · simp only [not_forall, not_not] at h
    obtain ⟨w, rfl⟩ := h
    rw [W7_arr]
    match w with
    | ⟨0, _⟩ => exact ((dat3 (V6 m) c).arrAt_in 0 rfl _).trans (A_eq3 (V6 m) c 0)
    | ⟨1, _⟩ => exact ((dat3 (V6 m) c).arrAt_in 1 rfl _).trans (A_eq3 (V6 m) c 1)
    | ⟨2, _⟩ => exact ((dat3 (V6 m) c).arrAt_in 2 rfl _).trans (A_eq3 (V6 m) c 2)
    | ⟨3, _⟩ => exact absurd rfl h1

end Cert.Kernel.Hand

end
-- ==== Proof.K.Args.lean ====
/-
  A buffer that no host operation of @main writes and that is no kernel region's result array holds, at every
  boundary between @main's items, what it held at launch. The fourteen argument arrays are such buffers.
-/
import proofs.«413161_j58153857188588_3_alg».proof.Proof.K.Keep
import proofs.«413161_j58153857188588_3_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Not written by the host stretches, not a result of a region: `b` is a buffer @main only reads. -/
structure ReadOnly (b : Ref sig .tc) : Prop where
  h0 : b ∉ hostOps0_W
  h1 : b ∉ hostOps1_W
  h3 : b ∉ hostOps3_W
  h4 : b ∉ hostOps4_W
  h41 : b ∉ hostOps4_1_W
  r0a : b ≠ main_v13_0
  r0b : b ≠ main_v13_1
  r1 : b ≠ main_v15
  r2a : b ≠ main_v16_0
  r2b : b ≠ main_v16_1
  r3 : b ≠ main_v45

/-! One step per item of @main: what the item does not write it leaves as it was. -/
theorem step01 (c : Dev nD) {b : Ref sig .tc} (h : b ∉ hostOps0_W) : W1 m c (Proc.devRef .tc b) = W0 m c (Proc.devRef .tc b) :=
  StableHlo.after_of_writes_sub hostOps0 _ hostOps0_writes h
theorem step12 (c : Dev nD) {b : Ref sig .tc} (h1 : b ≠ main_v13_0) (h2 : b ≠ main_v13_1) : W2 m c (Proc.devRef .tc b) = W1 m c (Proc.devRef .tc b) :=
  W2_keep m c b h1 h2
theorem step23 (c : Dev nD) {b : Ref sig .tc} (h : b ∉ hostOps1_W) : W3 m c (Proc.devRef .tc b) = W2 m c (Proc.devRef .tc b) :=
  StableHlo.after_of_writes_sub hostOps1 _ hostOps1_writes h
theorem step34 (c : Dev nD) {b : Ref sig .tc} (h1 : b ≠ main_v15) : W4 m c (Proc.devRef .tc b) = W3 m c (Proc.devRef .tc b) :=
  W4_keep m c b h1
theorem step45 (c : Dev nD) {b : Ref sig .tc} (h1 : b ≠ main_v16_0) (h2 : b ≠ main_v16_1) : W5 m c (Proc.devRef .tc b) = W4 m c (Proc.devRef .tc b) :=
  W5_keep m c b h1 h2
theorem step56 (c : Dev nD) {b : Ref sig .tc} (h : b ∉ hostOps3_W) : W6 m c (Proc.devRef .tc b) = W5 m c (Proc.devRef .tc b) :=
  StableHlo.after_of_writes_sub hostOps3 _ hostOps3_writes h
theorem step67 (c : Dev nD) {b : Ref sig .tc} (h1 : b ≠ main_v45) : W7 m c (Proc.devRef .tc b) = W6 m c (Proc.devRef .tc b) :=
  W7_keep m c b h1
theorem step78 (c : Dev nD) {b : Ref sig .tc} (h : b ∉ hostOps4_W) : W8 m c (Proc.devRef .tc b) = W7 m c (Proc.devRef .tc b) :=
  StableHlo.after_of_writes_sub hostOps4 _ hostOps4_writes h
theorem step89 (c : Dev nD) {b : Ref sig .tc} (h : b ∉ hostOps4_1_W) : W9 m c (Proc.devRef .tc b) = W8 m c (Proc.devRef .tc b) :=
  StableHlo.after_of_writes_sub hostOps4_1 _ hostOps4_1_writes h

variable {m}

theorem ReadOnly.at1 {b : Ref sig .tc} (h : ReadOnly b) (c : Dev nD) : W1 m c (Proc.devRef .tc b) = m ((c : Dev nD), Proc.devRef .tc b) :=
  step01 m c h.h0
theorem ReadOnly.at2 {b : Ref sig .tc} (h : ReadOnly b) (c : Dev nD) : W2 m c (Proc.devRef .tc b) = m ((c : Dev nD), Proc.devRef .tc b) :=
  (step12 m c h.r0a h.r0b).trans (h.at1 c)
theorem ReadOnly.at3 {b : Ref sig .tc} (h : ReadOnly b) (c : Dev nD) : W3 m c (Proc.devRef .tc b) = m ((c : Dev nD), Proc.devRef .tc b) :=
  (step23 m c h.h1).trans (h.at2 c)
theorem ReadOnly.at4 {b : Ref sig .tc} (h : ReadOnly b) (c : Dev nD) : W4 m c (Proc.devRef .tc b) = m ((c : Dev nD), Proc.devRef .tc b) :=
  (step34 m c h.r1).trans (h.at3 c)
theorem ReadOnly.at5 {b : Ref sig .tc} (h : ReadOnly b) (c : Dev nD) : W5 m c (Proc.devRef .tc b) = m ((c : Dev nD), Proc.devRef .tc b) :=
  (step45 m c h.r2a h.r2b).trans (h.at4 c)
theorem ReadOnly.at6 {b : Ref sig .tc} (h : ReadOnly b) (c : Dev nD) : W6 m c (Proc.devRef .tc b) = m ((c : Dev nD), Proc.devRef .tc b) :=
  (step56 m c h.h3).trans (h.at5 c)
theorem ReadOnly.at7 {b : Ref sig .tc} (h : ReadOnly b) (c : Dev nD) : W7 m c (Proc.devRef .tc b) = m ((c : Dev nD), Proc.devRef .tc b) :=
  (step67 m c h.r3).trans (h.at6 c)
theorem ReadOnly.at8 {b : Ref sig .tc} (h : ReadOnly b) (c : Dev nD) : W8 m c (Proc.devRef .tc b) = m ((c : Dev nD), Proc.devRef .tc b) :=
  (step78 m c h.h4).trans (h.at7 c)
theorem ReadOnly.at9 {b : Ref sig .tc} (h : ReadOnly b) (c : Dev nD) : W9 m c (Proc.devRef .tc b) = m ((c : Dev nD), Proc.devRef .tc b) :=
  (step89 m c h.h41).trans (h.at8 c)

theorem ro_arg0 : ReadOnly main_arg0 := ⟨by decide, by decide, by decide, by decide, by decide, by decide, by decide, by decide, by decide, by decide, by decide⟩
theorem ro_arg1 : ReadOnly main_arg1 := ⟨by decide, by decide, by decide, by decide, by decide, by decide, by decide, by decide, by decide, by decide, by decide⟩
theorem ro_arg2 : ReadOnly main_arg2 := ⟨by decide, by decide, by decide, by decide, by decide, by decide, by decide, by decide, by decide, by decide, by decide⟩
theorem ro_arg3 : ReadOnly main_arg3 := ⟨by decide, by decide, by decide, by decide, by decide, by decide, by decide, by decide, by decide, by decide, by decide⟩
theorem ro_arg4 : ReadOnly main_arg4 := ⟨by decide, by decide, by decide, by decide, by decide, by decide, by decide, by decide, by decide, by decide, by decide⟩
theorem ro_arg5 : ReadOnly main_arg5 := ⟨by decide, by decide, by decide, by decide, by decide, by decide, by decide, by decide, by decide, by decide, by decide⟩
theorem ro_arg6 : ReadOnly main_arg6 := ⟨by decide, by decide, by decide, by decide, by decide, by decide, by decide, by decide, by decide, by decide, by decide⟩
theorem ro_arg7 : ReadOnly main_arg7 := ⟨by decide, by decide, by decide, by decide, by decide, by decide, by decide, by decide, by decide, by decide, by decide⟩
theorem ro_arg8 : ReadOnly main_arg8 := ⟨by decide, by decide, by decide, by decide, by decide, by decide, by decide, by decide, by decide, by decide, by decide⟩
theorem ro_arg9 : ReadOnly main_arg9 := ⟨by decide, by decide, by decide, by decide, by decide, by decide, by decide, by decide, by decide, by decide, by decide⟩
theorem ro_arg10 : ReadOnly main_arg10 := ⟨by decide, by decide, by decide, by decide, by decide, by decide, by decide, by decide, by decide, by decide, by decide⟩
theorem ro_arg11 : ReadOnly main_arg11 := ⟨by decide, by decide, by decide, by decide, by decide, by decide, by decide, by decide, by decide, by decide, by decide⟩
theorem ro_arg12 : ReadOnly main_arg12 := ⟨by decide, by decide, by decide, by decide, by decide, by decide, by decide, by decide, by decide, by decide, by decide⟩
theorem ro_arg13 : ReadOnly main_arg13 := ⟨by decide, by decide, by decide, by decide, by decide, by decide, by decide, by decide, by decide, by decide, by decide⟩

end Cert.Kernel.Hand

end
-- ==== Proof.K.Frame.lean ====
/-
  The frame of the word-level program: from any memory with all counters at zero every weakly fair execution of
  @main terminates without a fault and leaves the fourteen argument arrays as launched. Up to the output
  projection the run is the one stated for any float instance: each unscoped buffer at the fold's contents. Of what
  the output projection leaves in its result array nothing is said here (at its last, overhanging, tile the word-level
  matrix product may depend on words nothing names), so from its exit on a core holds its unscoped buffers at SOME
  contents that keep every buffer @main only reads at its launch contents; log_softmax and the last reshape run from
  such contents to such contents. The argument arrays are buffers @main only reads.
-/
import proofs.«413161_j58153857188588_3_alg».proof.Proof.K.Run
import proofs.«413161_j58153857188588_3_alg».proof.Proof.K.Reg3F
import proofs.«413161_j58153857188588_3_alg».proof.Proof.K.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The four pipelines' proof data read relationally, the output projection's result window forgotten -/

def rdats : (p : Fin 4) → (c : Dev nD) → RDat τ (Elt F) Unit ℕ (UR sig nD τ) ℕ (Pipeline.pin (pcfgs (F := F)) admH p) c
  | ⟨0, _⟩ => fun c => (dat0 (V1 m) c).toR
  | ⟨1, _⟩ => fun c => (dat1 (V3 m) c).toR
  | ⟨2, _⟩ => fun c => (dat2 (V4 m) c).toR
  | ⟨3, _⟩ => fun c => (dat3 (V6 m) c).toRForget forgets3

set_option backward.isDefEq.respectTransparency.types false in
/-- The attention step over the relational data: the record of exact data, read relationally. -/
def reg0R : Pipeline.RDat.RegionSeg (pcfgs (F := F)) admH (rdats m) () defs₀ 𝒱H LH lvH 0 :=
  let R := (reg0 m).toR (pcfgs (F := F)) admH (pdats m) () defs₀ 𝒱H LH lvH
  { win := R.win, block_pos := R.block_pos, stage_whole := R.stage_whole, K := R.K, fK := R.fK, osem := R.osem, ho := R.ho
    hbody := R.hbody
    hwaits := Pipeline.RDat.hwaits_of_owed_zero _ _ _ _ LH lvH 0 fun _ _ => rfl
    pre := R.pre, post := R.post, X := R.X, Y := R.Y, Z := R.Z
    hentry := R.hentry, hin := R.hin, hout := R.hout, hexit := R.hexit }

set_option backward.isDefEq.respectTransparency.types false in
/-- The combine projection, likewise. -/
def reg1R : Pipeline.RDat.RegionSeg (pcfgs (F := F)) admH (rdats m) () defs₀ 𝒱H LH lvH 1 :=
  let R := (reg1 m).toR (pcfgs (F := F)) admH (pdats m) () defs₀ 𝒱H LH lvH
  { win := R.win, block_pos := R.block_pos, stage_whole := R.stage_whole, K := R.K, fK := R.fK, osem := R.osem, ho := R.ho
    hbody := R.hbody
    hwaits := Pipeline.RDat.hwaits_of_owed_zero _ _ _ _ LH lvH 1 fun _ _ => rfl
    pre := R.pre, post := R.post, X := R.X, Y := R.Y, Z := R.Z
    hentry := R.hentry, hin := R.hin, hout := R.hout, hexit := R.hexit }

set_option backward.isDefEq.respectTransparency.types false in
/-- The two GRU projections, likewise. -/
def reg2R : Pipeline.RDat.RegionSeg (pcfgs (F := F)) admH (rdats m) () defs₀ 𝒱H LH lvH 2 :=
  let R := (reg2 m).toR (pcfgs (F := F)) admH (pdats m) () defs₀ 𝒱H LH lvH
  { win := R.win, block_pos := R.block_pos, stage_whole := R.stage_whole, K := R.K, fK := R.fK, osem := R.osem, ho := R.ho
    hbody := R.hbody
    hwaits := Pipeline.RDat.hwaits_of_owed_zero _ _ _ _ LH lvH 2 fun _ _ => rfl
    pre := R.pre, post := R.post, X := R.X, Y := R.Y, Z := R.Z
    hentry := R.hentry, hin := R.hin, hout := R.hout, hexit := R.hexit }

/-! ## From the output projection on: contents that keep what @main only reads -/

/-- A valuation of core `c`'s buffers that has every buffer @main only reads at its launch contents. -/
def Keeps (c : Dev nD) (W : Valuation τ sig (Elt F)) : Prop :=
  ∀ b : Ref sig .tc, ReadOnly b → W (Proc.devRef .tc b) = m ((c : Dev nD), Proc.devRef .tc b)

/-- The thread state from the output projection's exit on: every unscoped buffer at some such contents. -/
abbrev TK (c : Dev nD) : sProp 𝕄 :=
  iprop(∃ W : Valuation τ sig (Elt F), ⌜Keeps m c W⌝ ∗ StableHlo.held (c : Thread nD τ) (Pipeline.ucRefs τ sig) W ∗ RH c)

set_option backward.isDefEq.respectTransparency.types false in
/-- A stretch of host operations that writes no buffer @main only reads, run from such contents to such contents. -/
def hsegK (ops : List (HloOp τ sig (Elt F))) (hsub : ops.Forall fun op => op.bufs ⊆ StableHlo.tcRefs τ sig)
    (hfresh : ops.Forall fun op => op.fresh = ∅)
    (hkeep : ∀ (W : Valuation τ sig (Elt F)) (b : Ref sig .tc), ReadOnly b → StableHlo.after ops W (Proc.devRef .tc b) = W (Proc.devRef .tc b)) :
    Pipeline.HostSeg (Name := ℕ) (U := UR sig nD τ) (pcfgs (F := F)) defs₀ 𝒱H LH lvH where
  prog := StableHlo.seq ops
  pre c := TK m c
  post c := TK m c
  run c {β} k K := by
    iintro ⟨Hk, Hbd, ⟨%W, %hW, Hh, HR⟩, Hlev⟩
    have hrun := (hseg ops hsub hfresh (fun _ => W)).run c k K
    dsimp only [hseg, Pipeline.HostSeg.ofOps] at hrun
    iapply hrun
    isplitl [Hk]
    · iintro ⟨Hbd, Hh, HR⟩
      iapply Hk
      isplitl [Hbd]; · iexact Hbd
      iexists (StableHlo.after ops W)
      isplitr; · ipureintro; exact fun b hb => (hkeep W b hb).trans (hW b hb)
      isplitl [Hh]; · iexact Hh
      iexact HR
    isplitl [Hbd]; · iexact Hbd
    isplitl [Hh HR]
    · isplitl [Hh]; · iexact Hh
      iexact HR
    iexact Hlev

/-! ## The output projection over the relational data -/

/-- A valuation read at the TensorCore's references. -/
abbrev atRefs (c : Dev nD) (W : Valuation τ sig (Elt F)) : (b : Ref sig .tc) → Buf (Elt F) ((c : Thread nD τ).loc b) := fun b => W b

/-- The output projection's one output window is the result array's. -/
theorem out3_is_v45 : ∀ w : Fin cfg3.W, (cfg3.win w).isOut = true → Pipeline.arrRef spec3 w = main_v45 := by decide

/-- An input window's array is never written: whatever it may hold after the region is what it held at the entry. -/
theorem arr_in3 (c : Dev nD) (w : Fin cfg3.W) (hin : (cfg3.win w).isOut = false)
    (Fw : Buf (Elt F) ((cfg3.win w).arr.view.loc (c : Thread nD τ)))
    (h : ((dat3 (V6 m) c).toRForget forgets3).ArrAt w cfg3.N Fw) : Fw = V6 m c (Pipeline.arrRef spec3 w) := by
  rw [Pipeline.RDat.ArrAt_in _ w hin, Pipeline.Dat.toRForget_A, A_eq3] at h
  exact h

/-- So the entry contents with the four arrays at anything they may hold after the region keep what @main only reads:
    of such a buffer an input window's array holds the entry contents, which are the launch's; the result array is not
    such a buffer; every other buffer bypasses the region. -/
theorem keeps3 (c : Dev nD) (Fs : (w : Fin cfg3.W) → Buf (Elt F) ((cfg3.win w).arr.view.loc (c : Thread nD τ)))
    (hFs : ∀ w, ((dat3 (V6 m) c).toRForget forgets3).ArrAt w cfg3.N (Fs w)) :
    Keeps m c (Pipeline.withArrays spec3 c (W6 m c) Fs) := fun b hb => by
  by_cases h : ∀ w, Pipeline.arrRef spec3 w ≠ b
  · exact (Pipeline.withArrays_of_ne spec3 c _ _ b h).trans (hb.at6 c)
  · simp only [not_forall, not_not] at h
    obtain ⟨w, rfl⟩ := h
    rw [Pipeline.withArrays_arr spec3 launch3.win.arr_inj c _ _ w]
    by_cases hout : (cfg3.win w).isOut = true
    · exact absurd (out3_is_v45 w hout) hb.r3
    · exact (arr_in3 m c w (eq_false_of_ne_true hout) (Fs w) (hFs w)).trans (hb.at6 c)

/-- At the output projection's exit: its four arrays at some contents they may then hold and every other unscoped buffer
    as at the entry are the unscoped buffers at contents that keep what @main only reads. -/
theorem exit3 (c : Dev nD) :
    (iprop(((dat3 (V6 m) c).toRForget forgets3).arraysAt cfg3.N
        ∗ Pipeline.unscopedRest (Ix := Unit) (Name := ℕ) (U := UR sig nD τ) (Lvl := ℕ) spec3 c (V6 m c)) : sProp 𝕄)
      ⊢ iprop(∃ W : Valuation τ sig (Elt F), ⌜Keeps m c W⌝ ∗ StableHlo.held (c : Thread nD τ) (Pipeline.ucRefs τ sig) W) := by
  unfold Pipeline.RDat.arraysAt
  iintro ⟨Harr, Hrest⟩
  ihave H1 := (bigSep_exists_pi Finset.univ (fun (w : Fin cfg3.W) (Fw : Buf (Elt F) ((cfg3.win w).arr.view.loc (c : Thread nD τ))) =>
    (iprop(⌜((dat3 (V6 m) c).toRForget forgets3).ArrAt w cfg3.N Fw⌝
      ∗ (cfg3.win w).arr.view.loc (c : Thread nD τ) ↦[(cfg3.win w).arr.view.set]{((dat3 (V6 m) c).toRForget forgets3).share w} Fw) : sProp 𝕄))) $$ Harr
  icases H1 with ⟨%Fs, H1⟩
  ihave H2 := (bigSep_pure_sep Finset.univ (fun w : Fin cfg3.W => ((dat3 (V6 m) c).toRForget forgets3).ArrAt w cfg3.N (Fs w))
    (fun w : Fin cfg3.W => ((cfg3.win w).arr.view.loc (c : Thread nD τ) ↦[(cfg3.win w).arr.view.set]{((dat3 (V6 m) c).toRForget forgets3).share w} Fs w : sProp 𝕄))) $$ H1
  icases H2 with ⟨%hFs, H2⟩
  have hjoin := Pipeline.unscopedBufs_of_arrays (p := 3) (pcfgs (F := F)) admH (Ix := Unit) (Name := ℕ) (U := UR sig nD τ) (Lvl := ℕ)
    launch3.win launch3.arr_whole c (pdats m) ((pdats m 3 c).share_full fun _ => rfl)
    (V6 m c) (atRefs c (Pipeline.withArrays spec3 c (W6 m c) Fs)) Fs
    (fun w => (Pipeline.withArrays_arr spec3 launch3.win.arr_inj c _ _ w).symm)
    (fun b hb => Pipeline.withArrays_of_ne spec3 c _ _ b fun w e => hb (Finset.mem_image.mpr ⟨w, Finset.mem_univ _, e⟩))
  rw [Pipeline.unscopedBufs_held] at hjoin
  iexists Pipeline.withArrays spec3 c (W6 m c) Fs
  isplitr
  · ipureintro; exact keeps3 m c Fs fun w => hFs w (Finset.mem_univ w)
  iapply hjoin
  isplitl [H2]
  · unfold Pipeline.Dat.arrays; iexact H2
  iexact Hrest
set_option backward.isDefEq.respectTransparency.types false in
/-- The output projection as a region over the relational data: entered from every unscoped buffer at W6, left at some
    contents that keep what @main only reads; its result window forgotten. -/
def reg3R : Pipeline.RDat.RegionSeg (pcfgs (F := F)) admH (rdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3F (V6 m) c).toRForget
  hwaits := Pipeline.RDat.hwaits_of_owed_zero _ _ _ _ LH lvH 3 fun _ _ => rfl
  pre c := iprop(StableHlo.held (c : Thread nD τ) (Pipeline.ucRefs τ sig) (W6 m c) ∗ RH c)
  post c := TK m c
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.RDat.arrays_of_unscopedBufs (p := 3) (pcfgs (F := F)) admH (rdats m) launch3.win launch3.arr_whole c
      (fun w => (dat3 (V6 m) c).share_full (fun _ => rfl) w) (V6 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.RDat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (rdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (rdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    iintro ⟨Harr, Howes, Hprng, Hrest⟩
    ihave Hk := (exit3 m c) $$ [Harr Hrest]
    · isplitl [Harr]
      · iexact Harr
      · iexact Hrest
    icases Hk with ⟨%W, %hW, Hh⟩
    imodintro
    iexists W
    isplitr; · ipureintro; exact hW
    isplitl [Hh]; · iexact Hh
    isplitl [Hprng]; · iexact Hprng
    unfold Pipeline.RDat.owesAt Pipeline.owesWithin
    icases Howes with ⟨%W', -, Howes⟩
    iexists W'
    iexact Howes

/-! ## @main as its nine items over the relational data, and the frame -/

/-- @main's items in order: up to the output projection as for any float instance; from its exit on at contents that keep
    what @main only reads. -/
abbrev segsK : List (Pipeline.RDat.Seg (pcfgs (F := F)) admH (rdats m) () defs₀ 𝒱H LH lvH) :=
  [ .host (hseg hostOps0 hostOps0_sub hostOps0_fresh (W0 m)),
    .region (reg0R m),
    .host (hseg hostOps1 hostOps1_sub hostOps1_fresh (W2 m)),
    .region (reg1R m),
    .region (reg2R m),
    .host (hseg hostOps3 hostOps3_sub hostOps3_fresh (W5 m)),
    .region (reg3R m),
    .host (hsegK m hostOps4 hostOps4_sub hostOps4_fresh (fun W b hb => StableHlo.after_of_writes_sub hostOps4 _ hostOps4_writes hb.h4)),
    .host (hsegK m hostOps4_1 hostOps4_1_sub hostOps4_1_fresh (fun W b hb => StableHlo.after_of_writes_sub hostOps4_1 _ hostOps4_1_writes hb.h41)) ]

/-- The last boundary without the debt: every unscoped buffer at some contents that keep what @main only reads, the
    generator register. -/
abbrev TKn (c : Dev nD) : sProp 𝕄 :=
  iprop(∃ W : Valuation τ sig (Elt F), ⌜Keeps m c W⌝ ∗ StableHlo.held (c : Thread nD τ) (Pipeline.ucRefs τ sig) W ∗ ∃ r, prngReg c r)

/-- The last boundary regrouped: the buffers and the generator register on one side, the debt (none) on the other. -/
theorem last_boundaryK (c : Dev nD) :
    (TK m c : sProp 𝕄) ⊢ iprop(TKn m c ∗ ∃ W, owes (c : Thread nD τ) (0 : CellTallies nD τ sig Unit) W) := by
  iintro ⟨%W, %hW, Hh, Hprng, Howes⟩
  isplitl [Hh Hprng]
  · iexists W
    isplitr; · ipureintro; exact hW
    isplitl [Hh]; · iexact Hh
    iexact Hprng
  iexact Howes

set_option backward.isDefEq.respectTransparency.types false in
/-- Every weakly fair execution of @main from memory m with all counters at zero terminates without a fault, and in
    every final memory each of the fourteen argument arrays of each core holds what it held in m. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) admH (rdats m) () cellOf_inj emb₁ defs₀ 𝒱H LH lvH m ρ main (segsK m)
    (fun c Q => by
      rewrite [main_chain c, Pipeline.RDat.Seg.run_eq_chain,
        show (segsK m).map Pipeline.RDat.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segsK, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TKn m)
    (hch := ⟨fun _ => .rfl, fun _ => .rfl, fun _ => .rfl, fun _ => .rfl, fun _ => .rfl, fun _ => .rfl, fun _ => .rfl,
      fun _ => .rfl, fun _ => .rfl, fun c => last_boundaryK m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howes, -, Hprng, -⟩, -⟩
      imodintro
      isplitl [Hh]; · iexact Hh
      isplitl [Hprng]; · iexists _; iexact Hprng
      iexists ∅; iexact Howes)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => by
      iintro ⟨⟨%W, %hW, Hh, -⟩, HSI⟩
      unfold StableHlo.held
      ihave Hr := (pointsTo_read_all (Pipeline.ucRefs τ sig) (fun b => ((c : Thread nD τ).1, b)) W s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans (hW main_arg0 ro_arg0),
          (h (Proc.devRef .tc main_arg1) (Finset.mem_filter.mpr ⟨StableHlo.devRef_mem_tcRefs main_arg1, by decide⟩)).trans (hW main_arg1 ro_arg1),
          (h (Proc.devRef .tc main_arg2) (Finset.mem_filter.mpr ⟨StableHlo.devRef_mem_tcRefs main_arg2, by decide⟩)).trans (hW main_arg2 ro_arg2),
          (h (Proc.devRef .tc main_arg3) (Finset.mem_filter.mpr ⟨StableHlo.devRef_mem_tcRefs main_arg3, by decide⟩)).trans (hW main_arg3 ro_arg3),
          (h (Proc.devRef .tc main_arg4) (Finset.mem_filter.mpr ⟨StableHlo.devRef_mem_tcRefs main_arg4, by decide⟩)).trans (hW main_arg4 ro_arg4),
          (h (Proc.devRef .tc main_arg5) (Finset.mem_filter.mpr ⟨StableHlo.devRef_mem_tcRefs main_arg5, by decide⟩)).trans (hW main_arg5 ro_arg5),
          (h (Proc.devRef .tc main_arg6) (Finset.mem_filter.mpr ⟨StableHlo.devRef_mem_tcRefs main_arg6, by decide⟩)).trans (hW main_arg6 ro_arg6),
          (h (Proc.devRef .tc main_arg7) (Finset.mem_filter.mpr ⟨StableHlo.devRef_mem_tcRefs main_arg7, by decide⟩)).trans (hW main_arg7 ro_arg7),
          (h (Proc.devRef .tc main_arg8) (Finset.mem_filter.mpr ⟨StableHlo.devRef_mem_tcRefs main_arg8, by decide⟩)).trans (hW main_arg8 ro_arg8),
          (h (Proc.devRef .tc main_arg9) (Finset.mem_filter.mpr ⟨StableHlo.devRef_mem_tcRefs main_arg9, by decide⟩)).trans (hW main_arg9 ro_arg9),
          (h (Proc.devRef .tc main_arg10) (Finset.mem_filter.mpr ⟨StableHlo.devRef_mem_tcRefs main_arg10, by decide⟩)).trans (hW main_arg10 ro_arg10),
          (h (Proc.devRef .tc main_arg11) (Finset.mem_filter.mpr ⟨StableHlo.devRef_mem_tcRefs main_arg11, by decide⟩)).trans (hW main_arg11 ro_arg11),
          (h (Proc.devRef .tc main_arg12) (Finset.mem_filter.mpr ⟨StableHlo.devRef_mem_tcRefs main_arg12, by decide⟩)).trans (hW main_arg12 ro_arg12),
          (h (Proc.devRef .tc main_arg13) (Finset.mem_filter.mpr ⟨StableHlo.devRef_mem_tcRefs main_arg13, by decide⟩)).trans (hW main_arg13 ro_arg13)⟩
      · iexact HSI)
    (hQ := fun _ h => h)

end Cert.Kernel.Hand

end
-- ==== Proof.KI.Reg0.lean ====
/-
  The attention step (first pallas_call): one grid point, every window the whole array. The body reads the
  embedded row, the hidden row, the (40, 2048) attention weight, the (1, 40) bias and the (40, 1024) encoder
  outputs; it stores the softmax over the 40 logits [embedded, hidden] · W_attnᵀ + bias into the (1, 40)
  result, and that row times the encoder outputs into the (1, 1024) result.
  Here: what each staging buffer holds, what the body leaves in the two outputs' buffers as one store each
  over the loaded blocks, the body's triple, and the pipeline's proof data with its body obligation, at any
  float instance.
-/
import proofs.«413161_j58153857188588_3_alg».proof.Proof.Gen.KernelIdeal.Launch
import proofs.«413161_j58153857188588_3_alg».proof.Proof.Gen.KernelIdeal.Skeleton
import proofs.«413161_j58153857188588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an input fetched
    once keeps its block index). One statement per window, at the window's numeral, where the block's shape is
    the literal one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store takes its whole staging buffer -/

abbrev rw0_S1x1024 : Rect S1x1024 := Rect.unit (s := S1x1024) ![0, 0] S1x1024.size inb_S1x1024_S1x1024_0_0
abbrev rw0_S40x2048 : Rect S40x2048 := Rect.unit (s := S40x2048) ![0, 0] S40x2048.size inb_S40x2048_S40x2048_0_0
abbrev rw0_S1x40 : Rect S1x40 := Rect.unit (s := S1x40) ![0, 0] S1x40.size inb_S1x40_S1x40_0_0
abbrev rw0_S40x1024 : Rect S40x1024 := Rect.unit (s := S40x1024) ![0, 0] S40x1024.size inb_S40x1024_S40x1024_0_0

/-! ## What the body leaves in each output's buffer: one store of the payload over the loaded blocks -/

def out0_6 (x0 : Vec F S1x1024 .f32) (x1 : Vec F S1x1024 .f32) (x2 : Vec F S40x2048 .f32) (x3 : Vec F S1x40 .f32) : Vec F S1x40 .f32 :=
  View.canon [⟨rw0_S1x40, k0_pay1 (View.ld x0 rw0_S1x1024) (View.ld x1 rw0_S1x1024) (View.ld x2 rw0_S40x2048) (View.ld x3 rw0_S1x40)⟩]

theorem cover0_6 (p0 : Vec F S1x40 .f32) (y : S1x40.Idx) :
    ∃ pc ∈ ([⟨rw0_S1x40, p0⟩] : List (View.Piece (Elt F) S1x40 .f32)), y ∈ pc.1.set :=
  View.cover_of_tiled [⟨rw0_S1x40, p0⟩] S1x40.size (by rfl) y

def out0_5 (x0 : Vec F S1x1024 .f32) (x1 : Vec F S1x1024 .f32) (x2 : Vec F S40x2048 .f32) (x3 : Vec F S1x40 .f32) (x4 : Vec F S40x1024 .f32) : Vec F S1x1024 .f32 :=
  View.canon [⟨rw0_S1x1024, k0_pay2 (View.ld x0 rw0_S1x1024) (View.ld x1 rw0_S1x1024) (View.ld x2 rw0_S40x2048) (View.ld x3 rw0_S1x40) (View.ld x4 rw0_S40x1024)⟩]

theorem cover0_5 (p0 : Vec F S1x1024 .f32) (y : S1x1024.Idx) :
    ∃ pc ∈ ([⟨rw0_S1x1024, p0⟩] : List (View.Piece (Elt F) S1x1024 .f32)), y ∈ pc.1.set :=
  View.cover_of_tiled [⟨rw0_S1x1024, p0⟩] S1x1024.size (by rfl) y

/-! ## The body's triple -/

set_option maxHeartbeats 2000000 in
/-- On whole staging memrefs, the inputs' at their contents and the outputs' at anything, the body runs to the
    continuation with the inputs' as they were and each output's at its `out0_w` of the inputs'. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S40x2048 .f32) (harg3 : arg3.IsWhole) (arg4 : Memref sig .tc .vmem S1x40 .f32) (harg4 : arg4.IsWhole) (arg5 : Memref sig .tc .vmem S40x1024 .f32) (harg5 : arg5.IsWhole) (arg6 : Memref sig .tc .vmem S1x1024 .f32) (harg6 : arg6.IsWhole) (arg7 : Memref sig .tc .vmem S1x40 .f32) (harg7 : arg7.IsWhole)
    (x0 : Vec F S1x1024 .f32) (x1 : Vec F S1x1024 .f32) (x2 : Vec F S40x2048 .f32) (x3 : Vec F S1x40 .f32) (x4 : Vec F S40x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3)) -∗ K ⟨⟩))
      ⊢ wp frame (wpE (defs₀ (F := F)) Variants.none c none) E (cc0__kernel_attn i arg1 harg1 arg2 harg2 arg3 harg3 arg4 harg4 arg5 harg5 arg6 harg6 arg7 harg7) K := by
  simp only [cc0__kernel_attn_eq_skeleton]; unfold cc0__kernel_attn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- Proof data of this pipeline on core `c`: the arrays as the region finds them; after the body at point `t`
    each input's buffer still at its block and each output's at its `out0_w` of the blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) :
    (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The combine projection (second pallas_call): two grid points. At point t the body reads the whole
  (1, 2048) input row, rows 512·t … 512·t+511 of the (1024, 2048) weight and the matching 512 entries of the
  bias, and stores max(row · tileᵀ + bias, 0) into entries 512·t … 512·t+511 of the (1, 1024) output.
  Here: what each staging buffer holds at a point (the array's block there), what the body leaves in the
  output's buffer as one store over the three loaded blocks, the body's triple, and the pipeline's proof
  data with its body obligation, at any float instance.
-/
import proofs.«413161_j58153857188588_3_alg».proof.Proof.Gen.KernelIdeal.Launch
import proofs.«413161_j58153857188588_3_alg».proof.Proof.Gen.KernelIdeal.Skeleton
import proofs.«413161_j58153857188588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the input row is
    fetched once and its block index never moves; the weight and bias tiles are fetched at every point. One
    statement per window, at the window's numeral, where the block's shape is the literal one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev rIn1 : Rect S1x2048 := Rect.unit (s := S1x2048) ![0, 0] S1x2048.size inb_S1x2048_S1x2048_0_0
abbrev rW1 : Rect S512x2048 := Rect.unit (s := S512x2048) ![0, 0] S512x2048.size inb_S512x2048_S512x2048_0_0
abbrev rT1 : Rect S1x512 := Rect.unit (s := S1x512) ![0, 0] S1x512.size inb_S1x512_S1x512_0_0

/-- The output tile after the body: one store of the payload over the three loaded blocks. -/
def out1_3 (x0 : Vec F S1x2048 .f32) (x1 : Vec F S512x2048 .f32) (x2 : Vec F S1x512 .f32) : Vec F S1x512 .f32 :=
  View.canon [⟨rT1, k1_pay1 (View.ld x0 rIn1) (View.ld x1 rW1) (View.ld x2 rT1)⟩]

/-- The one store covers the tile. -/
theorem cover1_3 (p0 : Vec F S1x512 .f32) (y : S1x512.Idx) :
    ∃ pc ∈ ([⟨rT1, p0⟩] : List (View.Piece (Elt F) S1x512 .f32)), y ∈ pc.1.set :=
  View.cover_of_tiled [⟨rT1, p0⟩] S1x512.size (by rfl) y

/-! ## The body's triple -/

set_option maxHeartbeats 1000000 in
/-- On whole staging memrefs, the inputs' at contents `x0 x1 x2` and the output's at anything, the body runs to
    the continuation with the inputs' as they were and the output's at `out1_3 x0 x1 x2`. -/
theorem sound_kernel1 (c : Dev nD) (E : Set ℕ) (i : grid1.Coords)
    (arg1 : Memref sig .tc .vmem S1x2048 .f32) (harg1 : arg1.IsWhole) (arg2 : Memref sig .tc .vmem S512x2048 .f32) (harg2 : arg2.IsWhole)
    (arg3 : Memref sig .tc .vmem S1x512 .f32) (harg3 : arg3.IsWhole) (arg4 : Memref sig .tc .vmem S1x512 .f32) (harg4 : arg4.IsWhole)
    (x0 : Vec F S1x2048 .f32) (x1 : Vec F S512x2048 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__kernel_comb i arg1 harg1 arg2 harg2 arg3 harg3 arg4 harg4) K := by
  simp only [cc1__kernel_comb_eq_skeleton]; unfold cc1__kernel_comb_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Proof data of this pipeline on core `c`: the arrays as the region finds them; after the body at point `t`
    each input's buffer still at its block and the output's at `out1_3` of the three blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The two GRU projections (third pallas_call): four grid points. At point t the body reads the whole input
  row x and the whole hidden row h, rows 768·t … 768·t+767 of the two (3072, 1024) weights and the matching
  768 entries of the two biases, and stores x · tile_ihᵀ + bias_ih and h · tile_hhᵀ + bias_hh into entries
  768·t … 768·t+767 of the two (1, 3072) results.
  Here: what each staging buffer holds at a point, what the body leaves in the two outputs' buffers as one
  store each over the loaded blocks, the body's triple, and the pipeline's proof data with its body
  obligation, at any float instance.
-/
import proofs.«413161_j58153857188588_3_alg».proof.Proof.Gen.KernelIdeal.Launch
import proofs.«413161_j58153857188588_3_alg».proof.Proof.Gen.KernelIdeal.Skeleton
import proofs.«413161_j58153857188588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an input fetched
    once keeps its block index). One statement per window, at the window's numeral, where the block's shape is
    the literal one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and every store takes its whole staging buffer -/

abbrev rw2_S1x1024 : Rect S1x1024 := Rect.unit (s := S1x1024) ![0, 0] S1x1024.size inb_S1x1024_S1x1024_0_0
abbrev rw2_S768x1024 : Rect S768x1024 := Rect.unit (s := S768x1024) ![0, 0] S768x1024.size inb_S768x1024_S768x1024_0_0
abbrev rw2_S1x768 : Rect S1x768 := Rect.unit (s := S1x768) ![0, 0] S1x768.size inb_S1x768_S1x768_0_0

/-! ## What the body leaves in each output's buffer: one store of the payload over the loaded blocks -/

def out2_6 (x0 : Vec F S1x1024 .f32) (x2 : Vec F S768x1024 .f32) (x4 : Vec F S1x768 .f32) : Vec F S1x768 .f32 :=
  View.canon [⟨rw2_S1x768, k2_pay1 (View.ld x0 rw2_S1x1024) (View.ld x2 rw2_S768x1024) (View.ld x4 rw2_S1x768)⟩]

theorem cover2_6 (p0 : Vec F S1x768 .f32) (y : S1x768.Idx) :
    ∃ pc ∈ ([⟨rw2_S1x768, p0⟩] : List (View.Piece (Elt F) S1x768 .f32)), y ∈ pc.1.set :=
  View.cover_of_tiled [⟨rw2_S1x768, p0⟩] S1x768.size (by rfl) y

def out2_7 (x1 : Vec F S1x1024 .f32) (x3 : Vec F S768x1024 .f32) (x5 : Vec F S1x768 .f32) : Vec F S1x768 .f32 :=
  View.canon [⟨rw2_S1x768, k2_pay2 (View.ld x1 rw2_S1x1024) (View.ld x3 rw2_S768x1024) (View.ld x5 rw2_S1x768)⟩]

theorem cover2_7 (p0 : Vec F S1x768 .f32) (y : S1x768.Idx) :
    ∃ pc ∈ ([⟨rw2_S1x768, p0⟩] : List (View.Piece (Elt F) S1x768 .f32)), y ∈ pc.1.set :=
  View.cover_of_tiled [⟨rw2_S1x768, p0⟩] S1x768.size (by rfl) y

/-! ## The body's triple -/

set_option maxHeartbeats 2000000 in
/-- On whole staging memrefs, the inputs' at their contents and the outputs' at anything, the body runs to the
    continuation with the inputs' as they were and each output's at its `out2_w` of the inputs'. -/
theorem sound_kernel2 (c : Dev nD) (E : Set ℕ) (i : grid2.Coords) (arg1 : Memref sig .tc .vmem S1x1024 .f32) (harg1 : arg1.IsWhole) (arg2 : Memref sig .tc .vmem S1x1024 .f32) (harg2 : arg2.IsWhole) (arg3 : Memref sig .tc .vmem S768x1024 .f32) (harg3 : arg3.IsWhole) (arg4 : Memref sig .tc .vmem S768x1024 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1x768 .f32) (harg8 : arg8.IsWhole)
    (x0 : Vec F S1x1024 .f32) (x1 : Vec F S1x1024 .f32) (x2 : Vec F S768x1024 .f32) (x3 : Vec F S768x1024 .f32) (x4 : Vec F S1x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x2 x4) ∗ owns (c : Thread nD τ) arg8 fullShare (out2_7 x1 x3 x5)) -∗ K ⟨⟩))
      ⊢ wp frame (wpE (defs₀ (F := F)) Variants.none c none) E (cc2__kernel_gru_mm i arg1 harg1 arg2 harg2 arg3 harg3 arg4 harg4 arg5 harg5 arg6 harg6 arg7 harg7 arg8 harg8) K := by
  simp only [cc2__kernel_gru_mm_eq_skeleton]; unfold cc2__kernel_gru_mm_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

/-- Proof data of this pipeline on core `c`: the arrays as the region finds them; after the body at point `t`
    each input's buffer still at its block and each output's at its `out2_w` of the blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 4 t)
    | ⟨7, _⟩ => out2_7 (iblk2 V c 1 t) (iblk2 V c 3 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 4 t) := by dsimp only [dat2]
theorem after2_7 (c : Dev nD) (t : Fin cfg2.N) :
    (dat2 V c).after 7 t = out2_7 (iblk2 V c 1 t) (iblk2 V c 3 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Def.lean ====
/-
  The output projection (fourth pallas_call): 25 grid points over the 50257 vocabulary entries in tiles of
  2048. At point t the body reads the whole new hidden row, rows 2048·t … of the (50257, 1024) weight and the
  matching entries of the (1, 50257) bias, and stores row · tileᵀ + bias — with a fixed finite filler at the
  tile columns whose vocabulary index is 50257 or more — into the matching tile of the (1, 50257) result.
  The last tile overhangs the arrays: its fetches bring in only the 1105 rows (entries) inside the arrays and
  leave the rest of the staging buffers at words nothing names; its write-back writes only the 1105 entries
  inside the result.
  Here, the definitions only: each window's block at a point (the part inside its array), the blocks filled out to
  the staging buffers' full shape with the zero word where the array has ended, what the body leaves in the
  output's buffer as one store over those, and the pipeline's proof data over them.
-/
import proofs.«413161_j58153857188588_3_alg».proof.Proof.Gen.KernelIdeal.Launch
import proofs.«413161_j58153857188588_3_alg».proof.Proof.Gen.KernelIdeal.Skeleton
import proofs.«413161_j58153857188588_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on every core when the region is entered: everything below is stated at this parameter
variable (V : (c : Dev nD) → (b : Ref sig .tc) → Buf (Elt F) ((c : Thread nD τ).loc b))

/-- Window `w`'s block at point `t`, read off its array as the region finds it: the part inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The weight tile at point `t` at the staging buffer's full shape: the rows inside the array, the zero word
    below them. -/
def wblk3 (c : Dev nD) (t : Fin cfg3.N) : S2048x1024.Idx → Elt F .f32 :=
  win3_1.fill (grid3.coords t) (fun _ => Scalar.ofBits .f32 0#32) (iblk3 V c 1 t)

/-- The bias tile at point `t` at the staging buffer's full shape, likewise. -/
def bblk3 (c : Dev nD) (t : Fin cfg3.N) : S1x2048.Idx → Elt F .f32 :=
  win3_2.fill (grid3.coords t) (fun _ => Scalar.ofBits .f32 0#32) (iblk3 V c 2 t)

abbrev rw3_S1x1024 : Rect S1x1024 := Rect.unit (s := S1x1024) ![0, 0] S1x1024.size inb_S1x1024_S1x1024_0_0
abbrev rw3_S2048x1024 : Rect S2048x1024 := Rect.unit (s := S2048x1024) ![0, 0] S2048x1024.size inb_S2048x1024_S2048x1024_0_0
abbrev rw3_S1x2048 : Rect S1x2048 := Rect.unit (s := S1x2048) ![0, 0] S1x2048.size inb_S1x2048_S1x2048_0_0

/-- The output tile after the body at grid coordinates `i`: one store of the payload over the three loaded buffers. -/
def out3_3 (i : grid3.Coords) (x0 : Vec F S1x1024 .f32) (x1 : Vec F S2048x1024 .f32) (x2 : Vec F S1x2048 .f32) : Vec F S1x2048 .f32 :=
  View.canon [⟨rw3_S1x2048, k3_pay1 i (View.ld x0 rw3_S1x1024) (View.ld x1 rw3_S2048x1024) (View.ld x2 rw3_S1x2048)⟩]

theorem cover3_3 (p0 : Vec F S1x2048 .f32) (y : S1x2048.Idx) :
    ∃ pc ∈ ([⟨rw3_S1x2048, p0⟩] : List (View.Piece (Elt F) S1x2048 .f32)), y ∈ pc.1.set :=
  View.cover_of_tiled [⟨rw3_S1x2048, p0⟩] S1x2048.size (by rfl) y

/-- Proof data of this pipeline on core `c`: the arrays as the region finds them; after the body at point `t` the
    hidden row's buffer at the row, the weight's and the bias's at their zero-filled tiles, the output's at
    `out3_3` of those three; the invariant is the scoped rest and the generator register, untouched; nothing owed;
    full shares. Where a tile overhangs its array only the part inside is ever stated of a buffer. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => wblk3 V c t
    | ⟨2, _⟩ => bblk3 V c t
    | ⟨3, _⟩ => out3_3 (grid3.coords t) (iblk3 V c 0 t) (wblk3 V c t) (bblk3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = wblk3 V c t := by dsimp only [dat3]
theorem after3_2 (c : Dev nD) (t : Fin cfg3.N) : (dat3 V c).after 2 t = bblk3 V c t := by dsimp only [dat3]
theorem after3_3 (c : Dev nD) (t : Fin cfg3.N) :
    (dat3 V c).after 3 t = out3_3 (grid3.coords t) (iblk3 V c 0 t) (wblk3 V c t) (bblk3 V c t) := by dsimp only [dat3]

end Cert.KernelIdeal.Hand

end
-- ==== Proof.KI.Chain.lean ====
/-
  The contents of every unscoped buffer of a core between two items of @main, as a fold from the launch memory:
  a stretch of host operations applies them (`StableHlo.after`); a kernel region leaves each of its windows' arrays
  at what its pipeline's write-backs leave (the proof data's `arrAt` after the last point) and every other buffer
  as it found it. Item by item: host operations (the index wrap, the embedding gather, the reshapes), the attention
  step, one host operation (the concatenation), the combine projection, the two GRU projections, host operations
  (the gates), the output projection, host operations (log_softmax), one host operation (the hidden state's
  reshape). At any float instance.
-/
import proofs.«413161_j58153857188588_3_alg».proof.Proof.KI.Reg0
import proofs.«413161_j58153857188588_3_alg».proof.Proof.KI.Reg1
import proofs.«413161_j58153857188588_3_alg».proof.Proof.KI.Reg2
import proofs.«413161_j58153857188588_3_alg».proof.Proof.KI.Reg3Def

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch (the attention step's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention step's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the concatenation (the combine projection's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combine projection's exit (the GRU projections' entry: no host operation stands between the two). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At the GRU projections' exit. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the gate arithmetic (the output projection's entry). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
/-- At the output projection's exit. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After log_softmax, and after the hidden state's reshape: the contents at the return. -/
abbrev W8 : Dev nD → Valuation τ sig (Elt F) := fun c => StableHlo.after hostOps4 (W7 m c)
abbrev W9 : Dev nD → Valuation τ sig (Elt F) := fun c => StableHlo.after hostOps4_1 (W8 m c)

end Cert.KernelIdeal.Hand

end
-- ==== Proof.KI.Run.lean ====
/-
  The launch of the idealized program. @main is nine items in order: host operations (the index wrap, the
  embedding gather, the reshapes), the attention step, the concatenation, the combine projection, the two GRU
  projections, the gate arithmetic, the output projection, log_softmax, the hidden state's reshape. Between two
  items a core holds every unscoped buffer whole at the fold's contents for that boundary, its generator register
  at some state, and owes nothing. A stretch of host operations carries the contents from one boundary to the
  next; a kernel region takes its windows' arrays out of the unscoped buffers at the entry contents, runs its
  pipeline, and puts them back at what the pipeline's write-backs leave, every other buffer as it was.
  Conclusion: from any memory with all counters at zero every weakly fair execution terminates without a fault,
  and at the end every unscoped buffer holds the fold's last contents. At any float instance; the output
  projection's body obligation is a hypothesis.
-/
import proofs.«413161_j58153857188588_3_alg».proof.Proof.KI.Chain
import proofs.«413161_j58153857188588_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the four pipelines and what rides beside the buffers -/

/-- No pipeline has a prefetched table. -/
abbrev admH : (p : Fin 4) → (pcfgs (F := F) p).Adm := fun p => (cfgs p).toPCfg_adm

/-- Each pipeline's proof data at the contents its region is entered from. -/
def pdats : (p : Fin 4) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V3 m) c
  | ⟨2, _⟩ => fun c => dat2 (V4 m) c
  | ⟨3, _⟩ => fun c => dat3 (V6 m) c

abbrev 𝒱H : Variants := Variants.none
/-- No core waits on another: no level is assigned. -/
abbrev LH : GSem nD τ sig → Finset Unit := fun _ => ∅
abbrev lvH : GSem nD τ sig → Unit → ℕ := fun _ _ => 0

/-- Beside the buffers, through every item: the generator register at some state, and nothing owed. -/
abbrev RH (c : Dev nD) : sProp 𝕄 := iprop((∃ r, prngReg c r) ∗ ∃ W, owes (c : Thread nD τ) (0 : CellTallies nD τ sig Unit) W)

/-- A stretch of host operations from the contents W: it carries every unscoped buffer to StableHlo.after ops (W c). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- The last boundary without the debt: every unscoped buffer at the last contents, the generator register. -/
abbrev TH (c : Dev nD) : sProp 𝕄 := iprop(StableHlo.held (c : Thread nD τ) (Pipeline.ucRefs τ sig) (W9 m c) ∗ ∃ r, prngReg c r)

/-! ## The four kernel regions -/

set_option backward.isDefEq.respectTransparency.types false in
/-- The attention step as a region: entered from every unscoped buffer at W1, left at W2. Its windows' arrays come out
    of the unscoped buffers at the entry contents and go back at what the write-backs leave; the generator register
    goes through the pipeline's invariant; nothing is owed; the kernel has no semaphore of its own. -/
def reg0 :
    Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V1 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The combine projection as a region: entered from every unscoped buffer at W3, left at W4. Its windows' arrays come out
    of the unscoped buffers at the entry contents and go back at what the write-backs leave; the generator register
    goes through the pipeline's invariant; nothing is owed; the kernel has no semaphore of its own. -/
def reg1 :
    Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The two GRU projections as a region: entered from every unscoped buffer at W4, left at W5. Its windows' arrays come out
    of the unscoped buffers at the entry contents and go back at what the write-backs leave; the generator register
    goes through the pipeline's invariant; nothing is owed; the kernel has no semaphore of its own. -/
def reg2 :
    Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ LH lvH 2 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V4 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

set_option backward.isDefEq.respectTransparency.types false in
/-- The output projection as a region: entered from every unscoped buffer at W6, left at W7. Its windows' arrays come out
    of the unscoped buffers at the entry contents and go back at what the write-backs leave; the generator register
    goes through the pipeline's invariant; nothing is owed; the kernel has no semaphore of its own. -/
def reg3 (hb : ∀ c, Pipeline.BodyObligationLoose (dat3 (V6 m) c) (defs₀ (F := F)) Variants.none () Set.univ) :
    Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := hb c
  hwaits := Pipeline.hwaits_of_owed_zero _ _ _ _ LH lvH 3 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (V6 m c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩
    iexists W
    iexact Howes

/-! ## @main as its nine items, and the launch -/

/-- @main's items in order: a stretch of host operations from its boundary's contents, a region per pallas_call. -/
abbrev segsH (hb3 : ∀ c, Pipeline.BodyObligationLoose (dat3 (V6 m) c) (defs₀ (F := F)) Variants.none () Set.univ) :
    List (Pipeline.Seg (pcfgs (F := F)) admH (pdats m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m hb3),
    .host (hseg hostOps4 hostOps4_sub hostOps4_fresh (W7 m)),
    .host (hseg hostOps4_1 hostOps4_1_sub hostOps4_1_fresh (W8 m)) ]

/-- The last boundary regrouped: the buffers and the generator register on one side, the debt (none) on the other. -/
theorem last_boundary (c : Dev nD) :
    (iprop(StableHlo.held (c : Thread nD τ) (Pipeline.ucRefs τ sig) (W9 m c) ∗ RH c) : sProp 𝕄)
      ⊢ iprop(TH m c ∗ ∃ W, owes (c : Thread nD τ) (0 : CellTallies nD τ sig Unit) W) := by
  iintro ⟨Hh, Hprng, Howes⟩
  isplitl [Hh Hprng]
  · isplitl [Hh]; · iexact Hh
    iexact Hprng
  iexact Howes

set_option backward.isDefEq.respectTransparency.types false in
/-- Every weakly fair execution of @main from memory m with all counters at zero terminates without a fault, and in
    every final memory each unscoped buffer of each core holds the fold's last contents W9. -/
theorem run_all (ρ : Dev nD → PrngReg)
    (hb3 : ∀ c, Pipeline.BodyObligationLoose (dat3 (V6 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) admH (pdats m) () cellOf_inj emb₁ defs₀ 𝒱H LH lvH m ρ main (segsH m hb3)
    (fun c Q => by
      rewrite [main_chain c, Pipeline.Seg.run_eq_chain,
        show (segsH m hb3).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl,
      fun _ => .rfl, fun _ => .rfl, fun c => last_boundary m c⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howes, -, Hprng, -⟩, -⟩
      imodintro
      isplitl [Hh]; · iexact Hh
      isplitl [Hprng]; · iexists _; iexact Hprng
      iexists ∅; iexact Howes)
    (QY := fun c s => ∀ b ∈ Pipeline.ucRefs τ sig, s.mem ((c : Thread nD τ).1, b) = W9 m c b)
    (hfin := fun c s' => by
      iintro ⟨⟨Hh, -⟩, HSI⟩
      unfold StableHlo.held
      imodintro
      iapply (pointsTo_read_all (Pipeline.ucRefs τ sig) (fun b => ((c : Thread nD τ).1, b)) (W9 m c) s')
      isplitl [Hh] <;> iassumption)
    (hQ := fun _ h => h)

end Cert.KernelIdeal.Hand

end
-- ==== Proof.KI.Reg3Body.lean ====
/-
  The output projection's body on its staging buffers, at any float instance: what the three input buffers hold when
  the body runs at a point — the hidden row's its block (fetched once, the block index never moves); the weight's and
  the bias's, fetched at every point, their tile on the part inside the array and, where the last tile overhangs,
  whatever the buffer held elsewhere —, and the body's triple: on whole staging memrefs at any contents of the three
  inputs it runs to the output's buffer holding one store of the payload over them.
-/
import proofs.«413161_j58153857188588_3_alg».proof.Proof.KI.Reg3Def

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input buffers hold at a point -/

/-- The hidden row's buffer holds the row at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The weight's buffer, fetched at every point: the tile inside the array, `d` elsewhere. -/
theorem before3_1 (c : Dev nD) (t : Fin cfg3.N) (d) :
    (dat3 V c).before 1 t d = win3_1.fill (grid3.coords t) d (iblk3 V c 1 t) := by
  unfold Dat.before; rw [if_pos (fetch3_1 t)]; rfl

/-- The bias's buffer, likewise. -/
theorem before3_2 (c : Dev nD) (t : Fin cfg3.N) (d) :
    (dat3 V c).before 2 t d = win3_2.fill (grid3.coords t) d (iblk3 V c 2 t) := by
  unfold Dat.before; rw [if_pos (fetch3_2 t)]; rfl

/-! ## The body's triple -/

set_option maxHeartbeats 2000000 in
/-- On whole staging memrefs, the inputs' at contents `x0 x1 x2` and the output's at anything, the body at grid
    coordinates `i` runs to the continuation with the inputs' as they were and the output's at `out3_3 i x0 x1 x2`. -/
theorem sound_kernel3 (c : Dev nD) (E : Set ℕ) (i : grid3.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 i x0 x1 x2)) -∗ K ⟨⟩))
      ⊢ wp frame (wpE (defs₀ (F := F)) Variants.none c none) E (cc3__kernel_b i arg1 harg1 arg2 harg2 arg3 harg3 arg4 harg4) K := by
  simp only [cc3__kernel_b_eq_skeleton]; unfold cc3__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

end Cert.KernelIdeal.Hand

end
-- ==== Proof.KI.Reg3.lean ====
/-
  The output projection's body obligation at the ideal instance. At the last grid point the weight's and the bias's
  staging buffers arrive holding their tiles on the 1105 rows (entries) inside the arrays and words nothing names
  elsewhere; what the body then leaves on the 1105 output entries inside the result does not depend on those words,
  because at the ideal instance an entry of the matrix product is the sum over the contraction of the hidden row
  against that entry's own row of the weight tile, and the bias is added and the mask applied entry by entry.
-/
import proofs.«413161_j58153857188588_3_alg».proof.Proof.KI.Reg3Body
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-! ## The payload at a tile column -/

/-- The right operand's column at an output index is the output's column, whatever the contraction position. -/
theorem rhsIdx_col_reg3 (y : S1x2048.Idx) (q : dot_S1x1024_S1024x2048_S1x2048_1_0_0_1_n_n.contr.Idx) :
    (dot_S1x1024_S1024x2048_S1x2048_1_0_0_1_n_n.rhsIdx y q 1).val = (y 1).val := by
  unfold DotDims.rhsIdx
  rw [dif_neg (show ¬(1 : Fin S1024x2048.rank) ∈ dot_S1x1024_S1024x2048_S1x2048_1_0_0_1_n_n.rhsBatch by decide),
    dif_pos (show (1 : Fin S1024x2048.rank) ∈ dot_S1x1024_S1024x2048_S1x2048_1_0_0_1_n_n.rhsNonContracting by decide)]
  rfl

/-- The index of the weight tile that the transposed tile reads at an index: the two coordinates exchanged. -/
abbrev tIdx_reg3 (j : S1024x2048.Idx) : S2048x1024.Idx := fun a => match a with
  | ⟨0, _⟩ => ⟨(j 1).val, (j 1).isLt⟩
  | ⟨1, _⟩ => ⟨(j 0).val, (j 0).isLt⟩

theorem transpose_apply_reg3 {α : Type} (x : S2048x1024.Idx → α) (h : S2048x1024.Transposes [1, 0] S1024x2048) (j : S1024x2048.Idx) :
    transpose S1024x2048 [1, 0] x h j = x (tIdx_reg3 j) :=
  transpose_apply [1, 0] x h j (tIdx_reg3 j) (fun b => match b with
    | ⟨0, _⟩ => rfl
    | ⟨1, _⟩ => rfl)

/-- A masked (row · tileᵀ + bias) at column `y 1`: it reads row `y 1` of the tile and entry `y` of the bias only. -/
theorem pay_core_reg3 (m : IVec S1x2048 1) (l : FVec Ideal S1x1024 .bf16) (X1 X1' : FVec Ideal S2048x1024 .f32)
    (X2 X2' b : FVec Ideal S1x2048 .f32) (hb : FTy.bits .bf16 < FTy.bits .f32) (ht : S2048x1024.Transposes [1, 0] S1024x2048)
    (hs : S1x2048.ShapeCasts S1x2048) (y : S1x2048.Idx)
    (h1 : ∀ r : S2048x1024.Idx, (r 0).val = (y 1).val → X1 r = X1' r) (h2 : X2 y = X2' y) :
    select m (addf (matmul dot_S1x1024_S1024x2048_S1x2048_1_0_0_1_n_n none l
        (transpose S1024x2048 [1, 0] (truncf .bf16 X1 hb) ht) (constant S1x2048 .f32 0x00000000#32)) (shapeCast S1x2048 X2 hs)) b y
      = select m (addf (matmul dot_S1x1024_S1024x2048_S1x2048_1_0_0_1_n_n none l
        (transpose S1024x2048 [1, 0] (truncf .bf16 X1' hb) ht) (constant S1x2048 .f32 0x00000000#32)) (shapeCast S1x2048 X2' hs)) b y := by
  rw [select_apply, select_apply, addf_apply, addf_apply, shapeCast_self, shapeCast_self, h2]
  simp only [matmul]
  rw [Ideal.matmul_constant_zero_apply, Ideal.matmul_constant_zero_apply]
  have hsum : ∀ q : dot_S1x1024_S1024x2048_S1x2048_1_0_0_1_n_n.contr.Idx,
      transpose S1024x2048 [1, 0] (truncf .bf16 X1 hb) ht (dot_S1x1024_S1024x2048_S1x2048_1_0_0_1_n_n.rhsIdx y q)
        = transpose S1024x2048 [1, 0] (truncf .bf16 X1' hb) ht (dot_S1x1024_S1024x2048_S1x2048_1_0_0_1_n_n.rhsIdx y q) := fun q => by
    rw [transpose_apply_reg3, transpose_apply_reg3, truncf_apply, truncf_apply]
    exact h1 _ (rhsIdx_col_reg3 y q)
  rw [Finset.sum_congr rfl fun q _ => by rw [hsum q]]

/-- The payload at a tile column likewise. -/
theorem pay_congr_reg3 (i : grid3.Coords) (x0 : Vec Ideal S1x1024 .f32) (X1 X1' : Vec Ideal S2048x1024 .f32) (X2 X2' : Vec Ideal S1x2048 .f32)
    (y : S1x2048.Idx) (h1 : ∀ r : S2048x1024.Idx, (r 0).val = (y 1).val → X1 r = X1' r) (h2 : X2 y = X2' y) :
    k3_pay1 (F := Ideal) i x0 X1 X2 y = k3_pay1 (F := Ideal) i x0 X1' X2' y := by
  unfold k3_pay1
  exact pay_core_reg3 _ _ X1 X1' X2 X2' _ _ _ _ y h1 h2

theorem zero_offsets_reg3 : (![0, 0] : Fin 2 → Nat) = fun _ => 0 := funext fun a => by
  match a with
  | ⟨0, _⟩ => rfl
  | ⟨1, _⟩ => rfl

/-- What the body leaves at a tile column likewise. -/
theorem out_congr_reg3 (i : grid3.Coords) (x0 : Vec Ideal S1x1024 .f32) (X1 X1' : Vec Ideal S2048x1024 .f32) (X2 X2' : Vec Ideal S1x2048 .f32)
    (y : S1x2048.Idx) (h1 : ∀ r : S2048x1024.Idx, (r 0).val = (y 1).val → X1 r = X1' r) (h2 : X2 y = X2' y) :
    out3_3 (F := Ideal) i x0 X1 X2 y = out3_3 (F := Ideal) i x0 X1' X2' y := by
  unfold out3_3
  rw [View.canon_unit_zero (S := S1x2048) zero_offsets_reg3, View.canon_unit_zero (S := S1x2048) zero_offsets_reg3]
  simp only [View.ld_unit_zero (S := S1x1024) zero_offsets_reg3, View.ld_unit_zero (S := S2048x1024) zero_offsets_reg3, View.ld_unit_zero (S := S1x2048) zero_offsets_reg3]
  exact pay_congr_reg3 i x0 X1 X1' X2 X2' y h1 h2

/-! ## The windows' cuts -/

/-- The weight tile is cut on its rows as the output tile is on its columns, and not on its columns; the bias tile is
    cut as the output tile is. -/
theorem xsize_reg3 : ∀ i : grid3.Coords, win3_1.xsize i 0 = win3_3.xsize i 1 ∧ win3_1.xsize i 1 = 1024
    ∧ win3_2.xsize i 0 = win3_3.xsize i 0 ∧ win3_2.xsize i 1 = win3_3.xsize i 1 := by decide +kernel

/-- At a column inside the output's cut, that column's row of the weight tile is inside the weight's cut: the tile
    filled out reads the tile there, whatever fills it out. -/
theorem fill_weight_row_reg3 (i : grid3.Coords) (d d' : S2048x1024.Idx → Elt Ideal .f32) (B : (win3_1.xblock i).Idx → Elt Ideal .f32)
    (j : (win3_3.xblock i).Idx) (r : S2048x1024.Idx) (hr : (r 0).val = (j 1).val) :
    win3_1.fill i d B r = win3_1.fill i d' B r := by
  have hm : win3_1.moved i r = true := (win3_1.moved_iff i r).mpr fun a => by
    obtain ⟨h0, h1, -, -⟩ := xsize_reg3 i
    match a with
    | ⟨0, _⟩ => show (r 0).val < win3_1.xsize i 0; rw [h0, hr]; exact (j 1).isLt
    | ⟨1, _⟩ => show (r 1).val < win3_1.xsize i 1; rw [h1]; exact (r 1).isLt
  unfold Window.fill; rw [dif_pos hm, dif_pos hm]

/-- An entry inside the output's cut is inside the bias's cut. -/
theorem fill_bias_entry_reg3 (i : grid3.Coords) (d d' : S1x2048.Idx → Elt Ideal .f32) (B : (win3_2.xblock i).Idx → Elt Ideal .f32)
    (j : (win3_3.xblock i).Idx) :
    win3_2.fill i d B (win3_3.xinj i j) = win3_2.fill i d' B (win3_3.xinj i j) := by
  have hm : win3_2.moved i (win3_3.xinj i j) = true := (win3_2.moved_iff i _).mpr fun a => by
    obtain ⟨-, -, h0, h1⟩ := xsize_reg3 i
    match a with
    | ⟨0, _⟩ => show (j 0).val < win3_2.xsize i 0; rw [h0]; exact (j 0).isLt
    | ⟨1, _⟩ => show (j 1).val < win3_2.xsize i 1; rw [h1]; exact (j 1).isLt
  unfold Window.fill; rw [dif_pos hm, dif_pos hm]

/-- LOCALITY: on the entries inside the output's cut, what the body leaves does not depend on what fills out the
    weight's and the bias's tiles past their cuts. -/
theorem cut_out_local_reg3 (i : grid3.Coords) (x0 : Vec Ideal S1x1024 .f32) (d1 d1' : S2048x1024.Idx → Elt Ideal .f32)
    (B1 : (win3_1.xblock i).Idx → Elt Ideal .f32) (d2 d2' : S1x2048.Idx → Elt Ideal .f32) (B2 : (win3_2.xblock i).Idx → Elt Ideal .f32) :
    win3_3.cut i (out3_3 (F := Ideal) i x0 (win3_1.fill i d1 B1) (win3_2.fill i d2 B2))
      = win3_3.cut i (out3_3 (F := Ideal) i x0 (win3_1.fill i d1' B1) (win3_2.fill i d2' B2)) :=
  funext fun j => out_congr_reg3 i x0 _ _ _ _ (win3_3.xinj i j) (fun r hr => fill_weight_row_reg3 i d1 d1' B1 j r hr) (fill_bias_entry_reg3 i d2 d2' B2 j)

/-! ## The body obligation -/

variable (V : (c : Dev nD) → (b : Ref sig .tc) → Buf (Elt Ideal) ((c : Thread nD τ).loc b))

/-- The output's buffer is written back at every point: the body finds it at contents nothing names. -/
theorem before3_3 (c : Dev nD) (t : Fin cfg3.N) (d) : (dat3 V c).before 3 t d = d :=
  (dat3 V c).before_out_reset 3 rfl t (by
    by_cases h0 : t.val = 0
    · exact .inl h0
    · exact .inr ⟨h0, flush3_3 _⟩) d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the hidden row's buffer whole, the three others on the part inside their arrays. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ (∃ d, owns (c : Thread nD τ) (st3_1 t) fullShare
        ((cfg3.win 1).fill (cfg3.grid.coords t) d ((cfg3.win 1).cut (cfg3.grid.coords t) ((dat3 V c).after 1 t))))
    ∗ (∃ d, owns (c : Thread nD τ) (st3_2 t) fullShare
        ((cfg3.win 2).fill (cfg3.grid.coords t) d ((cfg3.win 2).cut (cfg3.grid.coords t) ((dat3 V c).after 2 t))))
    ∗ (∃ d, owns (c : Thread nD τ) (st3_3 t) fullShare
        ((cfg3.win 3).fill (cfg3.grid.coords t) d ((cfg3.win 3).cut (cfg3.grid.coords t) ((dat3 V c).after 3 t)))))

theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  -- each filled tile cut back is the tile; the output's cut is the same whatever filled the two tiles out
  have hw : win3_1.cut (grid3.coords t) (wblk3 V c t) = iblk3 V c 1 t := win3_1.cut_fill _ _ _
  have hb : win3_2.cut (grid3.coords t) (bblk3 V c t) = iblk3 V c 2 t := win3_2.cut_fill _ _ _
  have ho : win3_3.fill (grid3.coords t)
      (out3_3 (grid3.coords t) (iblk3 V c 0 t) (win3_1.fill (grid3.coords t) d1 (iblk3 V c 1 t)) (win3_2.fill (grid3.coords t) d2 (iblk3 V c 2 t)))
      (win3_3.cut (grid3.coords t) (out3_3 (grid3.coords t) (iblk3 V c 0 t) (wblk3 V c t) (bblk3 V c t)))
      = out3_3 (grid3.coords t) (iblk3 V c 0 t) (win3_1.fill (grid3.coords t) d1 (iblk3 V c 1 t)) (win3_2.fill (grid3.coords t) d2 (iblk3 V c 2 t)) :=
    win3_3.fill_congr_cut _ (cut_out_local_reg3 (grid3.coords t) (iblk3 V c 0 t) d1 _ (iblk3 V c 1 t) d2 _ (iblk3 V c 2 t))
  isplitl [H1]
  · iexists d1
    change _ ⊢ owns (c : Thread nD τ) (st3_1 t) fullShare (win3_1.fill (grid3.coords t) d1 (win3_1.cut (grid3.coords t) (wblk3 V c t)))
    rw [hw]; try iexact H1
  isplitl [H2]
  · iexists d2
    change _ ⊢ owns (c : Thread nD τ) (st3_2 t) fullShare (win3_2.fill (grid3.coords t) d2 (win3_2.cut (grid3.coords t) (bblk3 V c t)))
    rw [hb]; try iexact H2
  · iexists out3_3 (grid3.coords t) (iblk3 V c 0 t) (win3_1.fill (grid3.coords t) d1 (iblk3 V c 1 t)) (win3_2.fill (grid3.coords t) d2 (iblk3 V c 2 t))
    change _ ⊢ owns (c : Thread nD τ) (st3_3 t) fullShare (win3_3.fill (grid3.coords t)
      (out3_3 (grid3.coords t) (iblk3 V c 0 t) (win3_1.fill (grid3.coords t) d1 (iblk3 V c 1 t)) (win3_2.fill (grid3.coords t) d2 (iblk3 V c 2 t)))
      (win3_3.cut (grid3.coords t) (out3_3 (grid3.coords t) (iblk3 V c 0 t) (wblk3 V c t) (bblk3 V c t))))
    rw [ho]; try iexact H3

/-- The library's body obligation in its loose form (each buffer of an overhanging window stated only on the part
    inside its array), at every point. -/
theorem body_obligation3 (c : Dev nD) :
    BodyObligationLoose (dat3 (F := Ideal) V c) (defs₀ (F := Ideal)) Variants.none () Set.univ := fun t => by
  rw [bigSep_W3, bigSep_W3]
  exact sound_body3 V c t

end Cert.KernelIdeal.Hand

end
-- ==== Proof.KI.Keep.lean ====
/-
  What a kernel region leaves untouched: every buffer other than its result arrays holds after the region what it
  held before it.
-/
import proofs.«413161_j58153857188588_3_alg».proof.Proof.KI.Chain

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- A buffer that is none of this region's outputs leaves it as it entered: an input window's array is never
    written, and a buffer no window stages bypasses the region. -/
theorem W2_keep (c : Dev nD) (b : Ref sig .tc) (h1 : b ≠ main_v13_0) (h2 : b ≠ main_v13_1) :
    W2 m c (Proc.devRef .tc b) = W1 m c (Proc.devRef .tc b) := by
  by_cases h : ∀ w, Pipeline.arrRef spec0 w ≠ b
  · exact W2_of_ne m c b h
  · simp only [not_forall, not_not] at h
    obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact ((dat0 (V1 m) c).arrAt_in 4 rfl _).trans (A_eq0 (V1 m) c 4)
    | ⟨5, _⟩ => exact absurd rfl h1
    | ⟨6, _⟩ => exact absurd rfl h2

/-- A buffer that is none of this region's outputs leaves it as it entered: an input window's array is never
    written, and a buffer no window stages bypasses the region. -/
theorem W4_keep (c : Dev nD) (b : Ref sig .tc) (h1 : b ≠ main_v15) :
    W4 m c (Proc.devRef .tc b) = W3 m c (Proc.devRef .tc b) := by
  by_cases h : ∀ w, Pipeline.arrRef spec1 w ≠ b
  · exact W4_of_ne m c b h
  · simp only [not_forall, not_not] at h
    obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact absurd rfl h1

/-- A buffer that is none of this region's outputs leaves it as it entered: an input window's array is never
    written, and a buffer no window stages bypasses the region. -/
theorem W5_keep (c : Dev nD) (b : Ref sig .tc) (h1 : b ≠ main_v16_0) (h2 : b ≠ main_v16_1) :
    W5 m c (Proc.devRef .tc b) = W4 m c (Proc.devRef .tc b) := by
  by_cases h : ∀ w, Pipeline.arrRef spec2 w ≠ b
  · exact W5_of_ne m c b h
  · simp only [not_forall, not_not] at h
    obtain ⟨w, rfl⟩ := h
    rw [W5_arr]
    match w with
    | ⟨0, _⟩ => exact ((dat2 (V4 m) c).arrAt_in 0 rfl _).trans (A_eq2 (V4 m) c 0)
    | ⟨1, _⟩ => exact ((dat2 (V4 m) c).arrAt_in 1 rfl _).trans (A_eq2 (V4 m) c 1)
    | ⟨2, _⟩ => exact ((dat2 (V4 m) c).arrAt_in 2 rfl _).trans (A_eq2 (V4 m) c 2)
    | ⟨3, _⟩ => exact ((dat2 (V4 m) c).arrAt_in 3 rfl _).trans (A_eq2 (V4 m) c 3)
    | ⟨4, _⟩ => exact ((dat2 (V4 m) c).arrAt_in 4 rfl _).trans (A_eq2 (V4 m) c 4)
    | ⟨5, _⟩ => exact ((dat2 (V4 m) c).arrAt_in 5 rfl _).trans (A_eq2 (V4 m) c 5)
    | ⟨6, _⟩ => exact absurd rfl h1
    | ⟨7, _⟩ => exact absurd rfl h2

/-- A buffer that is none of this region's outputs leaves it as it entered: an input window's array is never
    written, and a buffer no window stages bypasses the region. -/
theorem W7_keep (c : Dev nD) (b : Ref sig .tc) (h1 : b ≠ main_v45) :
    W7 m c (Proc.devRef .tc b) = W6 m c (Proc.devRef .tc b) := by
  by_cases h : ∀ w, Pipeline.arrRef spec3 w ≠ b
  · exact W7_of_ne m c b h
  · simp only [not_forall, not_not] at h
    obtain ⟨w, rfl⟩ := h
    rw [W7_arr]
    match w with
    | ⟨0, _⟩ => exact ((dat3 (V6 m) c).arrAt_in 0 rfl _).trans (A_eq3 (V6 m) c 0)
    | ⟨1, _⟩ => exact ((dat3 (V6 m) c).arrAt_in 1 rfl _).trans (A_eq3 (V6 m) c 1)
    | ⟨2, _⟩ => exact ((dat3 (V6 m) c).arrAt_in 2 rfl _).trans (A_eq3 (V6 m) c 2)
    | ⟨3, _⟩ => exact absurd rfl h1

end Cert.KernelIdeal.Hand

end
-- ==== Proof.KI.Args.lean ====
/-
  A buffer that no host operation of @main writes and that is no kernel region's result array holds, at every
  boundary between @main's items, what it held at launch. The fourteen argument arrays are such buffers.
-/
import proofs.«413161_j58153857188588_3_alg».proof.Proof.KI.Keep
import proofs.«413161_j58153857188588_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Not written by the host stretches, not a result of a region: `b` is a buffer @main only reads. -/
structure ReadOnly (b : Ref sig .tc) : Prop where
  h0 : b ∉ hostOps0_W
  h1 : b ∉ hostOps1_W
  h3 : b ∉ hostOps3_W
  h4 : b ∉ hostOps4_W
  h41 : b ∉ hostOps4_1_W
  r0a : b ≠ main_v13_0
  r0b : b ≠ main_v13_1
  r1 : b ≠ main_v15
  r2a : b ≠ main_v16_0
  r2b : b ≠ main_v16_1
  r3 : b ≠ main_v45

/-! One step per item of @main: what the item does not write it leaves as it was. -/
theorem step01 (c : Dev nD) {b : Ref sig .tc} (h : b ∉ hostOps0_W) : W1 m c (Proc.devRef .tc b) = W0 m c (Proc.devRef .tc b) :=
  StableHlo.after_of_writes_sub hostOps0 _ hostOps0_writes h
theorem step12 (c : Dev nD) {b : Ref sig .tc} (h1 : b ≠ main_v13_0) (h2 : b ≠ main_v13_1) : W2 m c (Proc.devRef .tc b) = W1 m c (Proc.devRef .tc b) :=
  W2_keep m c b h1 h2
theorem step23 (c : Dev nD) {b : Ref sig .tc} (h : b ∉ hostOps1_W) : W3 m c (Proc.devRef .tc b) = W2 m c (Proc.devRef .tc b) :=
  StableHlo.after_of_writes_sub hostOps1 _ hostOps1_writes h
theorem step34 (c : Dev nD) {b : Ref sig .tc} (h1 : b ≠ main_v15) : W4 m c (Proc.devRef .tc b) = W3 m c (Proc.devRef .tc b) :=
  W4_keep m c b h1
theorem step45 (c : Dev nD) {b : Ref sig .tc} (h1 : b ≠ main_v16_0) (h2 : b ≠ main_v16_1) : W5 m c (Proc.devRef .tc b) = W4 m c (Proc.devRef .tc b) :=
  W5_keep m c b h1 h2
theorem step56 (c : Dev nD) {b : Ref sig .tc} (h : b ∉ hostOps3_W) : W6 m c (Proc.devRef .tc b) = W5 m c (Proc.devRef .tc b) :=
  StableHlo.after_of_writes_sub hostOps3 _ hostOps3_writes h
theorem step67 (c : Dev nD) {b : Ref sig .tc} (h1 : b ≠ main_v45) : W7 m c (Proc.devRef .tc b) = W6 m c (Proc.devRef .tc b) :=
  W7_keep m c b h1
theorem step78 (c : Dev nD) {b : Ref sig .tc} (h : b ∉ hostOps4_W) : W8 m c (Proc.devRef .tc b) = W7 m c (Proc.devRef .tc b) :=
  StableHlo.after_of_writes_sub hostOps4 _ hostOps4_writes h
theorem step89 (c : Dev nD) {b : Ref sig .tc} (h : b ∉ hostOps4_1_W) : W9 m c (Proc.devRef .tc b) = W8 m c (Proc.devRef .tc b) :=
  StableHlo.after_of_writes_sub hostOps4_1 _ hostOps4_1_writes h

variable {m}

theorem ReadOnly.at1 {b : Ref sig .tc} (h : ReadOnly b) (c : Dev nD) : W1 m c (Proc.devRef .tc b) = m ((c : Dev nD), Proc.devRef .tc b) :=
  step01 m c h.h0
theorem ReadOnly.at2 {b : Ref sig .tc} (h : ReadOnly b) (c : Dev nD) : W2 m c (Proc.devRef .tc b) = m ((c : Dev nD), Proc.devRef .tc b) :=
  (step12 m c h.r0a h.r0b).trans (h.at1 c)
theorem ReadOnly.at3 {b : Ref sig .tc} (h : ReadOnly b) (c : Dev nD) : W3 m c (Proc.devRef .tc b) = m ((c : Dev nD), Proc.devRef .tc b) :=
  (step23 m c h.h1).trans (h.at2 c)
theorem ReadOnly.at4 {b : Ref sig .tc} (h : ReadOnly b) (c : Dev nD) : W4 m c (Proc.devRef .tc b) = m ((c : Dev nD), Proc.devRef .tc b) :=
  (step34 m c h.r1).trans (h.at3 c)
theorem ReadOnly.at5 {b : Ref sig .tc} (h : ReadOnly b) (c : Dev nD) : W5 m c (Proc.devRef .tc b) = m ((c : Dev nD), Proc.devRef .tc b) :=
  (step45 m c h.r2a h.r2b).trans (h.at4 c)
theorem ReadOnly.at6 {b : Ref sig .tc} (h : ReadOnly b) (c : Dev nD) : W6 m c (Proc.devRef .tc b) = m ((c : Dev nD), Proc.devRef .tc b) :=
  (step56 m c h.h3).trans (h.at5 c)
theorem ReadOnly.at7 {b : Ref sig .tc} (h : ReadOnly b) (c : Dev nD) : W7 m c (Proc.devRef .tc b) = m ((c : Dev nD), Proc.devRef .tc b) :=
  (step67 m c h.r3).trans (h.at6 c)
theorem ReadOnly.at8 {b : Ref sig .tc} (h : ReadOnly b) (c : Dev nD) : W8 m c (Proc.devRef .tc b) = m ((c : Dev nD), Proc.devRef .tc b) :=
  (step78 m c h.h4).trans (h.at7 c)
theorem ReadOnly.at9 {b : Ref sig .tc} (h : ReadOnly b) (c : Dev nD) : W9 m c (Proc.devRef .tc b) = m ((c : Dev nD), Proc.devRef .tc b) :=
  (step89 m c h.h41).trans (h.at8 c)

theorem ro_arg0 : ReadOnly main_arg0 := ⟨by decide, by decide, by decide, by decide, by decide, by decide, by decide, by decide, by decide, by decide, by decide⟩
theorem ro_arg1 : ReadOnly main_arg1 := ⟨by decide, by decide, by decide, by decide, by decide, by decide, by decide, by decide, by decide, by decide, by decide⟩
theorem ro_arg2 : ReadOnly main_arg2 := ⟨by decide, by decide, by decide, by decide, by decide, by decide, by decide, by decide, by decide, by decide, by decide⟩
theorem ro_arg3 : ReadOnly main_arg3 := ⟨by decide, by decide, by decide, by decide, by decide, by decide, by decide, by decide, by decide, by decide, by decide⟩
theorem ro_arg4 : ReadOnly main_arg4 := ⟨by decide, by decide, by decide, by decide, by decide, by decide, by decide, by decide, by decide, by decide, by decide⟩
theorem ro_arg5 : ReadOnly main_arg5 := ⟨by decide, by decide, by decide, by decide, by decide, by decide, by decide, by decide, by decide, by decide, by decide⟩
theorem ro_arg6 : ReadOnly main_arg6 := ⟨by decide, by decide, by decide, by decide, by decide, by decide, by decide, by decide, by decide, by decide, by decide⟩
theorem ro_arg7 : ReadOnly main_arg7 := ⟨by decide, by decide, by decide, by decide, by decide, by decide, by decide, by decide, by decide, by decide, by decide⟩
theorem ro_arg8 : ReadOnly main_arg8 := ⟨by decide, by decide, by decide, by decide, by decide, by decide, by decide, by decide, by decide, by decide, by decide⟩
theorem ro_arg9 : ReadOnly main_arg9 := ⟨by decide, by decide, by decide, by decide, by decide, by decide, by decide, by decide, by decide, by decide, by decide⟩
theorem ro_arg10 : ReadOnly main_arg10 := ⟨by decide, by decide, by decide, by decide, by decide, by decide, by decide, by decide, by decide, by decide, by decide⟩
theorem ro_arg11 : ReadOnly main_arg11 := ⟨by decide, by decide, by decide, by decide, by decide, by decide, by decide, by decide, by decide, by decide, by decide⟩
theorem ro_arg12 : ReadOnly main_arg12 := ⟨by decide, by decide, by decide, by decide, by decide, by decide, by decide, by decide, by decide, by decide, by decide⟩
theorem ro_arg13 : ReadOnly main_arg13 := ⟨by decide, by decide, by decide, by decide, by decide, by decide, by decide, by decide, by decide, by decide, by decide⟩

end Cert.KernelIdeal.Hand

end
-- ==== Proof.KI.Val0.lean ====
/-
  What the attention step leaves in its two result arrays, at the ideal instance: if on entry the region finds the
  gathered embedding row, the hidden row, the attention weight, the attention bias as a (1, 40) row and the encoder
  outputs, then the (1, 40) result is the reference's softmax stage and the (1, 1024) result the reference's weighted
  sum of the encoder outputs, entry by entry.

  The step has one grid point and every block is the whole array, so each result array ends holding the body's
  payload of the five arrays. The payload and the reference's stage are the same three maps composed: the 40 logits
  [embedded, hidden] · W_attnᵀ + b_attn, the softmax of a row of 40, and the row times the encoder outputs. Each map is
  written once the kernel's way and once the reference's way and the two are proved equal as functions: a product
  into a zero accumulator and the host's product are the same sum over the contraction index; a maximum over the 40
  lanes is, on both sides, the fold of max from −∞ over the lane coordinate; a lane sum is, on both sides, the sum
  over the lane coordinate; a one-entry vector spread over the row is constant, however the spreading is spelt;
  narrowing to a shorter float format changes nothing at the ideal values.
-/
import proofs.«413161_j58153857188588_3_alg».proof.Proof.KI.Reg0
import proofs.«413161_j58153857188588_3_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## A one-entry vector spread over the row -/

/-- The one index of a one-entry vector. -/
theorem idx_S1 (k : S1.Idx) : k = ix1 (0 : Fin 1) := by
  funext a
  match a with
  | ⟨0, _⟩ => exact Fin.ext (by have h : (k 0).val < 1 := (k 0).isLt; show (k 0).val = 0; omega)

/-- A one-entry vector spread over the row (kernel's way): every entry is the one entry. -/
theorem spread_k {α : Type} (u : S1.Idx → α) :
    broadcastTo S1x40 (shapeCast S1x1 u shapeCasts_S1_S1x1) broadcasts_S1x1_S1x40 = fun _ => u (ix1 (0 : Fin 1)) := by
  funext i
  unfold broadcastTo shapeCast
  exact congrArg u (idx_S1 _)

/-- The same spread the reference's way. -/
theorem spread_r {α : Type} (u : Cert.ReferenceIdeal.S1.Idx → α) :
    broadcastInDim Cert.ReferenceIdeal.S1x40 ![0, 1] Cert.ReferenceIdeal.Gen.bcast_S1x1_S1x40_0_1
      (broadcastInDim Cert.ReferenceIdeal.S1x1 ![0] Cert.ReferenceIdeal.Gen.bcast_S1_S1x1_0 u) = fun _ => u (ix1 (0 : Fin 1)) := by
  funext i
  unfold broadcastInDim
  exact congrArg u (idx_S1 _)

/-! ## The softmax of a row of 40, the kernel's way and the reference's way -/

/-- the row's maximum, the kernel's way: the lane maximum from −∞, then once more against −∞ -/
def kmax (y : FVec Ideal S1x40 .f32) : FVec Ideal S1 .f32 :=
  maximumf (broadcast S1 (Scalar.ofBits .f32 0xFF800000#32)) (multiReduction .maximumf [1] S1 y 0xFF800000#32 reduces_S1x40_S1 (.inl rfl) rfl)

/-- the row's maximum, the reference's way -/
def rmax (y : FVec Ideal S1x40 .f32) : FVec Ideal S1 .f32 :=
  maximumf (broadcastInDim Cert.ReferenceIdeal.S1 ![] Cert.ReferenceIdeal.Gen.bcast_S_S1 (constant (F := Ideal) Cert.ReferenceIdeal.S_ .f32 0xFF800000#32))
    (Host.reduce FloatOps.maximumf y (constant (F := Ideal) Cert.ReferenceIdeal.S_ .f32 0xFF800000#32) Cert.ReferenceIdeal.Gen.reducesTo_S1x40_S1_d1 Cert.ReferenceIdeal.Gen.h_S_)

theorem kmax_eq_rmax (y : FVec Ideal S1x40 .f32) : kmax y = rmax y := by
  funext k
  unfold kmax rmax
  show (max _ _ : EReal) = max _ _
  refine congr (congrArg max ?_) ?_
  · rfl
  · refine (Ideal.multiReduction_maximumf_single y 0xFF800000#32 reduces_S1x40_S1 (.inl rfl) rfl k).trans ?_
    refine Eq.symm ((Host.reduce_eq_fold_single FloatOps.maximumf y _ Cert.ReferenceIdeal.Gen.reducesTo_S1x40_S1_d1 reduces_S1x40_S1 Cert.ReferenceIdeal.Gen.h_S_ k).trans ?_)
    rfl

/-- the exponentials of the row shifted by its maximum, the kernel's way -/
def kexp (y : FVec Ideal S1x40 .f32) : FVec Ideal S1x40 .f32 :=
  exp (subf y (broadcastTo S1x40 (shapeCast S1x1 (kmax y) shapeCasts_S1_S1x1) broadcasts_S1x1_S1x40))

/-- the same, the reference's way -/
def rexp (y : FVec Ideal S1x40 .f32) : FVec Ideal S1x40 .f32 :=
  Host.exp (subf y (broadcastInDim Cert.ReferenceIdeal.S1x40 ![0, 1] Cert.ReferenceIdeal.Gen.bcast_S1x1_S1x40_0_1
      (broadcastInDim Cert.ReferenceIdeal.S1x1 ![0] Cert.ReferenceIdeal.Gen.bcast_S1_S1x1_0 (rmax y))))

theorem kexp_eq_rexp (y : FVec Ideal S1x40 .f32) : kexp y = rexp y := by
  unfold kexp rexp
  rw [spread_k, spread_r, kmax_eq_rmax]
  rfl

/-- the sum of a row, the kernel's way -/
def ksum (e : FVec Ideal S1x40 .f32) : FVec Ideal S1 .f32 :=
  multiReduction .add [1] S1 e 0x00000000#32 reduces_S1x40_S1 (.inl rfl) rfl

/-- the sum of a row, the reference's way: from the initial value 0 -/
def rsum (e : FVec Ideal S1x40 .f32) : FVec Ideal S1 .f32 :=
  Host.reduceAdd e (constant (F := Ideal) Cert.ReferenceIdeal.S_ .f32 0x00000000#32) Cert.ReferenceIdeal.Gen.reducesTo_S1x40_S1_d1 Cert.ReferenceIdeal.Gen.h_S_

theorem ksum_eq_rsum (e : FVec Ideal S1x40 .f32) : ksum e = rsum e := by
  funext k
  unfold ksum rsum
  refine (Ideal.multiReduction_add_single e 0x00000000#32 reduces_S1x40_S1 (.inl rfl) rfl k).trans ?_
  refine Eq.symm ((Ideal.hostReduceAdd_single Cert.ReferenceIdeal.Gen.reducesTo_S1x40_S1_d1 reduces_S1x40_S1 e _ k).trans ?_)
  show Ideal.ofBits .f32 0x00000000#32 + _ = _
  rw [Ideal.ofBits_zero_f32, zero_add]

/-- the softmax of a row, the kernel's way -/
def ksoftmax (y : FVec Ideal S1x40 .f32) : FVec Ideal S1x40 .f32 :=
  divf (kexp y) (broadcastTo S1x40 (shapeCast S1x1 (ksum (kexp y)) shapeCasts_S1_S1x1) broadcasts_S1x1_S1x40)

/-- the softmax of a row, the reference's way -/
def rsoftmax (y : FVec Ideal S1x40 .f32) : FVec Ideal S1x40 .f32 :=
  Host.divf (rexp y) (broadcastInDim Cert.ReferenceIdeal.S1x40 ![0, 1] Cert.ReferenceIdeal.Gen.bcast_S1x1_S1x40_0_1
      (broadcastInDim Cert.ReferenceIdeal.S1x1 ![0] Cert.ReferenceIdeal.Gen.bcast_S1_S1x1_0 (rsum (rexp y))))

theorem ksoftmax_eq_rsoftmax (y : FVec Ideal S1x40 .f32) : ksoftmax y = rsoftmax y := by
  unfold ksoftmax rsoftmax
  rw [spread_k, spread_r, kexp_eq_rexp, ksum_eq_rsum]
  rfl

/-! ## The 40 logits -/

/-- the logits, the kernel's way: the two rows joined, times the transposed weight into a zero accumulator, plus the bias row -/
def klogits (v0 v2 : Vec Ideal S1x1024 .f32) (v6 : Vec Ideal S40x2048 .f32) (v10 : Vec Ideal S1x40 .f32) : FVec Ideal S1x40 .f32 :=
  addf (matmul dot_S1x2048_S2048x40_S1x40_1_0_0_1_n_n none
      (truncf .bf16 (concatenate S1x2048 1 [⟨S1x1024, shapeCast S1x1024 v0 shapeCasts_S1x1024_S1x1024⟩, ⟨S1x1024, shapeCast S1x1024 v2 shapeCasts_S1x1024_S1x1024⟩] concatenates_S1x1024_S1x1024_S1x2048_d1) bitsLt_bf16_f32)
      (transpose S2048x40 [1, 0] (truncf .bf16 v6 bitsLt_bf16_f32) transposes_S40x2048_p1_0_S2048x40)
      (constant S1x40 .f32 0x00000000#32))
    (shapeCast S1x40 v10 shapeCasts_S1x40_S1x40)

/-- The first payload is the softmax of the logits. -/
theorem k0_pay1_eq (v0 v2 : Vec Ideal S1x1024 .f32) (v6 : Vec Ideal S40x2048 .f32) (v10 : Vec Ideal S1x40 .f32) :
    k0_pay1 v0 v2 v6 v10 = ksoftmax (klogits v0 v2 v6 v10) := rfl

/-- the logits, the reference's way: the host's product of the joined rows and the transposed weight, plus the bias spread to a row -/
def rlogits (a b : FVec Ideal S1x1024 .f32) (x4 : FVec Ideal S40x2048 .f32) (x5 : FVec Ideal Cert.ReferenceIdeal.S40 .f32) : FVec Ideal S1x40 .f32 :=
  addf (Host.dotGeneral (φ₁ := .f32) (φ₂ := .f32) Cert.ReferenceIdeal.dot_S1x2048_S2048x40_S1x40_1_0_0_1_n_n none
      (concatenate S1x2048 1 [⟨S1x1024, a⟩, ⟨S1x1024, b⟩] Cert.ReferenceIdeal.Gen.concatenates_S1x1024_S1x1024_S1x2048_d1)
      (transpose S2048x40 [1, 0] x4 Cert.ReferenceIdeal.Gen.transposes_S40x2048_S2048x40_1_0))
    (broadcastInDim S1x40 ![1] Cert.ReferenceIdeal.Gen.bcast_S40_S1x40_1 x5)

/-- The two agree when the bias row holds the bias entry by entry: the two products are one sum over the contraction index. -/
theorem klogits_eq_rlogits (a b : FVec Ideal S1x1024 .f32) (x4 : FVec Ideal S40x2048 .f32) (v10 : FVec Ideal S1x40 .f32) (x5 : FVec Ideal Cert.ReferenceIdeal.S40 .f32)
    (h8 : ∀ j : Fin 40, v10 (ix2 0 j) = x5 (ix1 j)) : klogits a b x4 v10 = rlogits a b x4 x5 := by
  funext i
  obtain ⟨p, j, rfl⟩ : ∃ (p : Fin 1) (j : Fin 40), i = ix2 p j := ⟨i 0, i 1, eq_ix2 i⟩
  obtain rfl : p = 0 := Subsingleton.elim _ _
  unfold klogits rlogits
  rw [shapeCast_self, shapeCast_self, shapeCast_self]
  show (_ + _ : EReal) = _ + _
  refine congr (congrArg _ ?_) ?_
  · refine (Ideal.matmul_constant_zero_apply _ none _ _ _).trans ?_
    refine Eq.symm ((Ideal.dotGeneral_apply _ none .single _ _ _).trans ?_)
    rfl
  · rw [h8]
    refine Eq.symm (broadcastInDim_apply _ Cert.ReferenceIdeal.Gen.bcast_S40_S1x40_1 x5 _ (ix1 j) (fun a => match a with
      | ⟨0, _⟩ => by show j.val = if (40 : Nat) = 1 then 0 else j.val; rw [if_neg (by decide)]))

/-! ## The row times the encoder outputs -/

/-- the weighted sum of the encoder rows, the kernel's way -/
def kapplied (w : FVec Ideal S1x40 .f32) (v25 : FVec Ideal S40x1024 .f32) : FVec Ideal S1x1024 .f32 :=
  matmul dot_S1x40_S40x1024_S1x1024_1_0_0_1_n_n none (truncf .bf16 w bitsLt_bf16_f32) (truncf .bf16 v25 bitsLt_bf16_f32) (constant S1x1024 .f32 0x00000000#32)

/-- the same, the reference's way -/
def rapplied (w : FVec Ideal S1x40 .f32) (x2 : FVec Ideal S40x1024 .f32) : FVec Ideal S1x1024 .f32 :=
  Host.dotGeneral (φ₁ := .f32) (φ₂ := .f32) Cert.ReferenceIdeal.dot_S1x40_S40x1024_S1x1024_1_0_0_1_n_n none w x2

/-- The second payload is the weighted sum under the first. -/
theorem k0_pay2_eq (v0 v2 : Vec Ideal S1x1024 .f32) (v6 : Vec Ideal S40x2048 .f32) (v10 : Vec Ideal S1x40 .f32) (v25 : Vec Ideal S40x1024 .f32) :
    k0_pay2 v0 v2 v6 v10 v25 = kapplied (k0_pay1 v0 v2 v6 v10) v25 := rfl

theorem kapplied_eq_rapplied (w : FVec Ideal S1x40 .f32) (x2 : FVec Ideal S40x1024 .f32) : kapplied w x2 = rapplied w x2 := by
  funext i
  unfold kapplied rapplied
  refine (Ideal.matmul_constant_zero_apply _ none _ _ _).trans ?_
  refine Eq.symm ((Ideal.dotGeneral_apply _ none .single _ _ _).trans ?_)
  rfl

-- the buffer contents on every core when the region is entered, at the ideal instance
variable (V : (c : Dev nD) → (b : Ref sig .tc) → Buf (Elt Ideal) ((c : Thread nD τ).loc b))

-- the reference's arguments, as its stage functions take them
variable (x0 : (⟨S1, .i32⟩ : BufTy).Contents (Elt Ideal)) (x1 : (⟨S1x1x1024, .f32⟩ : BufTy).Contents (Elt Ideal))
  (x2 : (⟨S40x1024, .f32⟩ : BufTy).Contents (Elt Ideal)) (x3 : (⟨S50257x1024, .f32⟩ : BufTy).Contents (Elt Ideal))
  (x4 : (⟨S40x2048, .f32⟩ : BufTy).Contents (Elt Ideal)) (x5 : (⟨S40, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

/-! ## From the blocks to the arrays: one point, every block the whole array -/

theorem zero_offsets : (![0, 0] : Fin 2 → Nat) = fun _ => 0 := funext fun a => match a with | ⟨0, _⟩ => rfl | ⟨1, _⟩ => rfl

/-- Every window of the attention step sits at block (0, 0) at every point. -/
theorem index_zero0 : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Each input block is the whole array the region finds. -/
theorem iblk0_0_eq (c : Dev nD) (t : Fin cfg0.N) : iblk0 V c 0 t = V c main_v6 := by
  obtain ⟨⟨e0, e1⟩, -⟩ := index_zero0 t
  funext y
  unfold iblk0
  rw [View.read_apply]
  show V c main_v6 (((cfg0.win 0).blk t).view.emb y) = V c main_v6 y
  refine congrArg (V c main_v6) (funext fun a => Fin.ext ?_)
  match a with
  | ⟨0, _⟩ => show win0_0.index t (0 : Fin 2) * 1 + 1 * (y 0).val = (y 0).val; rw [e0]; omega
  | ⟨1, _⟩ => show win0_0.index t (1 : Fin 2) * 1024 + 1 * (y 1).val = (y 1).val; rw [e1]; omega

theorem iblk0_1_eq (c : Dev nD) (t : Fin cfg0.N) : iblk0 V c 1 t = V c main_v7 := by
  obtain ⟨-, ⟨e0, e1⟩, -⟩ := index_zero0 t
  funext y
  unfold iblk0
  rw [View.read_apply]
  show V c main_v7 (((cfg0.win 1).blk t).view.emb y) = V c main_v7 y
  refine congrArg (V c main_v7) (funext fun a => Fin.ext ?_)
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega

theorem iblk0_2_eq (c : Dev nD) (t : Fin cfg0.N) : iblk0 V c 2 t = V c main_arg4 := by
  obtain ⟨-, -, ⟨e0, e1⟩, -⟩ := index_zero0 t
  funext y
  unfold iblk0
  rw [View.read_apply]
  show V c main_arg4 (((cfg0.win 2).blk t).view.emb y) = V c main_arg4 y
  refine congrArg (V c main_arg4) (funext fun a => Fin.ext ?_)
  match a with
  | ⟨0, _⟩ => show win0_2.index t (0 : Fin 2) * 40 + 1 * (y 0).val = (y 0).val; rw [e0]; omega
  | ⟨1, _⟩ => show win0_2.index t (1 : Fin 2) * 2048 + 1 * (y 1).val = (y 1).val; rw [e1]; omega

theorem iblk0_3_eq (c : Dev nD) (t : Fin cfg0.N) : iblk0 V c 3 t = V c main_v8 := by
  obtain ⟨-, -, -, ⟨e0, e1⟩, -⟩ := index_zero0 t
  funext y
  unfold iblk0
  rw [View.read_apply]
  show V c main_v8 (((cfg0.win 3).blk t).view.emb y) = V c main_v8 y
  refine congrArg (V c main_v8) (funext fun a => Fin.ext ?_)
  match a with
  | ⟨0, _⟩ => show win0_3.index t (0 : Fin 2) * 1 + 1 * (y 0).val = (y 0).val; rw [e0]; omega
  | ⟨1, _⟩ => show win0_3.index t (1 : Fin 2) * 40 + 1 * (y 1).val = (y 1).val; rw [e1]; omega

theorem iblk0_4_eq (c : Dev nD) (t : Fin cfg0.N) : iblk0 V c 4 t = V c main_arg2 := by
  obtain ⟨-, -, -, -, ⟨e0, e1⟩, -⟩ := index_zero0 t
  funext y
  unfold iblk0
  rw [View.read_apply]
  show V c main_arg2 (((cfg0.win 4).blk t).view.emb y) = V c main_arg2 y
  refine congrArg (V c main_arg2) (funext fun a => Fin.ext ?_)
  match a with
  | ⟨0, _⟩ => show win0_4.index t (0 : Fin 2) * 40 + 1 * (y 0).val = (y 0).val; rw [e0]; omega
  | ⟨1, _⟩ => show win0_4.index t (1 : Fin 2) * 1024 + 1 * (y 1).val = (y 1).val; rw [e1]; omega

/-- What a point writes back into the (1, 40) result: the whole-array block of the softmax payload of the five arrays. -/
theorem flushed0_6_eq (c : Dev nD) (t : Fin cfg0.N) :
    (dat0 V c).flushed 6 t = ((cfg0.win 6).blk t).view.read (Elt Ideal)
      (k0_pay1 (V c main_v6) (V c main_v7) (V c main_arg4) (V c main_v8)) := by
  show (cfg0.win 6).cut (grid0.coords t) ((dat0 V c).after 6 t) = _
  rw [after0_6]
  unfold out0_6
  rw [View.canon_unit_zero zero_offsets]
  simp only [View.ld_unit_zero (S := S1x1024) zero_offsets, View.ld_unit_zero (S := S40x2048) zero_offsets, View.ld_unit_zero (S := S1x40) zero_offsets]
  rw [iblk0_0_eq, iblk0_1_eq, iblk0_2_eq, iblk0_3_eq]
  generalize k0_pay1 (V c main_v6) (V c main_v7) (V c main_arg4) (V c main_v8) = P
  obtain ⟨-, -, -, -, -, -, ⟨e0, e1⟩⟩ := index_zero0 t
  funext y
  show P y = P (((cfg0.win 6).blk t).view.emb y)
  refine congrArg P (funext fun a => Fin.ext ?_)
  match a with
  | ⟨0, _⟩ => show (y 0).val = win0_6.index t (0 : Fin 2) * 1 + 1 * (y 0).val; rw [e0]; omega
  | ⟨1, _⟩ => show (y 1).val = win0_6.index t (1 : Fin 2) * 40 + 1 * (y 1).val; rw [e1]; omega

/-- Every entry of the (1, 40) result lies in the one point's block. -/
theorem covered0_6 (i : S1x40.Idx) : ∃ t : Fin cfg0.N, (cfg0.win 6).flush t = true ∧ i ∈ ((cfg0.win 6).blk t).view.set := by
  refine ⟨t0_0, flush0_6 t0_0, ?_⟩
  obtain ⟨-, -, -, -, -, -, ⟨e0, e1⟩⟩ := index_zero0 t0_0
  show i ∈ ((View.whole main_v13_1).slice (win0_6.rect t0_0)).set
  rw [View.set_slice_whole, Rect.mem_set_unit]
  intro a
  have h0 : (i 0).val < 1 := (i 0).isLt
  have h1 : (i 1).val < 40 := (i 1).isLt
  match a with
  | ⟨0, _⟩ => show win0_6.index t0_0 (0 : Fin 2) * 1 ≤ (i 0).val ∧ (i 0).val < win0_6.index t0_0 (0 : Fin 2) * 1 + 1; rw [e0]; omega
  | ⟨1, _⟩ => show win0_6.index t0_0 (1 : Fin 2) * 40 ≤ (i 1).val ∧ (i 1).val < win0_6.index t0_0 (1 : Fin 2) * 40 + 40; rw [e1]; omega

/-- The (1, 40) result array after the step: the softmax payload of the arrays the region finds. -/
theorem arr0_6_eq (c : Dev nD) :
    (dat0 V c).arrAt 6 cfg0.N = k0_pay1 (V c main_v6) (V c main_v7) (V c main_arg4) (V c main_v8) :=
  (dat0 V c).arrAt_eq_of_cover 6 _ (fun t _ => flushed0_6_eq V c t) covered0_6

/-- What a point writes back into the (1, 1024) result. -/
theorem flushed0_5_eq (c : Dev nD) (t : Fin cfg0.N) :
    (dat0 V c).flushed 5 t = ((cfg0.win 5).blk t).view.read (Elt Ideal)
      (k0_pay2 (V c main_v6) (V c main_v7) (V c main_arg4) (V c main_v8) (V c main_arg2)) := by
  show (cfg0.win 5).cut (grid0.coords t) ((dat0 V c).after 5 t) = _
  rw [after0_5]
  unfold out0_5
  rw [View.canon_unit_zero zero_offsets]
  simp only [View.ld_unit_zero (S := S1x1024) zero_offsets, View.ld_unit_zero (S := S40x2048) zero_offsets, View.ld_unit_zero (S := S1x40) zero_offsets, View.ld_unit_zero (S := S40x1024) zero_offsets]
  rw [iblk0_0_eq, iblk0_1_eq, iblk0_2_eq, iblk0_3_eq, iblk0_4_eq]
  generalize k0_pay2 (V c main_v6) (V c main_v7) (V c main_arg4) (V c main_v8) (V c main_arg2) = P
  obtain ⟨-, -, -, -, -, ⟨e0, e1⟩, -⟩ := index_zero0 t
  funext y
  show P y = P (((cfg0.win 5).blk t).view.emb y)
  refine congrArg P (funext fun a => Fin.ext ?_)
  match a with
  | ⟨0, _⟩ => show (y 0).val = win0_5.index t (0 : Fin 2) * 1 + 1 * (y 0).val; rw [e0]; omega
  | ⟨1, _⟩ => show (y 1).val = win0_5.index t (1 : Fin 2) * 1024 + 1 * (y 1).val; rw [e1]; omega

theorem covered0_5 (i : S1x1024.Idx) : ∃ t : Fin cfg0.N, (cfg0.win 5).flush t = true ∧ i ∈ ((cfg0.win 5).blk t).view.set := by
  refine ⟨t0_0, flush0_5 t0_0, ?_⟩
  obtain ⟨-, -, -, -, -, ⟨e0, e1⟩, -⟩ := index_zero0 t0_0
  show i ∈ ((View.whole main_v13_0).slice (win0_5.rect t0_0)).set
  rw [View.set_slice_whole, Rect.mem_set_unit]
  intro a
  have h0 : (i 0).val < 1 := (i 0).isLt
  have h1 : (i 1).val < 1024 := (i 1).isLt
  match a with
  | ⟨0, _⟩ => show win0_5.index t0_0 (0 : Fin 2) * 1 ≤ (i 0).val ∧ (i 0).val < win0_5.index t0_0 (0 : Fin 2) * 1 + 1; rw [e0]; omega
  | ⟨1, _⟩ => show win0_5.index t0_0 (1 : Fin 2) * 1024 ≤ (i 1).val ∧ (i 1).val < win0_5.index t0_0 (1 : Fin 2) * 1024 + 1024; rw [e1]; omega

theorem arr0_5_eq (c : Dev nD) :
    (dat0 V c).arrAt 5 cfg0.N = k0_pay2 (V c main_v6) (V c main_v7) (V c main_arg4) (V c main_v8) (V c main_arg2) :=
  (dat0 V c).arrAt_eq_of_cover 5 _ (fun t _ => flushed0_5_eq V c t) covered0_5

/-! ## The reference's stages are the same maps of its arguments -/

/-- The reference's softmax stage: its softmax of its logits of the gathered row, the hidden row, the weight and the bias. -/
theorem ref_weights : Cert.ReferenceIdeal.Read.val_main_v23 x0 x1 x3 x4 x5
    = rsoftmax (rlogits (Cert.ReferenceIdeal.Read.val_main_v6 x0 x3) (Cert.ReferenceIdeal.Read.val_main_v7 x1) x4 x5) := rfl

/-- The reference's weighted sum: its softmax stage times the encoder outputs. -/
theorem ref_applied : Cert.ReferenceIdeal.Read.val_main_v24 x0 x1 x2 x3 x4 x5
    = rapplied (Cert.ReferenceIdeal.Read.val_main_v23 x0 x1 x3 x4 x5) x2 := rfl

/-- The softmax payload of the reference's two rows, the weight and a bias row that holds the bias entry by entry is the
    reference's softmax stage. -/
theorem weights_value (b : FVec Ideal S1x40 .f32) (h8 : ∀ j : Fin 40, b (ix2 0 j) = x5 (ix1 j)) :
    k0_pay1 (Cert.ReferenceIdeal.Read.val_main_v6 x0 x3) (Cert.ReferenceIdeal.Read.val_main_v7 x1) x4 b
      = Cert.ReferenceIdeal.Read.val_main_v23 x0 x1 x3 x4 x5 :=
  (k0_pay1_eq _ _ _ _).trans <| (ksoftmax_eq_rsoftmax _).trans <|
    (congrArg rsoftmax (klogits_eq_rlogits _ _ _ b x5 h8)).trans (ref_weights x0 x1 x3 x4 x5).symm

/-- The second payload likewise is the reference's weighted sum. -/
theorem applied_value (b : FVec Ideal S1x40 .f32) (h8 : ∀ j : Fin 40, b (ix2 0 j) = x5 (ix1 j)) :
    k0_pay2 (Cert.ReferenceIdeal.Read.val_main_v6 x0 x3) (Cert.ReferenceIdeal.Read.val_main_v7 x1) x4 b x2
      = Cert.ReferenceIdeal.Read.val_main_v24 x0 x1 x2 x3 x4 x5 :=
  (k0_pay2_eq _ _ _ _ _).trans <| (kapplied_eq_rapplied _ _).trans <|
    (congrArg (rapplied · x2) (weights_value x0 x1 x3 x4 x5 b h8)).trans (ref_applied x0 x1 x2 x3 x4 x5).symm

/-! ## The two result arrays -/

/-- The (1, 40) result: the softmax of [embedded, hidden] · W_attnᵀ + b_attn, the reference's stage `val_main_v23`. -/
theorem val0_weights (c : Dev nD)
    (h6 : V c main_v6 = Cert.ReferenceIdeal.Read.val_main_v6 x0 x3) (h7 : V c main_v7 = Cert.ReferenceIdeal.Read.val_main_v7 x1) (h4 : V c main_arg4 = x4)
    (h8 : ∀ j : Fin 40, V c main_v8 (ValueIdx.ix2 0 j) = x5 (ValueIdx.ix1 j)) :
    (dat0 V c).arrAt 6 cfg0.N = Cert.ReferenceIdeal.Read.val_main_v23 x0 x1 x3 x4 x5 := by
  rw [arr0_6_eq, h6, h7, h4]
  exact weights_value x0 x1 x3 x4 x5 (V c main_v8) h8

/-- The (1, 1024) result: the softmax row times the encoder outputs, the reference's stage `val_main_v24`. -/
theorem val0_applied (c : Dev nD)
    (h6 : V c main_v6 = Cert.ReferenceIdeal.Read.val_main_v6 x0 x3) (h7 : V c main_v7 = Cert.ReferenceIdeal.Read.val_main_v7 x1) (h4 : V c main_arg4 = x4)
    (h8 : ∀ j : Fin 40, V c main_v8 (ValueIdx.ix2 0 j) = x5 (ValueIdx.ix1 j)) (h2 : V c main_arg2 = x2) :
    (dat0 V c).arrAt 5 cfg0.N = Cert.ReferenceIdeal.Read.val_main_v24 x0 x1 x2 x3 x4 x5 := by
  rw [arr0_5_eq, h6, h7, h4, h2]
  exact applied_value x0 x1 x2 x3 x4 x5 (V c main_v8) h8

end Cert.KernelIdeal.Hand

end
-- ==== Proof.KI.Val1.lean ====
/-
  What the combine projection leaves in its result array, at the ideal instance: if on entry the region finds the
  concatenated row [embedded, applied], the combine weight and the combine bias as a (1, 1024) row, then the
  (1, 1024) result is the reference's relu stage, entry by entry: the two tiles of 512 entries together cover it.
-/
import proofs.«413161_j58153857188588_3_alg».proof.Proof.KI.Reg1
import proofs.«413161_j58153857188588_3_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

/-! ## The tile's product at an entry

Entry (p, q) of row · tileᵀ is Σ_k row(p, k) · tileᵀ(k, q): the dimension numbers contract the row's axis 1 with the
transposed tile's axis 0, and the one-axis contraction index is its coordinate. -/

/-- Both offsets of a whole-buffer access are zero. -/
theorem zero_offsets1 : (![0, 0] : Fin 2 → Nat) = fun _ => 0 := funext fun a => by
  match a with
  | ⟨0, _⟩ => rfl
  | ⟨1, _⟩ => rfl

theorem lhs_comb_0 (i : S1x512.Idx) (q : dot_S1x2048_S2048x512_S1x512_1_0_0_1_n_n.contr.Idx) :
    (dot_S1x2048_S2048x512_S1x512_1_0_0_1_n_n.lhsIdx i q 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
theorem lhs_comb_1 (i : S1x512.Idx) (q : dot_S1x2048_S2048x512_S1x512_1_0_0_1_n_n.contr.Idx) :
    (dot_S1x2048_S2048x512_S1x512_1_0_0_1_n_n.lhsIdx i q 1).val = (q ⟨0, by decide⟩).val :=
  dot_S1x2048_S2048x512_S1x512_1_0_0_1_n_n.lhsIdx_val_of_single rfl i q
theorem rhs_comb_0 (i : S1x512.Idx) (q : dot_S1x2048_S2048x512_S1x512_1_0_0_1_n_n.contr.Idx) :
    (dot_S1x2048_S2048x512_S1x512_1_0_0_1_n_n.rhsIdx i q 0).val = (q ⟨0, by decide⟩).val :=
  dot_S1x2048_S2048x512_S1x512_1_0_0_1_n_n.rhsIdx_val_of_single rfl i q
theorem rhs_comb_1 (i : S1x512.Idx) (q : dot_S1x2048_S2048x512_S1x512_1_0_0_1_n_n.contr.Idx) :
    (dot_S1x2048_S2048x512_S1x512_1_0_0_1_n_n.rhsIdx i q 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- The product into the zero accumulator, at entry (p, q). -/
theorem matmul_comb_apply (l : FVec Ideal S1x2048 .bf16) (r : FVec Ideal S2048x512 .bf16) (p : Fin 1) (q : Fin 512) :
    FloatOps.matmul dot_S1x2048_S2048x512_S1x512_1_0_0_1_n_n none l r (constant (F := Ideal) S1x512 .f32 0x00000000#32) (ValueIdx.ix2 p q)
      = ∑ k : Fin 2048, l (ValueIdx.ix2 p k) * r (ValueIdx.ix2 k q) := by
  rw [Ideal.matmul_constant_zero_apply, ← Equiv.sum_comp (ValueIdx.contrEquiv1 dot_S1x2048_S2048x512_S1x512_1_0_0_1_n_n 2048 rfl rfl).symm]
  refine Finset.sum_congr rfl fun k _ => ?_
  have hk := ValueIdx.contrEquiv1_symm_val dot_S1x2048_S2048x512_S1x512_1_0_0_1_n_n 2048 rfl rfl k
  have el : dot_S1x2048_S2048x512_S1x512_1_0_0_1_n_n.lhsIdx (ValueIdx.ix2 p q) ((ValueIdx.contrEquiv1 dot_S1x2048_S2048x512_S1x512_1_0_0_1_n_n 2048 rfl rfl).symm k) = ValueIdx.ix2 p k := funext fun a => Fin.ext (by
    match a with
    | ⟨0, _⟩ => exact lhs_comb_0 _ _
    | ⟨1, _⟩ => exact (lhs_comb_1 _ _).trans hk)
  have er : dot_S1x2048_S2048x512_S1x512_1_0_0_1_n_n.rhsIdx (ValueIdx.ix2 p q) ((ValueIdx.contrEquiv1 dot_S1x2048_S2048x512_S1x512_1_0_0_1_n_n 2048 rfl rfl).symm k) = ValueIdx.ix2 k q := funext fun a => Fin.ext (by
    match a with
    | ⟨0, _⟩ => exact (rhs_comb_0 _ _).trans hk
    | ⟨1, _⟩ => exact rhs_comb_1 _ _)
  rw [el, er]

/-! ## The body's payload at an entry -/

/-- The stored tile at entry (p, q): max(Σ_k row(p, k) · tile(q, k) + bias(p, q), 0). The narrowing to bf16 is the
    identity on ideal values, the transposed tile at (k, q) is the tile at (q, k), and the two casts keep the shape. -/
theorem pay1_apply (a : Vec Ideal S1x2048 .f32) (w : Vec Ideal S512x2048 .f32) (b : Vec Ideal S1x512 .f32)
    (p : Fin 1) (q : Fin 512) :
    k1_pay1 a w b (ValueIdx.ix2 p q)
      = max ((∑ k : Fin 2048, a (ValueIdx.ix2 p k) * w (ValueIdx.ix2 q k)) + b (ValueIdx.ix2 p q)) 0 := by
  show max (FloatOps.matmul dot_S1x2048_S2048x512_S1x512_1_0_0_1_n_n none
        (truncf (F := Ideal) .bf16 (shapeCast S1x2048 a shapeCasts_S1x2048_S1x2048) bitsLt_bf16_f32)
        (transpose S2048x512 [1, 0] (truncf (F := Ideal) .bf16 w bitsLt_bf16_f32) transposes_S512x2048_p1_0_S2048x512)
        (constant (F := Ideal) S1x512 .f32 0x00000000#32) (ValueIdx.ix2 p q)
      + shapeCast S1x512 b shapeCasts_S1x512_S1x512 (ValueIdx.ix2 p q)) (Ideal.ofBits .f32 0x00000000#32) = _
  rw [matmul_comb_apply, shapeCast_self, shapeCast_self, Ideal.ofBits_zero_f32]
  refine congrArg (fun s => max (s + b (ValueIdx.ix2 p q)) 0) (Finset.sum_congr rfl fun k _ => ?_)
  refine congrArg (fun s => a (ValueIdx.ix2 p k) * s) ?_
  exact transpose_apply [1, 0] (truncf (F := Ideal) .bf16 w bitsLt_bf16_f32) transposes_S512x2048_p1_0_S2048x512 (ValueIdx.ix2 k q) (ValueIdx.ix2 q k)
    (fun d => match d with
      | ⟨0, _⟩ => rfl
      | ⟨1, _⟩ => rfl)

-- the buffer contents on every core when the region is entered, at the ideal instance
variable (V : (c : Dev nD) → (b : Ref sig .tc) → Buf (Elt Ideal) ((c : Thread nD τ).loc b))

-- the reference's arguments, as its stage functions take them
variable (x0 : (⟨S1, .i32⟩ : BufTy).Contents (Elt Ideal)) (x1 : (⟨S1x1x1024, .f32⟩ : BufTy).Contents (Elt Ideal))
  (x2 : (⟨S40x1024, .f32⟩ : BufTy).Contents (Elt Ideal)) (x3 : (⟨S50257x1024, .f32⟩ : BufTy).Contents (Elt Ideal))
  (x4 : (⟨S40x2048, .f32⟩ : BufTy).Contents (Elt Ideal)) (x5 : (⟨S40, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

/-! ## The reference's stage at an entry -/

/-- The reference's relu stage at entry (p, j): max(Σ_k row(p, k) · W(j, k) + b(j), 0), the transposed weight at
    (k, j) being the weight at (j, k) and the broadcast bias at (p, j) the bias at j. -/
theorem ref_comb_apply (p : Fin 1) (j : Fin 1024) :
    Cert.ReferenceIdeal.Read.val_main_v30 x0 x1 x2 x3 x4 x5 x6 x7 (ValueIdx.ix2 p j)
      = max ((∑ k : Fin 2048, Cert.ReferenceIdeal.Read.val_main_v25 x0 x1 x2 x3 x4 x5 (ValueIdx.ix2 p k) * x6 (ValueIdx.ix2 j k))
          + x7 (ValueIdx.ix1 j)) 0 := by
  rw [Cert.ReferenceIdeal.Read.val_main_v30_apply, Cert.ReferenceIdeal.Read.val_main_v29_apply, Cert.ReferenceIdeal.Read.val_main_v27_apply, Cert.ReferenceIdeal.Read.val_main_v28_apply,
    Cert.ReferenceIdeal.Read.val_main_call0_v0_apply, Cert.ReferenceIdeal.Read.val_main_call0_cst_apply]
  simp only [Cert.ReferenceIdeal.Read.val_main_v26_apply]
  have e1 : ∀ k : Fin 2048, Cert.ReferenceIdeal.Read.lidx_main_v27 (ValueIdx.ix2 p j) k = ValueIdx.ix2 p k := fun k =>
    funext fun a => Fin.ext (by
      match a with
      | ⟨0, _⟩ => rfl
      | ⟨1, _⟩ => rfl)
  have e2 : ∀ k : Fin 2048, Cert.ReferenceIdeal.Read.idx_main_v26 (Cert.ReferenceIdeal.Read.ridx_main_v27 (ValueIdx.ix2 p j) k) = ValueIdx.ix2 j k := fun k =>
    funext fun a => Fin.ext (by
      match a with
      | ⟨0, _⟩ => rfl
      | ⟨1, _⟩ => rfl)
  have e3 : Cert.ReferenceIdeal.Read.idx_main_v28 (ValueIdx.ix2 p j) = ValueIdx.ix1 j :=
    funext fun a => Fin.ext (by
      match a with
      | ⟨0, _⟩ => rfl)
  simp only [e1, e2, e3]
  show max ((∑ k : Fin 2048, Cert.ReferenceIdeal.Read.val_main_v25 x0 x1 x2 x3 x4 x5 (ValueIdx.ix2 p k) * x6 (ValueIdx.ix2 j k))
      + x7 (ValueIdx.ix1 j)) (Ideal.ofBits .f32 0x00000000#32) = _
  rw [Ideal.ofBits_zero_f32]

/-! ## From the tiles to the array -/

/-- The printed index maps over the two grid points: the input row's block never moves; the weight's block index is
    the point on axis 0; the bias's and the output's is the point on axis 1. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- What point `t` writes back is tile `t` of the reference's stage: entry (p, q) of the tile is entry
    (p, 512·t + q) of the array, the weight tile's row q is the weight's row 512·t + q, the bias tile's entry q the
    bias's entry 512·t + q, and the input row is read whole. -/
theorem flushed1_eq (c : Dev nD)
    (h14 : V c main_v14 = Cert.ReferenceIdeal.Read.val_main_v25 x0 x1 x2 x3 x4 x5) (h6 : V c main_arg6 = x6)
    (h9 : ∀ j : Fin 1024, V c main_v9 (ValueIdx.ix2 0 j) = x7 (ValueIdx.ix1 j)) (t : Fin cfg1.N) :
    (dat1 V c).flushed 3 t = ((cfg1.win 3).blk t).view.read (Elt Ideal) (Cert.ReferenceIdeal.Read.val_main_v30 x0 x1 x2 x3 x4 x5 x6 x7) := by
  show (cfg1.win 3).cut (grid1.coords t) ((dat1 V c).after 3 t) = _
  rw [after1_3]
  unfold out1_3
  rw [View.canon_unit_zero zero_offsets1]
  simp only [View.ld_unit_zero (S := S1x2048) zero_offsets1, View.ld_unit_zero (S := S512x2048) zero_offsets1,
    View.ld_unit_zero (S := S1x512) zero_offsets1]
  obtain ⟨e00, e01, e10, e11, e20, e21, e30, e31⟩ := idx_facts1 t
  have ht : t.val < 2 := lt_of_lt_of_eq t.isLt N_1
  funext y
  obtain ⟨p, q, rfl⟩ : ∃ (p : Fin 1) (q : Fin 512), y = ValueIdx.ix2 p q := ⟨y 0, y 1, ValueIdx.eq_ix2 y⟩
  refine (pay1_apply (iblk1 V c 0 t) (iblk1 V c 1 t) (iblk1 V c 2 t) p q).trans ?_
  have hp : p.val = 0 := by omega
  have hq : q.val < 512 := q.isLt
  have hj : t.val * 512 + q.val < 1024 := by omega
  -- the tile's entry in the array
  have eo : ((cfg1.win 3).blk t).view.emb (ValueIdx.ix2 p q) = ValueIdx.ix2 p ⟨t.val * 512 + q.val, hj⟩ := by
    funext a; apply Fin.ext
    match a with
    | ⟨0, _⟩ => show win1_3.index t (0 : Fin 2) * 1 + 1 * p.val = p.val; omega
    | ⟨1, _⟩ => show win1_3.index t (1 : Fin 2) * 512 + 1 * q.val = t.val * 512 + q.val; omega
  show _ = Cert.ReferenceIdeal.Read.val_main_v30 x0 x1 x2 x3 x4 x5 x6 x7 (((cfg1.win 3).blk t).view.emb (ValueIdx.ix2 p q))
  rw [eo, ref_comb_apply]
  -- the input row, read whole
  have ea : ∀ k : Fin 2048, iblk1 V c 0 t (ValueIdx.ix2 p k) = Cert.ReferenceIdeal.Read.val_main_v25 x0 x1 x2 x3 x4 x5 (ValueIdx.ix2 p k) := fun k => by
    show V c main_v14 (((cfg1.win 0).blk t).view.emb (ValueIdx.ix2 p k)) = _
    rw [h14]
    refine congrArg _ (funext fun a => Fin.ext ?_)
    match a with
    | ⟨0, _⟩ => show win1_0.index t (0 : Fin 2) * 1 + 1 * p.val = p.val; omega
    | ⟨1, _⟩ => show win1_0.index t (1 : Fin 2) * 2048 + 1 * k.val = k.val; omega
  -- the weight's tile
  have ew : ∀ k : Fin 2048, iblk1 V c 1 t (ValueIdx.ix2 q k) = x6 (ValueIdx.ix2 ⟨t.val * 512 + q.val, hj⟩ k) := fun k => by
    show V c main_arg6 (((cfg1.win 1).blk t).view.emb (ValueIdx.ix2 q k)) = _
    rw [h6]
    refine congrArg _ (funext fun a => Fin.ext ?_)
    match a with
    | ⟨0, _⟩ => show win1_1.index t (0 : Fin 2) * 512 + 1 * q.val = t.val * 512 + q.val; omega
    | ⟨1, _⟩ => show win1_1.index t (1 : Fin 2) * 2048 + 1 * k.val = k.val; omega
  -- the bias's tile
  have eb : iblk1 V c 2 t (ValueIdx.ix2 p q) = x7 (ValueIdx.ix1 ⟨t.val * 512 + q.val, hj⟩) := by
    show V c main_v9 (((cfg1.win 2).blk t).view.emb (ValueIdx.ix2 p q)) = _
    rw [← h9]
    refine congrArg _ (funext fun a => Fin.ext ?_)
    match a with
    | ⟨0, _⟩ => show win1_2.index t (0 : Fin 2) * 1 + 1 * p.val = 0; omega
    | ⟨1, _⟩ => show win1_2.index t (1 : Fin 2) * 512 + 1 * q.val = t.val * 512 + q.val; omega
  rw [eb]
  refine congrArg (fun s => max (s + x7 (ValueIdx.ix1 ⟨t.val * 512 + q.val, hj⟩)) 0) (Finset.sum_congr rfl fun k _ => ?_)
  rw [ea k, ew k]

/-- An entry of the result is in point `t`'s tile iff each coordinate is in the tile's range on its axis. -/
theorem mem_blk1 (t : Fin cfg1.N) (i : S1x1024.Idx) :
    i ∈ ((cfg1.win 3).blk t).view.set ↔ ∀ a : Fin 2, win1_3.index t a * S1x512.size a ≤ (i a).val
      ∧ (i a).val < win1_3.index t a * S1x512.size a + S1x512.size a := by
  show i ∈ ((View.whole main_v15).slice (win1_3.rect t)).set ↔ _
  rw [View.set_slice_whole, Rect.mem_set_unit]
  exact Iff.rfl

/-- The two tiles cover the result: entry (0, j) is in the tile of point j / 512. -/
theorem cover1 (i : S1x1024.Idx) :
    ∃ t : Fin cfg1.N, (cfg1.win 3).flush t = true ∧ i ∈ ((cfg1.win 3).blk t).view.set := by
  have hi0 : (i 0).val < 1 := (i 0).isLt
  have hi1 : (i 1).val < 1024 := (i 1).isLt
  have hlt : (i 1).val / 512 < 2 := by omega
  obtain ⟨-, -, -, -, -, -, e30, e31⟩ := idx_facts1 ⟨(i 1).val / 512, lt_of_lt_of_eq hlt N_1.symm⟩
  have e31' : win1_3.index ⟨(i 1).val / 512, lt_of_lt_of_eq hlt N_1.symm⟩ (1 : Fin 2) = (i 1).val / 512 := e31
  refine ⟨⟨(i 1).val / 512, lt_of_lt_of_eq hlt N_1.symm⟩, flush1_3 _, ?_⟩
  rw [mem_blk1]
  intro a
  match a with
  | ⟨0, _⟩ =>
    show win1_3.index ⟨(i 1).val / 512, lt_of_lt_of_eq hlt N_1.symm⟩ (0 : Fin 2) * 1 ≤ (i 0).val
      ∧ (i 0).val < win1_3.index ⟨(i 1).val / 512, lt_of_lt_of_eq hlt N_1.symm⟩ (0 : Fin 2) * 1 + 1
    omega
  | ⟨1, _⟩ =>
    show win1_3.index ⟨(i 1).val / 512, lt_of_lt_of_eq hlt N_1.symm⟩ (1 : Fin 2) * 512 ≤ (i 1).val
      ∧ (i 1).val < win1_3.index ⟨(i 1).val / 512, lt_of_lt_of_eq hlt N_1.symm⟩ (1 : Fin 2) * 512 + 512
    omega

/-- The result: max([embedded, applied] · W_combᵀ + b_comb, 0), the reference's stage `val_main_v30`. -/
theorem val1 (c : Dev nD)
    (h14 : V c main_v14 = Cert.ReferenceIdeal.Read.val_main_v25 x0 x1 x2 x3 x4 x5) (h6 : V c main_arg6 = x6)
    (h9 : ∀ j : Fin 1024, V c main_v9 (ValueIdx.ix2 0 j) = x7 (ValueIdx.ix1 j)) :
    (dat1 V c).arrAt 3 cfg1.N = Cert.ReferenceIdeal.Read.val_main_v30 x0 x1 x2 x3 x4 x5 x6 x7 :=
  (dat1 V c).arrAt_eq_of_cover 3 (Cert.ReferenceIdeal.Read.val_main_v30 x0 x1 x2 x3 x4 x5 x6 x7)
    (fun t _ => flushed1_eq V x0 x1 x2 x3 x4 x5 x6 x7 c h14 h6 h9 t) cover1

end Cert.KernelIdeal.Hand

end
-- ==== Proof.KI.Val2.lean ====
/-
  What the two GRU projections leave in their result arrays, at the ideal instance: if on entry the region finds
  the relu row x, the hidden row, the two weights and the two biases as (1, 3072) rows, then the two (1, 3072)
  results are the reference's stages x · w_ihᵀ + b_ih and h · w_hhᵀ + b_hh, entry by entry: the four tiles of 768
  entries together cover each.
-/
import proofs.«413161_j58153857188588_3_alg».proof.Proof.KI.Reg2
import proofs.«413161_j58153857188588_3_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## One tile of a projection at an entry

A tile of either projection is a (1, 1024) row times the transpose of a (768, 1024) tile of the weight, plus a
(1, 768) tile of the bias: entry q of the tile is the sum over k of row[k] · weight[q, k], plus bias[q]. -/

/-- The whole-block offsets, as the program spells them, are zero on both axes. -/
theorem gru_zero_offsets : (![0, 0] : Fin 2 → Nat) = fun _ => 0 :=
  funext fun a => match a with | ⟨0, _⟩ => rfl | ⟨1, _⟩ => rfl

/-- The left operand of the tile's contraction is read at the result's row -/
theorem gru_lhs_0 (i : S1x768.Idx) (q : dot_S1x1024_S1024x768_S1x768_1_0_0_1_n_n.contr.Idx) :
    (dot_S1x1024_S1024x768_S1x768_1_0_0_1_n_n.lhsIdx i q 0).val = (i 0).val := by
  unfold DotDims.lhsIdx
  rw [dif_neg (show ¬(0 : Fin S1x1024.rank) ∈ dot_S1x1024_S1024x768_S1x768_1_0_0_1_n_n.lhsBatch by decide), dif_pos (show (0 : Fin S1x1024.rank) ∈ dot_S1x1024_S1024x768_S1x768_1_0_0_1_n_n.lhsNonContracting by decide)]
  rfl
/-- and the summation index, -/
theorem gru_lhs_1 (i : S1x768.Idx) (q : dot_S1x1024_S1024x768_S1x768_1_0_0_1_n_n.contr.Idx) :
    (dot_S1x1024_S1024x768_S1x768_1_0_0_1_n_n.lhsIdx i q 1).val = (q ⟨0, by decide⟩).val :=
  dot_S1x1024_S1024x768_S1x768_1_0_0_1_n_n.lhsIdx_val_of_single rfl i q
/-- the right operand at the summation index -/
theorem gru_rhs_0 (i : S1x768.Idx) (q : dot_S1x1024_S1024x768_S1x768_1_0_0_1_n_n.contr.Idx) :
    (dot_S1x1024_S1024x768_S1x768_1_0_0_1_n_n.rhsIdx i q 0).val = (q ⟨0, by decide⟩).val :=
  dot_S1x1024_S1024x768_S1x768_1_0_0_1_n_n.rhsIdx_val_of_single rfl i q
/-- and the result's column. -/
theorem gru_rhs_1 (i : S1x768.Idx) (q : dot_S1x1024_S1024x768_S1x768_1_0_0_1_n_n.contr.Idx) :
    (dot_S1x1024_S1024x768_S1x768_1_0_0_1_n_n.rhsIdx i q 1).val = (i 1).val := by
  unfold DotDims.rhsIdx
  rw [dif_neg (show ¬(1 : Fin S1024x768.rank) ∈ dot_S1x1024_S1024x768_S1x768_1_0_0_1_n_n.rhsBatch by decide), dif_pos (show (1 : Fin S1024x768.rank) ∈ dot_S1x1024_S1024x768_S1x768_1_0_0_1_n_n.rhsNonContracting by decide)]
  rfl

/-- The (1, 1024) × (1024, 768) product into zero, at entry (p, q): the sum over k of a[p, k] · w[k, q]. -/
theorem gru_product_apply (a : FVec Ideal S1x1024 .bf16) (w : FVec Ideal S1024x768 .bf16) (p : Fin 1) (q : Fin 768) :
    FloatOps.matmul dot_S1x1024_S1024x768_S1x768_1_0_0_1_n_n none a w (constant (F := Ideal) S1x768 .f32 0x00000000#32) (ix2 p q)
      = ∑ k : Fin 1024, a (ix2 p k) * w (ix2 k q) := by
  rw [Ideal.matmul_constant_zero_apply, ← Equiv.sum_comp (contrEquiv1 dot_S1x1024_S1024x768_S1x768_1_0_0_1_n_n 1024 rfl rfl).symm]
  refine Finset.sum_congr rfl fun k _ => ?_
  have hk := contrEquiv1_symm_val dot_S1x1024_S1024x768_S1x768_1_0_0_1_n_n 1024 rfl rfl k
  have el : dot_S1x1024_S1024x768_S1x768_1_0_0_1_n_n.lhsIdx (ix2 p q) ((contrEquiv1 dot_S1x1024_S1024x768_S1x768_1_0_0_1_n_n 1024 rfl rfl).symm k) = ix2 p k := funext fun b => Fin.ext (by
    match b with
    | ⟨0, _⟩ => exact gru_lhs_0 _ _
    | ⟨1, _⟩ => exact (gru_lhs_1 _ _).trans hk)
  have er : dot_S1x1024_S1024x768_S1x768_1_0_0_1_n_n.rhsIdx (ix2 p q) ((contrEquiv1 dot_S1x1024_S1024x768_S1x768_1_0_0_1_n_n 1024 rfl rfl).symm k) = ix2 k q := funext fun b => Fin.ext (by
    match b with
    | ⟨0, _⟩ => exact (gru_rhs_0 _ _).trans hk
    | ⟨1, _⟩ => exact gru_rhs_1 _ _)
  rw [el, er]

-- the buffer contents on every core when the region is entered, at the ideal instance
variable (V : (c : Dev nD) → (b : Ref sig .tc) → Buf (Elt Ideal) ((c : Thread nD τ).loc b))

-- the reference's arguments, as its stage functions take them
variable (x0 : (⟨S1, .i32⟩ : BufTy).Contents (Elt Ideal)) (x1 : (⟨S1x1x1024, .f32⟩ : BufTy).Contents (Elt Ideal))
  (x2 : (⟨S40x1024, .f32⟩ : BufTy).Contents (Elt Ideal)) (x3 : (⟨S50257x1024, .f32⟩ : BufTy).Contents (Elt Ideal))
  (x4 : (⟨S40x2048, .f32⟩ : BufTy).Contents (Elt Ideal)) (x5 : (⟨S40, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

/-- The first stored tile at entry (p, q): the sum over k of row[p, k] · weight[q, k], plus bias[p, q]. -/
theorem gru_pay1_apply (a : Vec Ideal S1x1024 .f32) (w : Vec Ideal S768x1024 .f32) (b : Vec Ideal S1x768 .f32) (p : Fin 1) (q : Fin 768) :
    k2_pay1 a w b (ix2 p q) = (∑ k : Fin 1024, a (ix2 p k) * w (ix2 q k)) + b (ix2 p q) := by
  unfold k2_pay1
  dsimp only
  refine (addf_apply _ _ _).trans ?_
  refine congrArg₂ (· + ·) ?_ ?_
  · refine (gru_product_apply _ _ p q).trans ?_
    refine Finset.sum_congr rfl fun k _ => ?_
    refine congrArg₂ (· * ·) ?_ ?_
    · show shapeCast S1x1024 a shapeCasts_S1x1024_S1x1024 (ix2 p k) = a (ix2 p k)
      rw [shapeCast_self]
    · refine (transpose_ix2_apply _ _ k q).trans ?_
      rfl
  · rw [shapeCast_self]

/-- The second stored tile at entry (p, q): the sum over k of row[p, k] · weight[q, k], plus bias[p, q]. -/
theorem gru_pay2_apply (a : Vec Ideal S1x1024 .f32) (w : Vec Ideal S768x1024 .f32) (b : Vec Ideal S1x768 .f32) (p : Fin 1) (q : Fin 768) :
    k2_pay2 a w b (ix2 p q) = (∑ k : Fin 1024, a (ix2 p k) * w (ix2 q k)) + b (ix2 p q) := by
  unfold k2_pay2
  dsimp only
  refine (addf_apply _ _ _).trans ?_
  refine congrArg₂ (· + ·) ?_ ?_
  · refine (gru_product_apply _ _ p q).trans ?_
    refine Finset.sum_congr rfl fun k _ => ?_
    refine congrArg₂ (· * ·) ?_ ?_
    · show shapeCast S1x1024 a shapeCasts_S1x1024_S1x1024 (ix2 p k) = a (ix2 p k)
      rw [shapeCast_self]
    · refine (transpose_ix2_apply _ _ k q).trans ?_
      rfl
  · rw [shapeCast_self]

/-- The index maps of the first projection's windows, decided over the four points: the row's block is always block (0, 0), the weight's
    tile is row-block t, the bias's and the result's tiles are column-block t. -/
theorem ih_index_maps : ∀ t : Fin cfg2.N,
    win2_0.index t (0 : Fin 2) = 0 ∧ win2_0.index t (1 : Fin 2) = 0
    ∧ win2_2.index t (0 : Fin 2) = t.val ∧ win2_2.index t (1 : Fin 2) = 0
    ∧ win2_4.index t (0 : Fin 2) = 0 ∧ win2_4.index t (1 : Fin 2) = t.val
    ∧ win2_6.index t (0 : Fin 2) = 0 ∧ win2_6.index t (1 : Fin 2) = t.val :=
  (by decide +kernel : ∀ t : Fin grid2.N, _)

/-- The index maps of the second projection's windows, decided over the four points: the row's block is always block (0, 0), the weight's
    tile is row-block t, the bias's and the result's tiles are column-block t. -/
theorem hh_index_maps : ∀ t : Fin cfg2.N,
    win2_1.index t (0 : Fin 2) = 0 ∧ win2_1.index t (1 : Fin 2) = 0
    ∧ win2_3.index t (0 : Fin 2) = t.val ∧ win2_3.index t (1 : Fin 2) = 0
    ∧ win2_5.index t (0 : Fin 2) = 0 ∧ win2_5.index t (1 : Fin 2) = t.val
    ∧ win2_7.index t (0 : Fin 2) = 0 ∧ win2_7.index t (1 : Fin 2) = t.val :=
  (by decide +kernel : ∀ t : Fin grid2.N, _)

/-! ## The first result: what each point writes back, the cover, the array -/

/-- What point t writes back into the first result's array is tile t of G, for any G that at entry j is the sum over k of
    row[k] · weight[j, k], plus bias[j], of the row, weight and bias the region finds. -/
theorem ih_flushed (c : Dev nD) (row : (⟨S1x1024, .f32⟩ : BufTy).Contents (Elt Ideal))
    (wt : (⟨S3072x1024, .f32⟩ : BufTy).Contents (Elt Ideal)) (bias : (⟨S3072, .f32⟩ : BufTy).Contents (Elt Ideal))
    (G : (⟨S1x3072, .f32⟩ : BufTy).Contents (Elt Ideal))
    (hG : ∀ j : Fin 3072, G (ix2 (0 : Fin 1) j) = (∑ k : Fin 1024, row (ix2 (0 : Fin 1) k) * wt (ix2 j k)) + bias (ix1 j))
    (hrow : V c main_v15 = row) (hwt : V c main_arg8 = wt)
    (hbias : ∀ j : Fin 3072, V c main_v10 (ix2 0 j) = bias (ix1 j)) (t : Fin cfg2.N) :
    (dat2 V c).flushed 6 t = ((cfg2.win 6).blk t).view.read (Elt Ideal) G := by
  show (cfg2.win 6).cut (grid2.coords t) ((dat2 V c).after 6 t) = _
  rw [after2_6]
  unfold out2_6
  rw [View.canon_unit_zero gru_zero_offsets]
  simp only [View.ld_unit_zero (S := S1x1024) gru_zero_offsets, View.ld_unit_zero (S := S768x1024) gru_zero_offsets,
    View.ld_unit_zero (S := S1x768) gru_zero_offsets]
  obtain ⟨ea0, ea1, ew0, ew1, eb0, eb1, eo0, eo1⟩ := ih_index_maps t
  have ht : t.val < 4 := by have h : t.val < grid2.N := t.isLt; have := N_2; omega
  funext y
  obtain ⟨p, q, rfl⟩ : ∃ (p : Fin 1) (q : Fin 768), y = ix2 p q := ⟨y 0, y 1, eq_ix2 y⟩
  have hp : p.val = 0 := by have := p.isLt; omega
  have hq : q.val < 768 := q.isLt
  show k2_pay1 (iblk2 V c 0 t) (iblk2 V c 2 t) (iblk2 V c 4 t) (ix2 p q)
    = G (((cfg2.win 6).blk t).view.emb (ix2 p q))
  refine (gru_pay1_apply _ _ _ p q).trans ?_
  -- the entry of the array this is: 768 · t + q
  obtain ⟨j, hj⟩ : ∃ j : Fin 3072, j.val = 768 * t.val + q.val := ⟨⟨768 * t.val + q.val, by omega⟩, rfl⟩
  have hemb : ((cfg2.win 6).blk t).view.emb (ix2 p q) = ix2 (0 : Fin 1) j := by
    funext a; apply Fin.ext
    match a with
    | ⟨0, _⟩ => show win2_6.index t (0 : Fin 2) * 1 + 1 * p.val = 0; omega
    | ⟨1, _⟩ => show win2_6.index t (1 : Fin 2) * 768 + 1 * q.val = j.val; omega
  rw [hemb, hG j]
  -- the three blocks read where the tile's entry says
  have ra : ∀ k : Fin 1024, iblk2 V c 0 t (ix2 p k) = row (ix2 (0 : Fin 1) k) := fun k => by
    show V c main_v15 (((cfg2.win 0).blk t).view.emb (ix2 p k)) = _
    rw [hrow]
    refine congrArg _ (funext fun a => Fin.ext ?_)
    match a with
    | ⟨0, _⟩ => show win2_0.index t (0 : Fin 2) * 1 + 1 * p.val = 0; omega
    | ⟨1, _⟩ => show win2_0.index t (1 : Fin 2) * 1024 + 1 * k.val = k.val; omega
  have rw' : ∀ k : Fin 1024, iblk2 V c 2 t (ix2 q k) = wt (ix2 j k) := fun k => by
    show V c main_arg8 (((cfg2.win 2).blk t).view.emb (ix2 q k)) = _
    rw [hwt]
    refine congrArg _ (funext fun a => Fin.ext ?_)
    match a with
    | ⟨0, _⟩ => show win2_2.index t (0 : Fin 2) * 768 + 1 * q.val = j.val; omega
    | ⟨1, _⟩ => show win2_2.index t (1 : Fin 2) * 1024 + 1 * k.val = k.val; omega
  have rb : iblk2 V c 4 t (ix2 p q) = bias (ix1 j) := by
    show V c main_v10 (((cfg2.win 4).blk t).view.emb (ix2 p q)) = _
    rw [← hbias j]
    refine congrArg _ (funext fun a => Fin.ext ?_)
    match a with
    | ⟨0, _⟩ => show win2_4.index t (0 : Fin 2) * 1 + 1 * p.val = 0; omega
    | ⟨1, _⟩ => show win2_4.index t (1 : Fin 2) * 768 + 1 * q.val = j.val; omega
  rw [rb]
  refine congrArg₂ (· + ·) (Finset.sum_congr rfl fun k _ => ?_) rfl
  rw [ra k, rw' k]

/-- An entry of the first result's array is in point t's tile iff each coordinate is in the tile's range. -/
theorem ih_mem_tile (t : Fin cfg2.N) (i : S1x3072.Idx) :
    i ∈ ((cfg2.win 6).blk t).view.set ↔ ∀ a : Fin 2, win2_6.index t a * S1x768.size a ≤ (i a).val ∧ (i a).val < win2_6.index t a * S1x768.size a + S1x768.size a := by
  show i ∈ ((View.whole main_v16_0).slice (win2_6.rect t)).set ↔ _
  rw [View.set_slice_whole, Rect.mem_set_unit]
  exact Iff.rfl

/-- Entry j of the array is in the tile of point j / 768, which writes its tile back. -/
theorem ih_cover (i : S1x3072.Idx) :
    ∃ t : Fin cfg2.N, (cfg2.win 6).flush t = true ∧ i ∈ ((cfg2.win 6).blk t).view.set := by
  have hi0 : (i 0).val < 1 := (i 0).isLt
  have hi1 : (i 1).val < 3072 := (i 1).isLt
  obtain ⟨t, htv⟩ : ∃ t : Fin cfg2.N, t.val = (i 1).val / 768 :=
    ⟨⟨(i 1).val / 768, by show (i 1).val / 768 < grid2.N; rw [N_2]; omega⟩, rfl⟩
  obtain ⟨ea0, ea1, ew0, ew1, eb0, eb1, eo0, eo1⟩ := ih_index_maps t
  refine ⟨t, flush2_6 t, ?_⟩
  rw [ih_mem_tile]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 768 ≤ (i 1).val ∧ (i 1).val < win2_6.index t (1 : Fin 2) * 768 + 768; omega

/-- So the first result's array ends holding G. -/
theorem ih_array (c : Dev nD) (row : (⟨S1x1024, .f32⟩ : BufTy).Contents (Elt Ideal))
    (wt : (⟨S3072x1024, .f32⟩ : BufTy).Contents (Elt Ideal)) (bias : (⟨S3072, .f32⟩ : BufTy).Contents (Elt Ideal))
    (G : (⟨S1x3072, .f32⟩ : BufTy).Contents (Elt Ideal))
    (hG : ∀ j : Fin 3072, G (ix2 (0 : Fin 1) j) = (∑ k : Fin 1024, row (ix2 (0 : Fin 1) k) * wt (ix2 j k)) + bias (ix1 j))
    (hrow : V c main_v15 = row) (hwt : V c main_arg8 = wt)
    (hbias : ∀ j : Fin 3072, V c main_v10 (ix2 0 j) = bias (ix1 j)) :
    (dat2 V c).arrAt 6 cfg2.N = G :=
  (dat2 V c).arrAt_eq_of_cover 6 G (fun t _ => ih_flushed V c row wt bias G hG hrow hwt hbias t) ih_cover

/-! ## The second result: what each point writes back, the cover, the array -/

/-- What point t writes back into the second result's array is tile t of G, for any G that at entry j is the sum over k of
    row[k] · weight[j, k], plus bias[j], of the row, weight and bias the region finds. -/
theorem hh_flushed (c : Dev nD) (row : (⟨S1x1024, .f32⟩ : BufTy).Contents (Elt Ideal))
    (wt : (⟨S3072x1024, .f32⟩ : BufTy).Contents (Elt Ideal)) (bias : (⟨S3072, .f32⟩ : BufTy).Contents (Elt Ideal))
    (G : (⟨S1x3072, .f32⟩ : BufTy).Contents (Elt Ideal))
    (hG : ∀ j : Fin 3072, G (ix2 (0 : Fin 1) j) = (∑ k : Fin 1024, row (ix2 (0 : Fin 1) k) * wt (ix2 j k)) + bias (ix1 j))
    (hrow : V c main_v7 = row) (hwt : V c main_arg9 = wt)
    (hbias : ∀ j : Fin 3072, V c main_v11 (ix2 0 j) = bias (ix1 j)) (t : Fin cfg2.N) :
    (dat2 V c).flushed 7 t = ((cfg2.win 7).blk t).view.read (Elt Ideal) G := by
  show (cfg2.win 7).cut (grid2.coords t) ((dat2 V c).after 7 t) = _
  rw [after2_7]
  unfold out2_7
  rw [View.canon_unit_zero gru_zero_offsets]
  simp only [View.ld_unit_zero (S := S1x1024) gru_zero_offsets, View.ld_unit_zero (S := S768x1024) gru_zero_offsets,
    View.ld_unit_zero (S := S1x768) gru_zero_offsets]
  obtain ⟨ea0, ea1, ew0, ew1, eb0, eb1, eo0, eo1⟩ := hh_index_maps t
  have ht : t.val < 4 := by have h : t.val < grid2.N := t.isLt; have := N_2; omega
  funext y
  obtain ⟨p, q, rfl⟩ : ∃ (p : Fin 1) (q : Fin 768), y = ix2 p q := ⟨y 0, y 1, eq_ix2 y⟩
  have hp : p.val = 0 := by have := p.isLt; omega
  have hq : q.val < 768 := q.isLt
  show k2_pay2 (iblk2 V c 1 t) (iblk2 V c 3 t) (iblk2 V c 5 t) (ix2 p q)
    = G (((cfg2.win 7).blk t).view.emb (ix2 p q))
  refine (gru_pay2_apply _ _ _ p q).trans ?_
  -- the entry of the array this is: 768 · t + q
  obtain ⟨j, hj⟩ : ∃ j : Fin 3072, j.val = 768 * t.val + q.val := ⟨⟨768 * t.val + q.val, by omega⟩, rfl⟩
  have hemb : ((cfg2.win 7).blk t).view.emb (ix2 p q) = ix2 (0 : Fin 1) j := by
    funext a; apply Fin.ext
    match a with
    | ⟨0, _⟩ => show win2_7.index t (0 : Fin 2) * 1 + 1 * p.val = 0; omega
    | ⟨1, _⟩ => show win2_7.index t (1 : Fin 2) * 768 + 1 * q.val = j.val; omega
  rw [hemb, hG j]
  -- the three blocks read where the tile's entry says
  have ra : ∀ k : Fin 1024, iblk2 V c 1 t (ix2 p k) = row (ix2 (0 : Fin 1) k) := fun k => by
    show V c main_v7 (((cfg2.win 1).blk t).view.emb (ix2 p k)) = _
    rw [hrow]
    refine congrArg _ (funext fun a => Fin.ext ?_)
    match a with
    | ⟨0, _⟩ => show win2_1.index t (0 : Fin 2) * 1 + 1 * p.val = 0; omega
    | ⟨1, _⟩ => show win2_1.index t (1 : Fin 2) * 1024 + 1 * k.val = k.val; omega
  have rw' : ∀ k : Fin 1024, iblk2 V c 3 t (ix2 q k) = wt (ix2 j k) := fun k => by
    show V c main_arg9 (((cfg2.win 3).blk t).view.emb (ix2 q k)) = _
    rw [hwt]
    refine congrArg _ (funext fun a => Fin.ext ?_)
    match a with
    | ⟨0, _⟩ => show win2_3.index t (0 : Fin 2) * 768 + 1 * q.val = j.val; omega
    | ⟨1, _⟩ => show win2_3.index t (1 : Fin 2) * 1024 + 1 * k.val = k.val; omega
  have rb : iblk2 V c 5 t (ix2 p q) = bias (ix1 j) := by
    show V c main_v11 (((cfg2.win 5).blk t).view.emb (ix2 p q)) = _
    rw [← hbias j]
    refine congrArg _ (funext fun a => Fin.ext ?_)
    match a with
    | ⟨0, _⟩ => show win2_5.index t (0 : Fin 2) * 1 + 1 * p.val = 0; omega
    | ⟨1, _⟩ => show win2_5.index t (1 : Fin 2) * 768 + 1 * q.val = j.val; omega
  rw [rb]
  refine congrArg₂ (· + ·) (Finset.sum_congr rfl fun k _ => ?_) rfl
  rw [ra k, rw' k]

/-- An entry of the second result's array is in point t's tile iff each coordinate is in the tile's range. -/
theorem hh_mem_tile (t : Fin cfg2.N) (i : S1x3072.Idx) :
    i ∈ ((cfg2.win 7).blk t).view.set ↔ ∀ a : Fin 2, win2_7.index t a * S1x768.size a ≤ (i a).val ∧ (i a).val < win2_7.index t a * S1x768.size a + S1x768.size a := by
  show i ∈ ((View.whole main_v16_1).slice (win2_7.rect t)).set ↔ _
  rw [View.set_slice_whole, Rect.mem_set_unit]
  exact Iff.rfl

/-- Entry j of the array is in the tile of point j / 768, which writes its tile back. -/
theorem hh_cover (i : S1x3072.Idx) :
    ∃ t : Fin cfg2.N, (cfg2.win 7).flush t = true ∧ i ∈ ((cfg2.win 7).blk t).view.set := by
  have hi0 : (i 0).val < 1 := (i 0).isLt
  have hi1 : (i 1).val < 3072 := (i 1).isLt
  obtain ⟨t, htv⟩ : ∃ t : Fin cfg2.N, t.val = (i 1).val / 768 :=
    ⟨⟨(i 1).val / 768, by show (i 1).val / 768 < grid2.N; rw [N_2]; omega⟩, rfl⟩
  obtain ⟨ea0, ea1, ew0, ew1, eb0, eb1, eo0, eo1⟩ := hh_index_maps t
  refine ⟨t, flush2_7 t, ?_⟩
  rw [hh_mem_tile]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 768 ≤ (i 1).val ∧ (i 1).val < win2_7.index t (1 : Fin 2) * 768 + 768; omega

/-- So the second result's array ends holding G. -/
theorem hh_array (c : Dev nD) (row : (⟨S1x1024, .f32⟩ : BufTy).Contents (Elt Ideal))
    (wt : (⟨S3072x1024, .f32⟩ : BufTy).Contents (Elt Ideal)) (bias : (⟨S3072, .f32⟩ : BufTy).Contents (Elt Ideal))
    (G : (⟨S1x3072, .f32⟩ : BufTy).Contents (Elt Ideal))
    (hG : ∀ j : Fin 3072, G (ix2 (0 : Fin 1) j) = (∑ k : Fin 1024, row (ix2 (0 : Fin 1) k) * wt (ix2 j k)) + bias (ix1 j))
    (hrow : V c main_v7 = row) (hwt : V c main_arg9 = wt)
    (hbias : ∀ j : Fin 3072, V c main_v11 (ix2 0 j) = bias (ix1 j)) :
    (dat2 V c).arrAt 7 cfg2.N = G :=
  (dat2 V c).arrAt_eq_of_cover 7 G (fun t _ => hh_flushed V c row wt bias G hG hrow hwt hbias t) hh_cover

/-! ## The reference's two stages at an entry -/

/-- x · w_ihᵀ + b_ih at entry j: the sum over k of x[k] · w_ih[j, k], plus b_ih[j]. -/
theorem ref_ih_apply (j : Fin 3072) :
    Cert.ReferenceIdeal.Read.val_main_v34 x0 x1 x2 x3 x4 x5 x6 x7 x8 x10 (ix2 (0 : Fin 1) j)
      = (∑ k : Fin 1024, Cert.ReferenceIdeal.Read.val_main_v30 x0 x1 x2 x3 x4 x5 x6 x7 (ix2 (0 : Fin 1) k) * x8 (ix2 j k)) + x10 (ix1 j) := by
  rw [Cert.ReferenceIdeal.Read.val_main_v34_apply, Cert.ReferenceIdeal.Read.val_main_v32_apply, Cert.ReferenceIdeal.Read.val_main_v33_apply]
  simp only [Cert.ReferenceIdeal.Read.val_main_v31_apply]
  have e1 : ∀ k : Fin 1024, Cert.ReferenceIdeal.Read.lidx_main_v32 (ix2 (0 : Fin 1) j) k = ix2 (0 : Fin 1) k := fun k =>
    funext fun a => Fin.ext (by match a with | ⟨0, _⟩ => rfl | ⟨1, _⟩ => rfl)
  have e2 : ∀ k : Fin 1024, Cert.ReferenceIdeal.Read.idx_main_v31 (Cert.ReferenceIdeal.Read.ridx_main_v32 (ix2 (0 : Fin 1) j) k) = ix2 j k := fun k =>
    funext fun a => Fin.ext (by match a with | ⟨0, _⟩ => rfl | ⟨1, _⟩ => rfl)
  have e3 : Cert.ReferenceIdeal.Read.idx_main_v33 (ix2 (0 : Fin 1) j) = ix1 j :=
    funext fun a => Fin.ext (by match a with | ⟨0, _⟩ => rfl)
  simp only [e1, e2, e3]
  rfl

/-- h · w_hhᵀ + b_hh at entry j: the sum over k of h[k] · w_hh[j, k], plus b_hh[j]. -/
theorem ref_hh_apply (j : Fin 3072) :
    Cert.ReferenceIdeal.Read.val_main_v38 x1 x9 x11 (ix2 (0 : Fin 1) j)
      = (∑ k : Fin 1024, Cert.ReferenceIdeal.Read.val_main_v7 x1 (ix2 (0 : Fin 1) k) * x9 (ix2 j k)) + x11 (ix1 j) := by
  rw [Cert.ReferenceIdeal.Read.val_main_v38_apply, Cert.ReferenceIdeal.Read.val_main_v36_apply, Cert.ReferenceIdeal.Read.val_main_v37_apply]
  simp only [Cert.ReferenceIdeal.Read.val_main_v35_apply]
  have e1 : ∀ k : Fin 1024, Cert.ReferenceIdeal.Read.lidx_main_v36 (ix2 (0 : Fin 1) j) k = ix2 (0 : Fin 1) k := fun k =>
    funext fun a => Fin.ext (by match a with | ⟨0, _⟩ => rfl | ⟨1, _⟩ => rfl)
  have e2 : ∀ k : Fin 1024, Cert.ReferenceIdeal.Read.idx_main_v35 (Cert.ReferenceIdeal.Read.ridx_main_v36 (ix2 (0 : Fin 1) j) k) = ix2 j k := fun k =>
    funext fun a => Fin.ext (by match a with | ⟨0, _⟩ => rfl | ⟨1, _⟩ => rfl)
  have e3 : Cert.ReferenceIdeal.Read.idx_main_v37 (ix2 (0 : Fin 1) j) = ix1 j :=
    funext fun a => Fin.ext (by match a with | ⟨0, _⟩ => rfl)
  simp only [e1, e2, e3]
  rfl

/-! ## The two results -/

/-- The first result: x · w_ihᵀ + b_ih, the reference's stage `val_main_v34`. -/
theorem val2_ih (c : Dev nD)
    (h15 : V c main_v15 = Cert.ReferenceIdeal.Read.val_main_v30 x0 x1 x2 x3 x4 x5 x6 x7) (h8 : V c main_arg8 = x8)
    (h10 : ∀ j : Fin 3072, V c main_v10 (ValueIdx.ix2 0 j) = x10 (ValueIdx.ix1 j)) :
    (dat2 V c).arrAt 6 cfg2.N = Cert.ReferenceIdeal.Read.val_main_v34 x0 x1 x2 x3 x4 x5 x6 x7 x8 x10 :=
  ih_array V c (Cert.ReferenceIdeal.Read.val_main_v30 x0 x1 x2 x3 x4 x5 x6 x7) x8 x10
    (Cert.ReferenceIdeal.Read.val_main_v34 x0 x1 x2 x3 x4 x5 x6 x7 x8 x10) (ref_ih_apply x0 x1 x2 x3 x4 x5 x6 x7 x8 x10) h15 h8 h10

/-- The second result: h · w_hhᵀ + b_hh, the reference's stage `val_main_v38`. -/
theorem val2_hh (c : Dev nD)
    (h7 : V c main_v7 = Cert.ReferenceIdeal.Read.val_main_v7 x1) (h9 : V c main_arg9 = x9)
    (h11 : ∀ j : Fin 3072, V c main_v11 (ValueIdx.ix2 0 j) = x11 (ValueIdx.ix1 j)) :
    (dat2 V c).arrAt 7 cfg2.N = Cert.ReferenceIdeal.Read.val_main_v38 x1 x9 x11 :=
  hh_array V c (Cert.ReferenceIdeal.Read.val_main_v7 x1) x9 x11
    (Cert.ReferenceIdeal.Read.val_main_v38 x1 x9 x11) (ref_hh_apply x1 x9 x11) h7 h9 h11

end Cert.KernelIdeal.Hand

end
-- ==== Proof.KI.Val3.lean ====
/-
  What the output projection leaves in its result array, at the ideal instance: if on entry the region finds the
  new hidden row, the output weight and the output bias as a (1, 50257) row, then the (1, 50257) result is the
  reference's logits stage, entry by entry: the 25 tiles — the last cut to the 1105 entries inside the array —
  together cover it, every entry written has its vocabulary index below 50257 (so the body's filler is never what
  is written), and an entry of a matrix product reads only its own row of the weight tile.
-/
import proofs.«413161_j58153857188588_3_alg».proof.Proof.KI.Reg3Def
import proofs.«413161_j58153857188588_3_alg».proof.Proof.RefRead
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

-- the buffer contents on every core when the region is entered, at the ideal instance
variable (V : (c : Dev nD) → (b : Ref sig .tc) → Buf (Elt Ideal) ((c : Thread nD τ).loc b))

-- the reference's arguments, as its stage functions take them
variable (x0 : (⟨S1, .i32⟩ : BufTy).Contents (Elt Ideal)) (x1 : (⟨S1x1x1024, .f32⟩ : BufTy).Contents (Elt Ideal))
  (x2 : (⟨S40x1024, .f32⟩ : BufTy).Contents (Elt Ideal)) (x3 : (⟨S50257x1024, .f32⟩ : BufTy).Contents (Elt Ideal))
  (x4 : (⟨S40x2048, .f32⟩ : BufTy).Contents (Elt Ideal)) (x5 : (⟨S40, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))

open Idealize.ShloMosaic.ValueIdx

/-! ### The mask: a vocabulary index inside the array is below 50257 -/

/-- A vocabulary index inside the array compares below 50257 as signed 32-bit words: tile number times 2048 plus
    the lane is far below 2^31, so neither the product nor the sum wraps. -/
theorem slt_vocab (t l : Nat) (h : t * 2048 + l < 50257) :
    IntOp.cmpi .slt (IntOp.addi (Scalar.muli (BitVec.ofNat 32 t) 2048#32) (BitVec.ofNat 32 l)) 50257#32 = 1#1 := by
  have e : IntOp.addi (Scalar.muli (BitVec.ofNat 32 t) 2048#32) (BitVec.ofNat 32 l) = BitVec.ofNat 32 (t * 2048 + l) := by
    show BitVec.ofNat 32 t * 2048#32 + BitVec.ofNat 32 l = _
    apply BitVec.eq_of_toNat_eq
    simp only [BitVec.toNat_add, BitVec.toNat_mul, BitVec.toNat_ofNat]
    omega
  rw [e]
  show BitVec.ofBool (BitVec.slt _ _) = 1#1
  rw [WordArith.ofBool_eq_one_iff, BitVec.slt, decide_eq_true_eq, WordArith.toInt_ofNat_small _ (by omega)]
  show ((t * 2048 + l : Nat) : Int) < 50257
  omega

/-! ### The tile product at an entry -/

theorem lhs_mm3_0 (i : S1x2048.Idx) (q : dot_S1x1024_S1024x2048_S1x2048_1_0_0_1_n_n.contr.Idx) :
    (dot_S1x1024_S1024x2048_S1x2048_1_0_0_1_n_n.lhsIdx i q 0).val = (i 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
theorem lhs_mm3_1 (i : S1x2048.Idx) (q : dot_S1x1024_S1024x2048_S1x2048_1_0_0_1_n_n.contr.Idx) :
    (dot_S1x1024_S1024x2048_S1x2048_1_0_0_1_n_n.lhsIdx i q 1).val = (q ⟨0, by decide⟩).val :=
  dot_S1x1024_S1024x2048_S1x2048_1_0_0_1_n_n.lhsIdx_val_of_single rfl i q
theorem rhs_mm3_0 (i : S1x2048.Idx) (q : dot_S1x1024_S1024x2048_S1x2048_1_0_0_1_n_n.contr.Idx) :
    (dot_S1x1024_S1024x2048_S1x2048_1_0_0_1_n_n.rhsIdx i q 0).val = (q ⟨0, by decide⟩).val :=
  dot_S1x1024_S1024x2048_S1x2048_1_0_0_1_n_n.rhsIdx_val_of_single rfl i q
theorem rhs_mm3_1 (i : S1x2048.Idx) (q : dot_S1x1024_S1024x2048_S1x2048_1_0_0_1_n_n.contr.Idx) :
    (dot_S1x1024_S1024x2048_S1x2048_1_0_0_1_n_n.rhsIdx i q 1).val = (i 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

/-- Entry (0, q) of a (1, 1024) row times a (1024, 2048) matrix, accumulated into zero: the sum over the 1024
    contraction indices. -/
theorem mm3_apply (lhs : FVec Ideal S1x1024 .bf16) (rhs : FVec Ideal S1024x2048 .bf16) (q : Fin 2048) :
    FloatOps.matmul dot_S1x1024_S1024x2048_S1x2048_1_0_0_1_n_n none lhs rhs (constant S1x2048 .f32 0x00000000#32) (ix2 0 q)
      = ∑ k : Fin 1024, lhs (ix2 0 k) * rhs (ix2 k q) := by
  rw [Ideal.matmul_constant_zero_apply, ← Equiv.sum_comp (ValueIdx.contrEquiv1 dot_S1x1024_S1024x2048_S1x2048_1_0_0_1_n_n 1024 rfl rfl).symm]
  refine Finset.sum_congr rfl fun k _ => ?_
  have hk := ValueIdx.contrEquiv1_symm_val dot_S1x1024_S1024x2048_S1x2048_1_0_0_1_n_n 1024 rfl rfl k
  have el : dot_S1x1024_S1024x2048_S1x2048_1_0_0_1_n_n.lhsIdx (ix2 0 q) ((ValueIdx.contrEquiv1 dot_S1x1024_S1024x2048_S1x2048_1_0_0_1_n_n 1024 rfl rfl).symm k) = ix2 0 k := funext fun a => Fin.ext (by
    match a with
    | ⟨0, _⟩ => exact lhs_mm3_0 _ _
    | ⟨1, _⟩ => exact (lhs_mm3_1 _ _).trans hk)
  have er : dot_S1x1024_S1024x2048_S1x2048_1_0_0_1_n_n.rhsIdx (ix2 0 q) ((ValueIdx.contrEquiv1 dot_S1x1024_S1024x2048_S1x2048_1_0_0_1_n_n 1024 rfl rfl).symm k) = ix2 k q := funext fun a => Fin.ext (by
    match a with
    | ⟨0, _⟩ => exact (rhs_mm3_0 _ _).trans hk
    | ⟨1, _⟩ => exact rhs_mm3_1 _ _)
  rw [el, er]

/-! ### The body's payload at an entry inside the array -/

/-- Where the mask is set the select takes the value. -/
theorem select_inside (m : IVec S1x2048 1) (a b : FVec Ideal S1x2048 .f32) (j : S1x2048.Idx) (hm : m j = 1#1) :
    select m a b j = a j := by
  rw [select_apply, hm, select_one]

/-- The transposed weight tile at (k, q) is the tile at (q, k). -/
theorem wT_apply (x1 : FVec Ideal S2048x1024 .bf16) (k : Fin 1024) (q : Fin 2048) :
    transpose S1024x2048 [1, 0] x1 transposes_S2048x1024_p1_0_S1024x2048 (ix2 k q) = x1 (ix2 q k) :=
  transpose_apply [1, 0] x1 transposes_S2048x1024_p1_0_S1024x2048 (ix2 k q) (ix2 q k) (fun b => match b with
    | ⟨0, _⟩ => rfl
    | ⟨1, _⟩ => rfl)

/-- Entry (0, q) of what the body stores at grid coordinates `i`, when vocabulary index `i·2048 + q` is inside the
    array: the hidden row times row `q` of the weight tile, plus entry `q` of the bias tile. -/
theorem pay3_apply (i : grid3.Coords) (x0 : FVec Ideal S1x1024 .f32) (x1 : FVec Ideal S2048x1024 .f32)
    (x2 : FVec Ideal S1x2048 .f32) (q : Fin 2048) (h : (i 0).val * 2048 + q.val < 50257) :
    k3_pay1 (F := Ideal) i x0 x1 x2 (ix2 0 q) = (∑ k : Fin 1024, x0 (ix2 0 k) * x1 (ix2 q k)) + x2 (ix2 0 q) := by
  unfold k3_pay1
  refine (select_inside _ _ _ _ ?_).trans ?_
  · show IntOp.cmpi .slt (IntOp.addi (Scalar.muli (BitVec.ofNat 32 (i 0).val) 2048#32)
      (iota .tc S1x2048 32 [1] iota_S1x2048_d1_w32 (ix2 0 q))) 50257#32 = 1#1
    rw [iota_single_apply]
    exact slt_vocab _ _ h
  · refine (addf_apply _ _ _).trans ?_
    refine congrArg₂ (· + ·) ((mm3_apply _ _ q).trans (Finset.sum_congr rfl fun k _ => ?_)) ?_
    · refine congrArg₂ (· * ·) ?_ ((wT_apply _ k q).trans rfl)
      show shapeCast S1x1024 x0 shapeCasts_S1x1024_S1x1024 (ix2 0 k) = x0 (ix2 0 k)
      rw [shapeCast_self]
    · rw [shapeCast_self]

/-! ### The layout over the 25 points -/

theorem hz3 : (![0, 0] : Fin 2 → Nat) = fun _ => 0 := funext fun a => by fin_cases a <;> rfl

/-- Where each window's block sits at point `t`, and how much of it is inside its array: the hidden row whole;
    weight rows, bias entries and result entries `2048·t …`, of which `min 2048 (50257 − 2048·t)` are inside. -/
theorem layout3 : ∀ t : Fin cfg3.N,
    (win3_0.index t (0 : Fin 2) = 0 ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = t.val)
    ∧ (win3_3.index t (0 : Fin 2) = 0 ∧ win3_3.index t (1 : Fin 2) = t.val)
    ∧ (grid3.coords t 0).val = t.val
    ∧ (win3_1.xsize (grid3.coords t) (0 : Fin 2) = min 2048 (50257 - 2048 * t.val) ∧ win3_1.xsize (grid3.coords t) (1 : Fin 2) = 1024)
    ∧ (win3_2.xsize (grid3.coords t) (0 : Fin 2) = 1 ∧ win3_2.xsize (grid3.coords t) (1 : Fin 2) = min 2048 (50257 - 2048 * t.val))
    ∧ (win3_3.xsize (grid3.coords t) (0 : Fin 2) = 1 ∧ win3_3.xsize (grid3.coords t) (1 : Fin 2) = min 2048 (50257 - 2048 * t.val)) :=
  (by decide +kernel : ∀ t : Fin grid3.N, _)

/-! ### The staged tiles, read back as the arrays' own rows -/

/-- At an index the transfer moves, a filled tile holds what was moved there; the filler is not read. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- The hidden row's block is the whole row at every point. -/
theorem hrow3_apply (H : (⟨S1x1024, .f32⟩ : BufTy).Contents (Elt Ideal)) (t : Fin cfg3.N) (k : Fin 1024) :
    (win3_0.blk t).view.read (Elt Ideal) H (ix2 0 k) = H (ix2 0 k) := by
  obtain ⟨⟨e00, e01⟩, -⟩ := layout3 t
  show H ((win3_0.blk t).view.emb (ix2 0 k)) = _
  refine congrArg H (funext fun a => Fin.ext ?_)
  match a with
  | ⟨0, _⟩ => show win3_0.index t (0 : Fin 2) * 1 + 1 * 0 = 0; rw [e00]
  | ⟨1, _⟩ => show win3_0.index t (1 : Fin 2) * 1024 + 1 * k.val = k.val; rw [e01]; omega

/-- Row `q` of the weight tile at point `t`, when that row is inside the array, is row `2048·t + q` of the weight. -/
theorem wtile3_apply (A : (⟨S50257x1024, .f32⟩ : BufTy).Contents (Elt Ideal)) (t : Fin cfg3.N)
    (d : S2048x1024.Idx → Elt Ideal .f32) (q : Fin 2048) (k : Fin 1024) (hq : t.val * 2048 + q.val < 50257) :
    win3_1.fill (grid3.coords t) d ((win3_1.blk t).view.read (Elt Ideal) A) (ix2 q k)
      = A (ix2 ⟨t.val * 2048 + q.val, hq⟩ k) := by
  obtain ⟨-, ⟨e10, e11⟩, -, -, -, ⟨s10, s11⟩, -, -⟩ := layout3 t
  have hm : win3_1.moved (grid3.coords t) (ix2 q k) = true := (win3_1.moved_iff _ _).mpr fun a => by
    match a with
    | ⟨0, _⟩ => show q.val < win3_1.xsize (grid3.coords t) (0 : Fin 2); rw [s10]; have := q.isLt; omega
    | ⟨1, _⟩ => show k.val < win3_1.xsize (grid3.coords t) (1 : Fin 2); rw [s11]; exact k.isLt
  rw [fill_of_moved _ _ _ _ _ hm]
  show A ((win3_1.blk t).view.emb _) = _
  refine congrArg A (funext fun a => Fin.ext ?_)
  match a with
  | ⟨0, _⟩ => show win3_1.index t (0 : Fin 2) * 2048 + 1 * q.val = t.val * 2048 + q.val; rw [e10]; omega
  | ⟨1, _⟩ => show win3_1.index t (1 : Fin 2) * 1024 + 1 * k.val = k.val; rw [e11]; omega

/-- Entry `q` of the bias tile at point `t`, when inside the array, is entry `2048·t + q` of the bias row. -/
theorem btile3_apply (B : (⟨S1x50257, .f32⟩ : BufTy).Contents (Elt Ideal)) (t : Fin cfg3.N)
    (d : S1x2048.Idx → Elt Ideal .f32) (q : Fin 2048) (hq : t.val * 2048 + q.val < 50257) :
    win3_2.fill (grid3.coords t) d ((win3_2.blk t).view.read (Elt Ideal) B) (ix2 0 q)
      = B (ix2 0 ⟨t.val * 2048 + q.val, hq⟩) := by
  obtain ⟨-, -, ⟨e20, e21⟩, -, -, -, ⟨s20, s21⟩, -⟩ := layout3 t
  have hm : win3_2.moved (grid3.coords t) (ix2 0 q) = true := (win3_2.moved_iff _ _).mpr fun a => by
    match a with
    | ⟨0, _⟩ => show 0 < win3_2.xsize (grid3.coords t) (0 : Fin 2); rw [s20]; exact Nat.one_pos
    | ⟨1, _⟩ => show q.val < win3_2.xsize (grid3.coords t) (1 : Fin 2); rw [s21]; have := q.isLt; omega
  rw [fill_of_moved _ _ _ _ _ hm]
  show B ((win3_2.blk t).view.emb _) = _
  refine congrArg B (funext fun a => Fin.ext ?_)
  match a with
  | ⟨0, _⟩ => show win3_2.index t (0 : Fin 2) * 1 + 1 * 0 = 0; rw [e20]
  | ⟨1, _⟩ => show win3_2.index t (1 : Fin 2) * 2048 + 1 * q.val = t.val * 2048 + q.val; rw [e21]; omega

/-! ### The result's blocks: where an entry lands, and that the 25 blocks cover the row -/

/-- Entry `y` of the part of the result tile written back at point `t` lands at vocabulary index `2048·t + y`. -/
theorem out_emb3 (t : Fin cfg3.N) (y : (win3_3.xblock (grid3.coords t)).Idx) (hy : t.val * 2048 + (y 1).val < 50257) :
    (win3_3.blk t).view.emb y = ix2 0 ⟨t.val * 2048 + (y 1).val, hy⟩ := by
  obtain ⟨-, -, -, ⟨e30, e31⟩, -, -, -, ⟨s30, s31⟩⟩ := layout3 t
  have h0 : (y 0).val < win3_3.xsize (grid3.coords t) (0 : Fin 2) := (y 0).isLt
  rw [s30] at h0
  refine funext fun a => Fin.ext ?_
  match a with
  | ⟨0, _⟩ => show win3_3.index t (0 : Fin 2) * 1 + 1 * (y 0).val = 0; rw [e30]; omega
  | ⟨1, _⟩ => show win3_3.index t (1 : Fin 2) * 2048 + 1 * (y 1).val = t.val * 2048 + (y 1).val; rw [e31]; omega

/-- Every entry written back is inside the array. -/
theorem out_lt3 (t : Fin cfg3.N) (y : (win3_3.xblock (grid3.coords t)).Idx) : t.val * 2048 + (y 1).val < 50257 := by
  obtain ⟨-, -, -, -, -, -, -, ⟨s30, s31⟩⟩ := layout3 t
  have h1 : (y 1).val < win3_3.xsize (grid3.coords t) (1 : Fin 2) := (y 1).isLt
  rw [s31] at h1
  omega

/-- Vocabulary index `j` is written back at point `j / 2048`. -/
theorem cover3 (i : S1x50257.Idx) :
    ∃ t : Fin cfg3.N, (cfg3.win 3).flush t = true ∧ i ∈ ((cfg3.win 3).blk t).view.set := by
  have hi1 : (i 1).val < 50257 := (i 1).isLt
  have hi0 : (i 0).val < 1 := (i 0).isLt
  have hN : grid3.N = 25 := N_3
  have ht : (i 1).val / 2048 < cfg3.N := by show (i 1).val / 2048 < grid3.N; omega
  refine ⟨⟨(i 1).val / 2048, ht⟩, flush3_3 _, ?_⟩
  obtain ⟨-, -, -, ⟨e30, e31⟩, -, -, -, ⟨s30, s31⟩⟩ := layout3 ⟨(i 1).val / 2048, ht⟩
  show i ∈ ((View.whole main_v45).slice (win3_3.rect ⟨(i 1).val / 2048, ht⟩)).set
  rw [View.set_slice_whole, Rect.mem_set_unit]
  intro a
  match a with
  | ⟨0, _⟩ =>
    show win3_3.index ⟨(i 1).val / 2048, ht⟩ (0 : Fin 2) * 1 ≤ (i 0).val ∧ (i 0).val < win3_3.index ⟨(i 1).val / 2048, ht⟩ (0 : Fin 2) * 1 + win3_3.xsize (grid3.coords ⟨(i 1).val / 2048, ht⟩) (0 : Fin 2)
    rw [e30, s30]; omega
  | ⟨1, _⟩ =>
    show win3_3.index ⟨(i 1).val / 2048, ht⟩ (1 : Fin 2) * 2048 ≤ (i 1).val ∧ (i 1).val < win3_3.index ⟨(i 1).val / 2048, ht⟩ (1 : Fin 2) * 2048 + win3_3.xsize (grid3.coords ⟨(i 1).val / 2048, ht⟩) (1 : Fin 2)
    rw [e31, s31]
    show (i 1).val / 2048 * 2048 ≤ (i 1).val ∧ (i 1).val < (i 1).val / 2048 * 2048 + min 2048 (50257 - 2048 * ((i 1).val / 2048))
    omega

/-! ### What each point writes back, and the array after the last point -/

/-- Row times weightᵀ plus bias, entry by entry: entry `j` is `∑ₖ H[0,k] · W[j,k] + B[0,j]`. -/
def logits3 (H : (⟨S1x1024, .f32⟩ : BufTy).Contents (Elt Ideal)) (W : (⟨S50257x1024, .f32⟩ : BufTy).Contents (Elt Ideal))
    (B : (⟨S1x50257, .f32⟩ : BufTy).Contents (Elt Ideal)) : (⟨S1x50257, .f32⟩ : BufTy).Contents (Elt Ideal) :=
  fun i => (∑ k : Fin 1024, H (ix2 0 k) * W (ix2 ⟨(i 1).val, (i 1).isLt⟩ k)) + B (ix2 0 ⟨(i 1).val, (i 1).isLt⟩)

/-- What point `t` writes back is block `t` of the logits of the arrays the region finds: each entry written is inside
    the array, so the mask there is set; its product reads only its own row of the weight tile, which is a row of the
    weight itself, and its own entry of the bias tile. -/
theorem flushed3_eq (c : Dev nD) (t : Fin cfg3.N) :
    (dat3 V c).flushed 3 t
      = ((cfg3.win 3).blk t).view.read (Elt Ideal) (logits3 (V c main_v44) (V c main_arg12) (V c main_v12)) := by
  show (cfg3.win 3).cut (grid3.coords t) ((dat3 V c).after 3 t) = _
  rw [after3_3]
  unfold out3_3
  rw [View.canon_unit_zero hz3]
  simp only [View.ld_unit_zero (S := S1x1024) hz3, View.ld_unit_zero (S := S2048x1024) hz3, View.ld_unit_zero (S := S1x2048) hz3]
  funext y
  have hy := out_lt3 t y
  obtain ⟨-, -, -, -, ec, -, -, ⟨s30, s31⟩⟩ := layout3 t
  have h0 : (y 0).val < win3_3.xsize (grid3.coords t) (0 : Fin 2) := (y 0).isLt
  rw [s30] at h0
  have hq : (y 1).val < 2048 := by
    have h1 : (y 1).val < win3_3.xsize (grid3.coords t) (1 : Fin 2) := (y 1).isLt
    rw [s31] at h1; omega
  have hx : win3_3.xinj (grid3.coords t) y = ix2 0 ⟨(y 1).val, hq⟩ := funext fun a => Fin.ext (by
    match a with
    | ⟨0, _⟩ => show (y 0).val = 0; omega
    | ⟨1, _⟩ => rfl)
  show k3_pay1 (F := Ideal) (grid3.coords t) (iblk3 V c 0 t) (wblk3 V c t) (bblk3 V c t) (win3_3.xinj (grid3.coords t) y)
      = logits3 (V c main_v44) (V c main_arg12) (V c main_v12) ((win3_3.blk t).view.emb y)
  have hin : (grid3.coords t 0).val * 2048 + (⟨(y 1).val, hq⟩ : Fin 2048).val < 50257 := by rw [ec]; exact hy
  rw [hx, pay3_apply _ _ _ _ _ hin, out_emb3 t y hy]
  unfold logits3
  refine congrArg₂ (· + ·) (Finset.sum_congr rfl fun k _ => congrArg₂ (· * ·) ?_ ?_) ?_
  · show (win3_0.blk t).view.read (Elt Ideal) (V c main_v44) (ix2 0 k) = _
    rw [hrow3_apply]
  · show win3_1.fill (grid3.coords t) _ ((win3_1.blk t).view.read (Elt Ideal) (V c main_arg12)) (ix2 ⟨(y 1).val, hq⟩ k) = _
    rw [wtile3_apply _ t _ _ k hy]
  · show win3_2.fill (grid3.coords t) _ ((win3_2.blk t).view.read (Elt Ideal) (V c main_v12)) (ix2 0 ⟨(y 1).val, hq⟩) = _
    rw [btile3_apply _ t _ _ hy]

/-- The result array after the last point: the logits of the arrays the region finds. -/
theorem arr3_eq (c : Dev nD) :
    (dat3 V c).arrAt 3 cfg3.N = logits3 (V c main_v44) (V c main_arg12) (V c main_v12) :=
  (dat3 V c).arrAt_eq_of_cover 3 _ (fun t _ => flushed3_eq V c t) cover3

/-! ### The reference's stage, entry by entry -/

/-- The reference's logits at vocabulary index `J`: the hidden stage's row times row `J` of the weight (the
    reference contracts with the transposed weight), plus entry `J` of the bias. -/
theorem ref70_apply (J : Fin 50257) :
    Cert.ReferenceIdeal.Read.val_main_v70 (F := Ideal) x0 x1 x2 x3 x4 x5 x6 x7 x8 x9 x10 x11 x12 x13 (ix2 0 J)
      = (∑ k : Fin 1024, Cert.ReferenceIdeal.Read.val_main_v66 (F := Ideal) x0 x1 x2 x3 x4 x5 x6 x7 x8 x9 x10 x11 (ix2 0 k)
            * x12 (ix2 J k)) + x13 (ix1 J) := by
  rw [Cert.ReferenceIdeal.Read.val_main_v70_apply, Cert.ReferenceIdeal.Read.val_main_v68_apply,
    Cert.ReferenceIdeal.Read.val_main_v69_apply]
  show _ + _ = _ + _
  refine congrArg₂ (· + ·) (Finset.sum_congr rfl fun k _ => ?_) (congrArg x13 ?_)
  · rw [Cert.ReferenceIdeal.Read.val_main_v67_apply]
    refine congrArg₂ (· * ·) (congrArg _ ?_) (congrArg x12 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The result: h_new · W_outᵀ + b_out, the reference's stage `val_main_v70`. -/
theorem val3 (c : Dev nD)
    (h44 : V c main_v44 = Cert.ReferenceIdeal.Read.val_main_v66 x0 x1 x2 x3 x4 x5 x6 x7 x8 x9 x10 x11) (h12 : V c main_arg12 = x12)
    (h12b : ∀ j : Fin 50257, V c main_v12 (ValueIdx.ix2 0 j) = x13 (ValueIdx.ix1 j)) :
    (dat3 V c).arrAt 3 cfg3.N = Cert.ReferenceIdeal.Read.val_main_v70 x0 x1 x2 x3 x4 x5 x6 x7 x8 x9 x10 x11 x12 x13 := by
  rw [arr3_eq V c]
  funext i
  obtain ⟨p, J, rfl⟩ : ∃ (p : Fin 1) (J : Fin 50257), i = ix2 p J := ⟨i 0, i 1, eq_ix2 i⟩
  obtain rfl : p = 0 := Subsingleton.elim _ _
  rw [ref70_apply]
  unfold logits3
  rw [h44, h12]
  exact congrArg₂ (· + ·) rfl (h12b J)

end Cert.KernelIdeal.Hand

end
-- ==== Proof.KI.Host.lean ====
/-
  What the three result buffers of the idealized program hold at the return, as the reference's own stage
  functions of the launch arguments. Item by item through @main: the host stretches are the same operations on both
  sides (the index wrap and the embedding gather, the reshapes, the concatenation, the gate arithmetic, log_softmax,
  the hidden state's reshape), read off the fold of buffer contents; each kernel region's result array is the
  reference's stage by that region's value lemma, its inputs being stages already identified. A bias reshaped to a
  one-row matrix holds at (0, j) the argument's entry j. At the ideal instance.
-/
import proofs.«413161_j58153857188588_3_alg».proof.Proof.KI.Args
import proofs.«413161_j58153857188588_3_alg».proof.Proof.KI.Val0
import proofs.«413161_j58153857188588_3_alg».proof.Proof.KI.Val1
import proofs.«413161_j58153857188588_3_alg».proof.Proof.KI.Val2
import proofs.«413161_j58153857188588_3_alg».proof.Proof.KI.Val3
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)
open Cert.ReferenceIdeal.Read

variable (m : (ℓ : Loc nD τ sig) → Buf (Elt Ideal) ℓ) (c : Dev nD)

-- the launch contents of the fourteen argument arrays
set_option quotPrecheck false
local notation "A0" => m ((c : Dev nD), Proc.devRef .tc main_arg0)
local notation "A1" => m ((c : Dev nD), Proc.devRef .tc main_arg1)
local notation "A2" => m ((c : Dev nD), Proc.devRef .tc main_arg2)
local notation "A3" => m ((c : Dev nD), Proc.devRef .tc main_arg3)
local notation "A4" => m ((c : Dev nD), Proc.devRef .tc main_arg4)
local notation "A5" => m ((c : Dev nD), Proc.devRef .tc main_arg5)
local notation "A6" => m ((c : Dev nD), Proc.devRef .tc main_arg6)
local notation "A7" => m ((c : Dev nD), Proc.devRef .tc main_arg7)
local notation "A8" => m ((c : Dev nD), Proc.devRef .tc main_arg8)
local notation "A9" => m ((c : Dev nD), Proc.devRef .tc main_arg9)
local notation "A10" => m ((c : Dev nD), Proc.devRef .tc main_arg10)
local notation "A11" => m ((c : Dev nD), Proc.devRef .tc main_arg11)
local notation "A12" => m ((c : Dev nD), Proc.devRef .tc main_arg12)
local notation "A13" => m ((c : Dev nD), Proc.devRef .tc main_arg13)

/-! ## After the first host stretch: the gathered row, the hidden row, the five biases as rows -/

/-- The gathered embedding row. -/
theorem at1_v6 : W1 m c (Proc.devRef .tc main_v6) = val_main_v6 A0 A3 := by
  show StableHlo.after hostOps0 (W0 m c) (Proc.devRef .tc main_v6) = _
  after_results
  rfl

/-- The hidden row. -/
theorem at1_v7 : W1 m c (Proc.devRef .tc main_v7) = val_main_v7 A1 := by
  show StableHlo.after hostOps0 (W0 m c) (Proc.devRef .tc main_v7) = _
  after_results
  rfl

/-- The attention bias as a (1, 40) row: entry (0, j) is entry j of the argument. -/
theorem at1_v8 (j : Fin 40) : W1 m c (Proc.devRef .tc main_v8) (ValueIdx.ix2 0 j) = A5 (ValueIdx.ix1 j) := by
  have h : (W1 m c (Proc.devRef .tc main_v8) : (⟨S1x40, .f32⟩ : BufTy).Contents (Elt Ideal))
      = shapeCast S1x40 (A5 : (⟨S40, .f32⟩ : BufTy).Contents (Elt Ideal)) shapeCasts_S40_S1x40 := by
    show StableHlo.after hostOps0 (W0 m c) (Proc.devRef .tc main_v8) = _
    after_results
    rfl
  exact (congrFun h _).trans (ValueIdx.shapeCast_a_1a_apply _ _ 0 j)

/-- The combine bias as a (1, 1024) row. -/
theorem at1_v9 (j : Fin 1024) : W1 m c (Proc.devRef .tc main_v9) (ValueIdx.ix2 0 j) = A7 (ValueIdx.ix1 j) := by
  have h : (W1 m c (Proc.devRef .tc main_v9) : (⟨S1x1024, .f32⟩ : BufTy).Contents (Elt Ideal))
      = shapeCast S1x1024 (A7 : (⟨S1024, .f32⟩ : BufTy).Contents (Elt Ideal)) shapeCasts_S1024_S1x1024 := by
    show StableHlo.after hostOps0 (W0 m c) (Proc.devRef .tc main_v9) = _
    after_results
    rfl
  exact (congrFun h _).trans (ValueIdx.shapeCast_a_1a_apply _ _ 0 j)

/-- The two GRU biases as (1, 3072) rows. -/
theorem at1_v10 (j : Fin 3072) : W1 m c (Proc.devRef .tc main_v10) (ValueIdx.ix2 0 j) = A10 (ValueIdx.ix1 j) := by
  have h : (W1 m c (Proc.devRef .tc main_v10) : (⟨S1x3072, .f32⟩ : BufTy).Contents (Elt Ideal))
      = shapeCast S1x3072 (A10 : (⟨S3072, .f32⟩ : BufTy).Contents (Elt Ideal)) shapeCasts_S3072_S1x3072 := by
    show StableHlo.after hostOps0 (W0 m c) (Proc.devRef .tc main_v10) = _
    after_results
    rfl
  exact (congrFun h _).trans (ValueIdx.shapeCast_a_1a_apply _ _ 0 j)
theorem at1_v11 (j : Fin 3072) : W1 m c (Proc.devRef .tc main_v11) (ValueIdx.ix2 0 j) = A11 (ValueIdx.ix1 j) := by
  have h : (W1 m c (Proc.devRef .tc main_v11) : (⟨S1x3072, .f32⟩ : BufTy).Contents (Elt Ideal))
      = shapeCast S1x3072 (A11 : (⟨S3072, .f32⟩ : BufTy).Contents (Elt Ideal)) shapeCasts_S3072_S1x3072 := by
    show StableHlo.after hostOps0 (W0 m c) (Proc.devRef .tc main_v11) = _
    after_results
    rfl
  exact (congrFun h _).trans (ValueIdx.shapeCast_a_1a_apply _ _ 0 j)

/-- The output bias as a (1, 50257) row. -/
theorem at1_v12 (j : Fin 50257) : W1 m c (Proc.devRef .tc main_v12) (ValueIdx.ix2 0 j) = A13 (ValueIdx.ix1 j) := by
  have h : (W1 m c (Proc.devRef .tc main_v12) : (⟨S1x50257, .f32⟩ : BufTy).Contents (Elt Ideal))
      = shapeCast S1x50257 (A13 : (⟨S50257, .f32⟩ : BufTy).Contents (Elt Ideal)) shapeCasts_S50257_S1x50257 := by
    show StableHlo.after hostOps0 (W0 m c) (Proc.devRef .tc main_v12) = _
    after_results
    rfl
  exact (congrFun h _).trans (ValueIdx.shapeCast_a_1a_apply _ _ 0 j)

/-! ## The attention step -/

/-- The attention weights: the softmax stage. -/
theorem at2_v13_1 : W2 m c (Proc.devRef .tc main_v13_1) = val_main_v23 A0 A1 A3 A4 A5 :=
  (W2_arr m c 6).trans (val0_weights (V1 m) _ _ _ _ _ c (at1_v6 m c) (at1_v7 m c) (ro_arg4.at1 c) (at1_v8 m c))

/-- The weights applied to the encoder outputs. -/
theorem at2_v13_0 : W2 m c (Proc.devRef .tc main_v13_0) = val_main_v24 A0 A1 A2 A3 A4 A5 :=
  (W2_arr m c 5).trans (val0_applied (V1 m) _ _ _ _ _ _ c (at1_v6 m c) (at1_v7 m c) (ro_arg4.at1 c) (at1_v8 m c) (ro_arg2.at1 c))

/-! ## The concatenation and the combine projection -/

/-- The gathered row joined with the applied row. -/
theorem at3_v14 : W3 m c (Proc.devRef .tc main_v14) = val_main_v25 A0 A1 A2 A3 A4 A5 := by
  show StableHlo.after hostOps1 (W2 m c) (Proc.devRef .tc main_v14) = _
  after_results
  rw [step12 m c (b := main_v6) (by decide) (by decide), at1_v6 m c, at2_v13_0 m c]
  rfl

theorem at3_v9 (j : Fin 1024) : W3 m c (Proc.devRef .tc main_v9) (ValueIdx.ix2 0 j) = A7 (ValueIdx.ix1 j) := by
  rw [step23 m c (b := main_v9) (by decide), step12 m c (b := main_v9) (by decide) (by decide)]
  exact at1_v9 m c j

/-- The relu row. -/
theorem at4_v15 : W4 m c (Proc.devRef .tc main_v15) = val_main_v30 A0 A1 A2 A3 A4 A5 A6 A7 :=
  (W4_arr m c 3).trans (val1 (V3 m) _ _ _ _ _ _ _ _ c (at3_v14 m c) (ro_arg6.at3 c) (at3_v9 m c))

/-! ## The two GRU projections -/

theorem at4_v10 (j : Fin 3072) : W4 m c (Proc.devRef .tc main_v10) (ValueIdx.ix2 0 j) = A10 (ValueIdx.ix1 j) := by
  rw [step34 m c (b := main_v10) (by decide), step23 m c (b := main_v10) (by decide), step12 m c (b := main_v10) (by decide) (by decide)]
  exact at1_v10 m c j
theorem at4_v11 (j : Fin 3072) : W4 m c (Proc.devRef .tc main_v11) (ValueIdx.ix2 0 j) = A11 (ValueIdx.ix1 j) := by
  rw [step34 m c (b := main_v11) (by decide), step23 m c (b := main_v11) (by decide), step12 m c (b := main_v11) (by decide) (by decide)]
  exact at1_v11 m c j
theorem at4_v7 : W4 m c (Proc.devRef .tc main_v7) = val_main_v7 A1 :=
  (step34 m c (by decide)).trans <| (step23 m c (by decide)).trans <| (step12 m c (by decide) (by decide)).trans (at1_v7 m c)

/-- The input-side projection. -/
theorem at5_v16_0 : W5 m c (Proc.devRef .tc main_v16_0) = val_main_v34 A0 A1 A2 A3 A4 A5 A6 A7 A8 A10 :=
  (W5_arr m c 6).trans (val2_ih (V4 m) _ _ _ _ _ _ _ _ _ _ c (at4_v15 m c) (ro_arg8.at4 c) (at4_v10 m c))

/-- The hidden-side projection. -/
theorem at5_v16_1 : W5 m c (Proc.devRef .tc main_v16_1) = val_main_v38 A1 A9 A11 :=
  (W5_arr m c 7).trans (val2_hh (V4 m) _ _ _ c (at4_v7 m c) (ro_arg9.at4 c) (at4_v11 m c))

theorem at5_v7 : W5 m c (Proc.devRef .tc main_v7) = val_main_v7 A1 :=
  (step45 m c (by decide) (by decide)).trans (at4_v7 m c)

/-! ## The gate arithmetic and the output projection -/

/-- The new hidden row. -/
theorem at6_v44 : W6 m c (Proc.devRef .tc main_v44) = val_main_v66 A0 A1 A2 A3 A4 A5 A6 A7 A8 A9 A10 A11 := by
  show StableHlo.after hostOps3 (W5 m c) (Proc.devRef .tc main_v44) = _
  after_results_simp
  rw [at5_v16_0 m c, at5_v16_1 m c, at5_v7 m c]
  rfl

theorem at6_v12 (j : Fin 50257) : W6 m c (Proc.devRef .tc main_v12) (ValueIdx.ix2 0 j) = A13 (ValueIdx.ix1 j) := by
  rw [step56 m c (b := main_v12) (by decide), step45 m c (b := main_v12) (by decide) (by decide), step34 m c (b := main_v12) (by decide),
    step23 m c (b := main_v12) (by decide), step12 m c (b := main_v12) (by decide) (by decide)]
  exact at1_v12 m c j

/-- The logits. -/
theorem at7_v45 : W7 m c (Proc.devRef .tc main_v45) = val_main_v70 A0 A1 A2 A3 A4 A5 A6 A7 A8 A9 A10 A11 A12 A13 :=
  (W7_arr m c 3).trans (val3 (V6 m) _ _ _ _ _ _ _ _ _ _ _ _ _ _ c (at6_v44 m c) (ro_arg12.at6 c) (at6_v12 m c))

/-! ## log_softmax, the hidden state's reshape, and the three results at the return -/

/-- Moving a tensor value into its buffer's own type and back is the identity. -/
theorem ofBuf_toBuf {Val : EltTy → Type} {T : BufTy} (x : StableHlo.TRef sig T) (v : T.Contents Val) : x.ofBuf (x.toBuf v) = v := by
  obtain ⟨r, h, _, _⟩ := x; subst h; rfl

theorem at8_v46 : W8 m c (Proc.devRef .tc main_v46) = val_main_v71 A0 A1 A2 A3 A4 A5 A6 A7 A8 A9 A10 A11 A12 A13 := by
  show StableHlo.after hostOps4 (W7 m c) (Proc.devRef .tc main_v46) = _
  after_results_simp
  rw [at7_v45 m c]
  simp only [ofBuf_toBuf]
  rfl

/-- The log-probabilities over the vocabulary. -/
theorem res_logp : W9 m c (Proc.devRef .tc main_v46) = Cert.ReferenceIdeal.Read.val_main_v71 A0 A1 A2 A3 A4 A5 A6 A7 A8 A9 A10 A11 A12 A13 :=
  (step89 m c (by decide)).trans (at8_v46 m c)

/-- The new hidden state. -/
theorem res_hidden : W9 m c (Proc.devRef .tc main_v47) = Cert.ReferenceIdeal.Read.val_main_v72 A0 A1 A2 A3 A4 A5 A6 A7 A8 A9 A10 A11 := by
  show StableHlo.after hostOps4_1 (W8 m c) (Proc.devRef .tc main_v47) = _
  after_results
  rw [step67 m c (b := main_v44) (by decide), at6_v44 m c]
  rfl

/-- The attention weights. -/
theorem res_weights : W9 m c (Proc.devRef .tc main_v13_1) = Cert.ReferenceIdeal.Read.val_main_v23 A0 A1 A3 A4 A5 :=
  (step89 m c (by decide)).trans <| (step78 m c (by decide)).trans <| (step67 m c (by decide)).trans <| (step56 m c (by decide)).trans <|
    (step45 m c (by decide) (by decide)).trans <| (step34 m c (by decide)).trans <| (step23 m c (by decide)).trans (at2_v13_1 m c)

end Cert.KernelIdeal.Hand

end
-- ==== Proof.lean ====
/-
  An attention-decoder step: an embedding row is gathered; a softmax over forty attention logits weights the encoder
  outputs; a combine projection with relu, two GRU projections and the gate arithmetic give the new hidden state; an
  output projection over a vocabulary of 50257 entries and a log_softmax give the log-probabilities. The kernel
  program computes the attention step, the combine projection, the two GRU projections and the output projection in
  four tiled kernel regions (their matrix products on operands cut to sixteen bits, which is the identity over the
  extended reals) and the rest by the same host operations as the reference.

  The claims. The word-level program runs to the end without a fault and leaves its fourteen arguments as launched:
  its regions' bodies are run on their staging buffers, the first three with every buffer's contents named, the last
  with its result tile's contents left unnamed (its last tile overhangs the arrays). The idealized program runs
  likewise and every unscoped buffer ends at a fold of contents through @main's nine items; there the last region's
  result is named too, an entry of a matrix product over the extended reals being a sum over the contraction that
  reads its own row of the weight tile only. The reference runs, stretch of operations by stretch, to its own stage functions of the arguments. Read through the
  fold, the idealized program's three results are the reference's own stage functions of the arguments: each host
  stretch is the same operations on both sides, and each region's result array is the reference's matching stage
  entry by entry (the tiles cover the arrays; a tile's entry is the contraction's sum plus the bias, under a softmax,
  a relu or the vocabulary mask, which inside the array always keeps the value). No rewrite was applied by the
  idealization, so that conjunct is trivial. Finiteness of the inputs is not used: every identity here is one of
  sums and products in one order, of the same operations on the same values.
-/
import proofs.«413161_j58153857188588_3_alg».proof.Defs
import proofs.«413161_j58153857188588_3_alg».proof.Proof.Gen.Kernel
import proofs.«413161_j58153857188588_3_alg».proof.Proof.Gen.KernelIdeal
import proofs.«413161_j58153857188588_3_alg».proof.Proof.Gen.ReferenceIdeal
import proofs.«413161_j58153857188588_3_alg».proof.Proof.RefRunH
import proofs.«413161_j58153857188588_3_alg».proof.Proof.Gen.Pre_finite_inputs
import proofs.«413161_j58153857188588_3_alg».proof.Proof.K.Frame
import proofs.«413161_j58153857188588_3_alg».proof.Proof.KI.Run
import proofs.«413161_j58153857188588_3_alg».proof.Proof.KI.Reg3
import proofs.«413161_j58153857188588_3_alg».proof.Proof.KI.Host
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k [hKernel : Cert.Kernel.Facts] [hPre : Cert.Pre_finite_inputs.Facts] : Cert.frame_Kernel :=
  fun m ρ _ => Cert.Kernel.Hand.frame (F := Bits) m ρ

/-- The idealized program's run: every unscoped buffer ends at the fold's last contents. -/
theorem run_ki (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem ((c : Thread Cert.KernelIdeal.nD Cert.KernelIdeal.τ).1, b) = Cert.KernelIdeal.Hand.W9 m c b) :=
  Cert.KernelIdeal.Hand.run_all (F := Ideal) m ρ (fun c => Cert.KernelIdeal.Hand.body_obligation3 (Cert.KernelIdeal.Hand.V6 m) c)

/-- The idealized program's frame: the arguments are buffers @main only reads. -/
theorem frame_ki [hKernelIdeal : Cert.KernelIdeal.Facts] [hPre : Cert.Pre_finite_inputs.Facts] : Cert.frame_KernelIdeal :=
  fun m ρ _ => (θ_run Cert.KernelIdeal.defs _ _).mono (fun r h c =>
    ⟨(h c _ (Finset.mem_filter.mpr ⟨StableHlo.devRef_mem_tcRefs Cert.KernelIdeal.main_arg0, by decide⟩)).trans (Cert.KernelIdeal.Hand.ro_arg0.at9 c),
      (h c _ (Finset.mem_filter.mpr ⟨StableHlo.devRef_mem_tcRefs Cert.KernelIdeal.main_arg1, by decide⟩)).trans (Cert.KernelIdeal.Hand.ro_arg1.at9 c),
      (h c _ (Finset.mem_filter.mpr ⟨StableHlo.devRef_mem_tcRefs Cert.KernelIdeal.main_arg2, by decide⟩)).trans (Cert.KernelIdeal.Hand.ro_arg2.at9 c),
      (h c _ (Finset.mem_filter.mpr ⟨StableHlo.devRef_mem_tcRefs Cert.KernelIdeal.main_arg3, by decide⟩)).trans (Cert.KernelIdeal.Hand.ro_arg3.at9 c),
      (h c _ (Finset.mem_filter.mpr ⟨StableHlo.devRef_mem_tcRefs Cert.KernelIdeal.main_arg4, by decide⟩)).trans (Cert.KernelIdeal.Hand.ro_arg4.at9 c),
      (h c _ (Finset.mem_filter.mpr ⟨StableHlo.devRef_mem_tcRefs Cert.KernelIdeal.main_arg5, by decide⟩)).trans (Cert.KernelIdeal.Hand.ro_arg5.at9 c),
      (h c _ (Finset.mem_filter.mpr ⟨StableHlo.devRef_mem_tcRefs Cert.KernelIdeal.main_arg6, by decide⟩)).trans (Cert.KernelIdeal.Hand.ro_arg6.at9 c),
      (h c _ (Finset.mem_filter.mpr ⟨StableHlo.devRef_mem_tcRefs Cert.KernelIdeal.main_arg7, by decide⟩)).trans (Cert.KernelIdeal.Hand.ro_arg7.at9 c),
      (h c _ (Finset.mem_filter.mpr ⟨StableHlo.devRef_mem_tcRefs Cert.KernelIdeal.main_arg8, by decide⟩)).trans (Cert.KernelIdeal.Hand.ro_arg8.at9 c),
      (h c _ (Finset.mem_filter.mpr ⟨StableHlo.devRef_mem_tcRefs Cert.KernelIdeal.main_arg9, by decide⟩)).trans (Cert.KernelIdeal.Hand.ro_arg9.at9 c),
      (h c _ (Finset.mem_filter.mpr ⟨StableHlo.devRef_mem_tcRefs Cert.KernelIdeal.main_arg10, by decide⟩)).trans (Cert.KernelIdeal.Hand.ro_arg10.at9 c),
      (h c _ (Finset.mem_filter.mpr ⟨StableHlo.devRef_mem_tcRefs Cert.KernelIdeal.main_arg11, by decide⟩)).trans (Cert.KernelIdeal.Hand.ro_arg11.at9 c),
      (h c _ (Finset.mem_filter.mpr ⟨StableHlo.devRef_mem_tcRefs Cert.KernelIdeal.main_arg12, by decide⟩)).trans (Cert.KernelIdeal.Hand.ro_arg12.at9 c),
      (h c _ (Finset.mem_filter.mpr ⟨StableHlo.devRef_mem_tcRefs Cert.KernelIdeal.main_arg13, by decide⟩)).trans (Cert.KernelIdeal.Hand.ro_arg13.at9 c)⟩) (run_ki m ρ)

/-- The reference's frame: its run with the results dropped. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2.2.2) (Cert.ReferenceIdeal.Hand.ref_run m ρ)

/-- No operation was rewritten by the idealization. -/
theorem preserves : Cert.preserves_Kernel_KernelIdeal := trivial

set_option maxHeartbeats 1000000 in
/-- From memories agreeing on the arguments both programs run, and the three results are, on both sides, the
    reference's stages of the arguments. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.ReferenceIdeal.Read.val_main_v71 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Read.val_main_v72 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v23 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (run_ki m ρ)
    have q0 := (h c _ (Finset.mem_filter.mpr ⟨StableHlo.devRef_mem_tcRefs Cert.KernelIdeal.main_v46, by decide⟩)).trans (Cert.KernelIdeal.Hand.res_logp m c)
    have q1 := (h c _ (Finset.mem_filter.mpr ⟨StableHlo.devRef_mem_tcRefs Cert.KernelIdeal.main_v47, by decide⟩)).trans (Cert.KernelIdeal.Hand.res_hidden m c)
    have q2 := (h c _ (Finset.mem_filter.mpr ⟨StableHlo.devRef_mem_tcRefs Cert.KernelIdeal.main_v13_1, by decide⟩)).trans (Cert.KernelIdeal.Hand.res_weights m c)
    exact ⟨q0, q1, q2,
      (h c _ (Finset.mem_filter.mpr ⟨StableHlo.devRef_mem_tcRefs Cert.KernelIdeal.main_arg0, by decide⟩)).trans (Cert.KernelIdeal.Hand.ro_arg0.at9 c),
      (h c _ (Finset.mem_filter.mpr ⟨StableHlo.devRef_mem_tcRefs Cert.KernelIdeal.main_arg1, by decide⟩)).trans (Cert.KernelIdeal.Hand.ro_arg1.at9 c),
      (h c _ (Finset.mem_filter.mpr ⟨StableHlo.devRef_mem_tcRefs Cert.KernelIdeal.main_arg2, by decide⟩)).trans (Cert.KernelIdeal.Hand.ro_arg2.at9 c),
      (h c _ (Finset.mem_filter.mpr ⟨StableHlo.devRef_mem_tcRefs Cert.KernelIdeal.main_arg3, by decide⟩)).trans (Cert.KernelIdeal.Hand.ro_arg3.at9 c),
      (h c _ (Finset.mem_filter.mpr ⟨StableHlo.devRef_mem_tcRefs Cert.KernelIdeal.main_arg4, by decide⟩)).trans (Cert.KernelIdeal.Hand.ro_arg4.at9 c),
      (h c _ (Finset.mem_filter.mpr ⟨StableHlo.devRef_mem_tcRefs Cert.KernelIdeal.main_arg5, by decide⟩)).trans (Cert.KernelIdeal.Hand.ro_arg5.at9 c),
      (h c _ (Finset.mem_filter.mpr ⟨StableHlo.devRef_mem_tcRefs Cert.KernelIdeal.main_arg6, by decide⟩)).trans (Cert.KernelIdeal.Hand.ro_arg6.at9 c),
      (h c _ (Finset.mem_filter.mpr ⟨StableHlo.devRef_mem_tcRefs Cert.KernelIdeal.main_arg7, by decide⟩)).trans (Cert.KernelIdeal.Hand.ro_arg7.at9 c),
      (h c _ (Finset.mem_filter.mpr ⟨StableHlo.devRef_mem_tcRefs Cert.KernelIdeal.main_arg8, by decide⟩)).trans (Cert.KernelIdeal.Hand.ro_arg8.at9 c),
      (h c _ (Finset.mem_filter.mpr ⟨StableHlo.devRef_mem_tcRefs Cert.KernelIdeal.main_arg9, by decide⟩)).trans (Cert.KernelIdeal.Hand.ro_arg9.at9 c),
      (h c _ (Finset.mem_filter.mpr ⟨StableHlo.devRef_mem_tcRefs Cert.KernelIdeal.main_arg10, by decide⟩)).trans (Cert.KernelIdeal.Hand.ro_arg10.at9 c),
      (h c _ (Finset.mem_filter.mpr ⟨StableHlo.devRef_mem_tcRefs Cert.KernelIdeal.main_arg11, by decide⟩)).trans (Cert.KernelIdeal.Hand.ro_arg11.at9 c),
      (h c _ (Finset.mem_filter.mpr ⟨StableHlo.devRef_mem_tcRefs Cert.KernelIdeal.main_arg12, by decide⟩)).trans (Cert.KernelIdeal.Hand.ro_arg12.at9 c),
      (h c _ (Finset.mem_filter.mpr ⟨StableHlo.devRef_mem_tcRefs Cert.KernelIdeal.main_arg13, by decide⟩)).trans (Cert.KernelIdeal.Hand.ro_arg13.at9 c)⟩
  · refine (θ_run Cert.ReferenceIdeal.defs _ _).mono (fun r h c => ?_) (Cert.ReferenceIdeal.Hand.ref_run m' ρ')
    obtain ⟨h0, h1, h2, hargs⟩ := h c
    obtain ⟨e0, e1, e2, e3, e4, e5, e6, e7, e8, e9, e10, e11, e12, e13⟩ := hagree c
    refine ⟨?_, ?_, ?_, hargs⟩
    · rw [h0, e0, e1, e2, e3, e4, e5, e6, e7, e8, e9, e10, e11, e12, e13]
    · rw [h1, e0, e1, e2, e3, e4, e5, e6, e7, e8, e9, e10, e11]
    · rw [h2, e0, e1, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
